-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x1024 : Shape := ⟨2, ![8, 1024]⟩
abbrev S32000x2048 : Shape := ⟨2, ![32000, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_v8 : IVec S_ 1) (main_v16 : IVec S8x1024 1) : IVec S_ 1 :=
  let main_c_5 : IVec S_ 1 := constantI S_ 1 1#1
  let main_v17 : IVec S_ 1 := (fun x v => Host.reduce IntOp.andi x v reducesTo_S8x1024_S_d0_1 h_S_) main_v16 main_c_5
  let main_v18 : IVec S_ 1 := andi main_v8 main_v17
  main_v18

def fn {F : FTy → Type} [FloatOps F] (main_arg0 : FVec F S8x1024x2048 .f32) (main_arg1 : IVec S8x1024 32) (main_arg2 : FVec F S32000x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S32000x2048 .f32 := Host.absf main_arg2
  let main_cst_0 : FVec F S_ .f32 := constant S_ .f32 0x7F800000#32
  let main_v5 : FVec F S32000x2048 .f32 := broadcastInDim S32000x2048 ![] bcast_S_S32000x2048 main_cst_0
  let main_v6 : IVec S32000x2048 1 := cmpf .olt main_v4 main_v5
  let main_c_1 : IVec S_ 1 := constantI S_ 1 1#1
  let main_v7 : IVec S_ 1 := (fun x v => Host.reduce IntOp.andi x v reducesTo_S32000x2048_S_d0_1 h_S_) main_v6 main_c_1
  let main_v8 : IVec S_ 1 := andi main_v3 main_v7
  let main_c_2 : IVec S_ 32 := constantI S_ 32 4294967196#32
  let main_v9 : IVec S8x1024 32 := broadcastInDim S8x1024 ![] bcast_S_S8x1024 main_c_2
  let main_v10 : IVec S8x1024 1 := cmpi .eq main_arg1 main_v9
  let main_c_3 : IVec S_ 32 := constantI S_ 32 0#32
  let main_v11 : IVec S8x1024 32 := broadcastInDim S8x1024 ![] bcast_S_S8x1024 main_c_3
  let main_v12 : IVec S8x1024 1 := cmpi .sge main_arg1 main_v11
  let main_c_4 : IVec S_ 32 := constantI S_ 32 32000#32
  let main_v13 : IVec S8x1024 32 := broadcastInDim S8x1024 ![] bcast_S_S8x1024 main_c_4
  let main_v14 : IVec S8x1024 1 := cmpi .slt main_arg1 main_v13
  let main_v15 : IVec S8x1024 1 := andi main_v12 main_v14
  let main_v16 : IVec S8x1024 1 := ori main_v10 main_v15
  fn_part1 (F := F) main_v8 main_v16
-- ==== Kernel.lean ====
abbrev S8x1024x2048 : Shape := ⟨3, ![8, 1024, 2048]⟩
abbrev S8x1024 : Shape := ⟨2, ![8, 1024]⟩
abbrev S32000x2048 : Shape := ⟨2, ![32000, 2048]⟩
abbrev S8192x2048 : Shape := ⟨2, ![8192, 2048]⟩
abbrev S8192 : Shape := ⟨1, ![8192]⟩
abbrev S_ : Shape := ⟨0, ![]⟩
abbrev S8192x1 : Shape := ⟨2, ![8192, 1]⟩
abbrev S1024x2048 : Shape := ⟨2, ![1024, 2048]⟩
abbrev S1280x2048 : Shape := ⟨2, ![1280, 2048]⟩
abbrev S1024x1 : Shape := ⟨2, ![1024, 1]⟩
abbrev S1024x1280 : Shape := ⟨2, ![1024, 1280]⟩
abbrev S1024 : Shape := ⟨1, ![1024]⟩
abbrev S8 : Shape := ⟨1, ![8]⟩
abbrev S4 : Shape := ⟨1, ![4]⟩
abbrev S4x1024 : Shape := ⟨2, ![4, 1024]⟩

abbrev nBuf : Space → Nat
  | .hbm => 86
  | .vmem => 13
  | .smem => 0
  | _ => 0

abbrev bufTy : (tb : Table) → Fin (tcTables nBuf tb) → BufTy
  | .hbm, ⟨0, _⟩ => ⟨S8x1024x2048, .f32⟩
  | .hbm, ⟨1, _⟩ => ⟨S8x1024, .i32⟩
  | .hbm, ⟨2, _⟩ => ⟨S32000x2048, .f32⟩
  | .hbm, ⟨3, _⟩ => ⟨S8192x2048, .f32⟩
  | .hbm, ⟨4, _⟩ => ⟨S8192x2048, .bf16⟩
  | .hbm, ⟨5, _⟩ => ⟨S32000x2048, .bf16⟩
  | .hbm, ⟨6, _⟩ => ⟨S8192, .i32⟩
  | .hbm, ⟨7, _⟩ => ⟨S_, .i32⟩
  | .hbm, ⟨8, _⟩ => ⟨S8192, .i32⟩
  | .hbm, ⟨9, _⟩ => ⟨S8192, .i1⟩
  | .hbm, ⟨10, _⟩ => ⟨S_, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192x1, .i32⟩
  | .hbm, ⟨15, _⟩ => ⟨S8192x1, .f32⟩
  | .hbm, ⟨16, _⟩ => ⟨S8192x1, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S8192, .f32⟩
  | .hbm, ⟨22, _⟩ => ⟨S8x1024, .i1⟩
  | .hbm, ⟨23, _⟩ => ⟨S8x1024, .f32⟩
  | .hbm, ⟨24, _⟩ => ⟨S8x1024, .i32⟩
  | .hbm, ⟨25, _⟩ => ⟨S_, .i32⟩
  | .hbm, ⟨26, _⟩ => ⟨S8, .i32⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S4, .f32⟩
  | .hbm, ⟨35, _⟩ => ⟨S4, .f32⟩
  | .hbm, ⟨36, _⟩ => ⟨S4x1024, .i1⟩
  | .hbm, ⟨37, _⟩ => ⟨S4x1024, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .f32⟩
  | .hbm, ⟨43, _⟩ => ⟨S4x1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4, .f32⟩
  | .hbm, ⟨50, _⟩ => ⟨S4, .f32⟩
  | .hbm, ⟨51, _⟩ => ⟨S_, .f32⟩
  | .hbm, ⟨52, _⟩ => ⟨S4, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4, .f32⟩
  | .hbm, ⟨64, _⟩ => ⟨S_, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .i1⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1, .i32⟩
  | .local _ .vmem, ⟨5, _⟩ => ⟨S1024x1, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_c_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_v0 : Ref sig .tc := ⟨.hbm, 63, rfl⟩
abbrev main_call1_call0_cst : Ref sig .tc := ⟨.hbm, 64, rfl⟩
abbrev main_call1_call0_v0 : Ref sig .tc := ⟨.hbm, 65, rfl⟩
abbrev main_call1_call0_v1 : Ref sig .tc := ⟨.hbm, 66, rfl⟩
abbrev main_call1_call0_v2 : Ref sig .tc := ⟨.hbm, 67, rfl⟩
abbrev main_call1_call0_v3 : Ref sig .tc := ⟨.hbm, 68, rfl⟩
abbrev main_call1_call0_v4 : Ref sig .tc := ⟨.hbm, 69, rfl⟩
abbrev main_call1_call0_v5 : Ref sig .tc := ⟨.hbm, 70, rfl⟩
abbrev main_call1_call0_v6 : Ref sig .tc := ⟨.hbm, 71, rfl⟩
abbrev main_call1_call0_v7 : Ref sig .tc := ⟨.hbm, 72, rfl⟩
abbrev main_call1_call0_v8 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_v1 : Ref sig .tc := ⟨.hbm, 77, rfl⟩
abbrev main_v47 : Ref sig .tc := ⟨.hbm, 78, rfl⟩
abbrev main_cst_8 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v46 : BitVec 1 := Scalar.cmpi .eq arg1 c24_i32
  let v47 : BitVec 32 := Scalar.extui v46
  let c0_i32_24 : BitVec 32 := 0#32
  let v48 : BitVec 1 := Scalar.cmpi .ne v47 c0_i32_24
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8x1024x2048_S8192x2048 : S8x1024x2048.ShapeCasts S8192x2048
  bitsLt_bf16_f32 : FTy.bits .bf16 < FTy.bits .f32
  shapeCasts_S8x1024_S8192 : S8x1024.ShapeCasts S8192
  bcast_S_S8192 : S_.BroadcastsInDim S8192 (![] : Fin 0 → Fin S8192.rank)
  shapeCasts_S8192_S8192x1 : S8192.ShapeCasts S8192x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  iota_S1024x1280_d1_w32 : S1024x1280.Iotas .tc 32 [1]
  broadcasts_S1024x1_S1024x1280 : S1024x1.Broadcasts S1024x1280
  reduces_S1024x1280_S1024 : S1024x1280.Reduces [1] S1024
  shapeCasts_S1024_S1024x1 : S1024.ShapeCasts S1024x1
  shapeCasts_S8192x1_S8192 : S8192x1.ShapeCasts S8192
  shapeCasts_S8192_S8x1024 : S8192.ShapeCasts S8x1024
  natLt_1_32 : 1 < 32
  reducesTo_S8x1024_S8_d1 : S8x1024.ReducesTo [1] S8
  h_S_ : 0 < S_.numel
  bcast_S_S8 : S_.BroadcastsInDim S8 (![] : Fin 0 → Fin S8.rank)
  slices_S8_S4_0 : S8.Slices ![0] S4
  slices_S8_S4_4 : S8.Slices ![4] S4
  slices_S8x1024_S4x1024_0_0 : S8x1024.Slices ![0, 0] S4x1024
  reducesTo_S4x1024_S_d0_1 : S4x1024.ReducesTo [0, 1] S_
  bcast_S_S4 : S_.BroadcastsInDim S4 (![] : Fin 0 → Fin S4.rank)
  reducesTo_S4_S_d0 : S4.ReducesTo [0] S_
  dot_S1024x2048_S1280x2048_S1024x1280_1_1_0_0_n_n_wf : DotDims.WF S1024x2048 S1280x2048 S1024x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .bf16 = 32 ∨ (Rect.block (s := S32000x2048) S1280x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x2048_S1280x2048_S1024x1280_1_1_0_0_n_n : DotDims S1024x2048 S1280x2048 S1024x1280 where
  lhsContracting := [1]
  rhsContracting := [1]
  lhsNonContracting := [0]
  rhsNonContracting := [0]
  lhsBatch := []
  rhsBatch := []
  wf := dot_S1024x2048_S1280x2048_S1024x1280_1_1_0_0_n_n_wf

abbrev win0_0 : Pipeline.Window sig grid0 :=
  Pipeline.Window.ofSpec (Memref.whole main_v1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1024x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x1024x2048 : Shape := ⟨3, ![8, 1024, 2048]⟩
abbrev S8x1024 : Shape := ⟨2, ![8, 1024]⟩
abbrev S32000x2048 : Shape := ⟨2, ![32000, 2048]⟩
abbrev S8x1024x32000 : Shape := ⟨3, ![8, 1024, 32000]⟩
abbrev S_ : Shape := ⟨0, ![]⟩
abbrev S8x1024x1 : Shape := ⟨3, ![8, 1024, 1]⟩
abbrev S8x1024x1x1 : Shape := ⟨4, ![8, 1024, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩
abbrev S4x1024 : Shape := ⟨2, ![4, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x1024, .i32⟩
  | .hbm, ⟨2, _⟩ => ⟨S32000x2048, .f32⟩
  | .hbm, ⟨3, _⟩ => ⟨S8x1024x32000, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S8x1024x1, .f32⟩
  | .hbm, ⟨10, _⟩ => ⟨S8x1024x32000, .f32⟩
  | .hbm, ⟨11, _⟩ => ⟨S8x1024x32000, .f32⟩
  | .hbm, ⟨12, _⟩ => ⟨S8x1024x32000, .f32⟩
  | .hbm, ⟨13, _⟩ => ⟨S_, .f32⟩
  | .hbm, ⟨14, _⟩ => ⟨S8x1024, .f32⟩
  | .hbm, ⟨15, _⟩ => ⟨S8x1024x1, .f32⟩
  | .hbm, ⟨16, _⟩ => ⟨S8x1024x1, .f32⟩
  | .hbm, ⟨17, _⟩ => ⟨S8x1024x32000, .f32⟩
  | .hbm, ⟨18, _⟩ => ⟨S8x1024x32000, .f32⟩
  | .hbm, ⟨19, _⟩ => ⟨S_, .i32⟩
  | .hbm, ⟨20, _⟩ => ⟨S8x1024, .i32⟩
  | .hbm, ⟨21, _⟩ => ⟨S8x1024, .i1⟩
  | .hbm, ⟨22, _⟩ => ⟨S_, .i32⟩
  | .hbm, ⟨23, _⟩ => ⟨S_, .i32⟩
  | .hbm, ⟨24, _⟩ => ⟨S8x1024, .i32⟩
  | .hbm, ⟨25, _⟩ => ⟨S8x1024, .i32⟩
  | .hbm, ⟨26, _⟩ => ⟨S8x1024x1, .i32⟩
  | .hbm, ⟨27, _⟩ => ⟨S_, .i32⟩
  | .hbm, ⟨28, _⟩ => ⟨S8x1024x1, .i32⟩
  | .hbm, ⟨29, _⟩ => ⟨S8x1024x1, .i1⟩
  | .hbm, ⟨30, _⟩ => ⟨S_, .i32⟩
  | .hbm, ⟨31, _⟩ => ⟨S8x1024x1, .i32⟩
  | .hbm, ⟨32, _⟩ => ⟨S8x1024x1, .i32⟩
  | .hbm, ⟨33, _⟩ => ⟨S8x1024x1, .i32⟩
  | .hbm, ⟨34, _⟩ => ⟨S8x1024x1x1, .i32⟩
  | .hbm, ⟨35, _⟩ => ⟨S1, .i32⟩
  | .hbm, ⟨36, _⟩ => ⟨S_, .i32⟩
  | .hbm, ⟨37, _⟩ => ⟨S8x1024x1x1, .i32⟩
  | .hbm, ⟨38, _⟩ => ⟨S8x1024x1x1, .i1⟩
  | .hbm, ⟨39, _⟩ => ⟨S1x1x1x1, .i32⟩
  | .hbm, ⟨40, _⟩ => ⟨S8x1024x1x1, .i32⟩
  | .hbm, ⟨41, _⟩ => ⟨S8x1024x1x1, .i1⟩
  | .hbm, ⟨42, _⟩ => ⟨S8x1024x1x1, .i1⟩
  | .hbm, ⟨43, _⟩ => ⟨S_, .i1⟩
  | .hbm, ⟨44, _⟩ => ⟨S8x1024x1, .i1⟩
  | .hbm, ⟨45, _⟩ => ⟨S8x1024x1, .f32⟩
  | .hbm, ⟨46, _⟩ => ⟨S_, .f32⟩
  | .hbm, ⟨47, _⟩ => ⟨S8x1024x1, .f32⟩
  | .hbm, ⟨48, _⟩ => ⟨S8x1024x1, .f32⟩
  | .hbm, ⟨49, _⟩ => ⟨S8x1024, .f32⟩
  | .hbm, ⟨50, _⟩ => ⟨S8x1024, .f32⟩
  | .hbm, ⟨51, _⟩ => ⟨S8x1024, .f32⟩
  | .hbm, ⟨52, _⟩ => ⟨S8x1024, .i32⟩
  | .hbm, ⟨53, _⟩ => ⟨S_, .i32⟩
  | .hbm, ⟨54, _⟩ => ⟨S8, .i32⟩
  | .hbm, ⟨55, _⟩ => ⟨S_, .i32⟩
  | .hbm, ⟨56, _⟩ => ⟨S8, .i32⟩
  | .hbm, ⟨57, _⟩ => ⟨S8, .i32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S4, .f32⟩
  | .hbm, ⟨63, _⟩ => ⟨S4, .f32⟩
  | .hbm, ⟨64, _⟩ => ⟨S4x1024, .i1⟩
  | .hbm, ⟨65, _⟩ => ⟨S4x1024, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .f32⟩
  | .hbm, ⟨71, _⟩ => ⟨S4x1024, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S_, .f32⟩
  | .hbm, ⟨87, _⟩ => ⟨S4, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S4, .i1⟩
  | .hbm, ⟨92, _⟩ => ⟨S4, .f32⟩
  | .hbm, ⟨93, _⟩ => ⟨S4, .f32⟩
  | .hbm, ⟨94, _⟩ => ⟨S4, .f32⟩
  | .hbm, ⟨95, _⟩ => ⟨S4, .f32⟩
  | .hbm, ⟨96, _⟩ => ⟨S4, .f32⟩
  | .hbm, ⟨97, _⟩ => ⟨S4, .f32⟩
  | .hbm, ⟨98, _⟩ => ⟨S4, .f32⟩
  | .hbm, ⟨99, _⟩ => ⟨S4, .f32⟩
  | .hbm, ⟨100, _⟩ => ⟨S4, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v1 : Ref sig .tc := ⟨.hbm, 18, rfl⟩
abbrev main_c : Ref sig .tc := ⟨.hbm, 19, rfl⟩
abbrev main_v2 : Ref sig .tc := ⟨.hbm, 20, rfl⟩
abbrev main_v3 : Ref sig .tc := ⟨.hbm, 21, rfl⟩
abbrev main_c_0 : Ref sig .tc := ⟨.hbm, 22, rfl⟩
abbrev main_call1_v0 : Ref sig .tc := ⟨.hbm, 23, rfl⟩
abbrev main_call1_v1 : Ref sig .tc := ⟨.hbm, 24, rfl⟩
abbrev main_v4 : Ref sig .tc := ⟨.hbm, 25, rfl⟩
abbrev main_v5 : Ref sig .tc := ⟨.hbm, 26, rfl⟩
abbrev main_call2_c : Ref sig .tc := ⟨.hbm, 27, rfl⟩
abbrev main_call2_v0 : Ref sig .tc := ⟨.hbm, 28, rfl⟩
abbrev main_call2_v1 : Ref sig .tc := ⟨.hbm, 29, rfl⟩
abbrev main_call2_c_0 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_call2_v5 : Ref sig .tc := ⟨.hbm, 34, rfl⟩
abbrev main_call2_c_1 : Ref sig .tc := ⟨.hbm, 35, rfl⟩
abbrev main_call2_c_2 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_call2_v11 : Ref sig .tc := ⟨.hbm, 42, rfl⟩
abbrev main_call2_c_3 : Ref sig .tc := ⟨.hbm, 43, rfl⟩
abbrev main_call2_v12 : Ref sig .tc := ⟨.hbm, 44, rfl⟩
abbrev main_call2_v13 : Ref sig .tc := ⟨.hbm, 45, rfl⟩
abbrev main_call2_cst : Ref sig .tc := ⟨.hbm, 46, rfl⟩
abbrev main_call2_v14 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_c_1 : Ref sig .tc := ⟨.hbm, 53, rfl⟩
abbrev main_v11 : Ref sig .tc := ⟨.hbm, 54, rfl⟩
abbrev main_c_2 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_c_4 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_call3_v0 : Ref sig .tc := ⟨.hbm, 85, rfl⟩
abbrev main_call3_call0_cst : Ref sig .tc := ⟨.hbm, 86, rfl⟩
abbrev main_call3_call0_v0 : Ref sig .tc := ⟨.hbm, 87, rfl⟩
abbrev main_call3_call0_v1 : Ref sig .tc := ⟨.hbm, 88, rfl⟩
abbrev main_call3_call0_v2 : Ref sig .tc := ⟨.hbm, 89, rfl⟩
abbrev main_call3_call0_v3 : Ref sig .tc := ⟨.hbm, 90, rfl⟩
abbrev main_call3_call0_v4 : Ref sig .tc := ⟨.hbm, 91, rfl⟩
abbrev main_call3_call0_v5 : Ref sig .tc := ⟨.hbm, 92, rfl⟩
abbrev main_call3_call0_v6 : Ref sig .tc := ⟨.hbm, 93, rfl⟩
abbrev main_call3_call0_v7 : Ref sig .tc := ⟨.hbm, 94, rfl⟩
abbrev main_call3_call0_v8 : Ref sig .tc := ⟨.hbm, 95, rfl⟩
abbrev main_call3_call0_v9 : Ref sig .tc := ⟨.hbm, 96, rfl⟩
abbrev main_call3_call0_v10 : Ref sig .tc := ⟨.hbm, 97, rfl⟩
abbrev main_call3_call0_v11 : Ref sig .tc := ⟨.hbm, 98, rfl⟩
abbrev main_call3_v1 : Ref sig .tc := ⟨.hbm, 99, rfl⟩
abbrev main_v37 : Ref sig .tc := ⟨.hbm, 100, rfl⟩
abbrev main_cst_6 : Ref sig .tc := ⟨.hbm, 101, rfl⟩
abbrev main_v38 : Ref sig .tc := ⟨.hbm, 102, rfl⟩
abbrev main_cst_7 : Ref sig .tc := ⟨.hbm, 103, rfl⟩
abbrev main_v39 : Ref sig .tc := ⟨.hbm, 104, rfl⟩
abbrev main_cst_8 : Ref sig .tc := ⟨.hbm, 105, rfl⟩
abbrev main_v40 : Ref sig .tc := ⟨.hbm, 106, rfl⟩
abbrev main_v41 : Ref sig .tc := ⟨.hbm, 107, rfl⟩

abbrev nD : Nat := 1
abbrev τ : Topo := Topo.v7x

variable {F : FTy → Type} [FloatOps F]

class Facts₀ : Prop where
  reducesTo_S8x1024x32000_S8x1024_d2 : S8x1024x32000.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x32000_0_1_2 : S8x1024x1.BroadcastsInDim S8x1024x32000 (![0, 1, 2] : Fin 3 → Fin S8x1024x32000.rank)
  bcast_S_S8x1024x1 : S_.BroadcastsInDim S8x1024x1 (![] : Fin 0 → Fin S8x1024x1.rank)
  shapeCasts_S8x1024x1_S8x1024x1x1 : S8x1024x1.ShapeCasts S8x1024x1x1
  bcast_S_S8x1024x1x1 : S_.BroadcastsInDim S8x1024x1x1 (![] : Fin 0 → Fin S8x1024x1x1.rank)
  bcast_S1_S1x1x1x1_3 : S1.BroadcastsInDim S1x1x1x1 (![3] : Fin 1 → Fin S1x1x1x1.rank)
  bcast_S1x1x1x1_S8x1024x1x1_0_1_2_3 : S1x1x1x1.BroadcastsInDim S8x1024x1x1 (![0, 1, 2, 3] : Fin 4 → Fin S8x1024x1x1.rank)
  reducesTo_S8x1024x1x1_S8x1024x1_d3 : S8x1024x1x1.ReducesTo [3] S8x1024x1
  shapeCasts_S8x1024x1_S8x1024 : S8x1024x1.ShapeCasts S8x1024
  natLt_1_32 : 1 < 32
  reducesTo_S8x1024_S8_d1 : S8x1024.ReducesTo [1] S8
  bcast_S_S8 : S_.BroadcastsInDim S8 (![] : Fin 0 → Fin S8.rank)
  slices_S8_S4_0 : S8.Slices ![0] S4
  slices_S8_S4_4 : S8.Slices ![4] S4
  slices_S8x1024_S4x1024_0_0 : S8x1024.Slices ![0, 0] S4x1024
  reducesTo_S4x1024_S_d0_1 : S4x1024.ReducesTo [0, 1] S_
  bcast_S_S4 : S_.BroadcastsInDim S4 (![] : Fin 0 → Fin S4.rank)
  reducesTo_S4_S_d0 : S4.ReducesTo [0] S_
  dot_S8x1024x2048_S32000x2048_S8x1024x32000_2_1_01_0_n_n_wf : DotDims.WF S8x1024x2048 S32000x2048 S8x1024x32000 [2] [1] [0, 1] [0] [] []
  gather_S8x1024x32000_S8x1024x1x1_S8x1024x1_n_2_01_01_2_3_111_wf : GatherDims.WF S8x1024x32000 S8x1024x1x1 S8x1024x1 [] [2] [0, 1] [2] [0, 1] 3 ![1, 1, 1]

variable [Facts₀]

def dot_S8x1024x2048_S32000x2048_S8x1024x32000_2_1_01_0_n_n : DotDims S8x1024x2048 S32000x2048 S8x1024x32000 where
  lhsContracting := [2]
  rhsContracting := [1]
  lhsNonContracting := [0, 1]
  rhsNonContracting := [0]
  lhsBatch := []
  rhsBatch := []
  wf := dot_S8x1024x2048_S32000x2048_S8x1024x32000_2_1_01_0_n_n_wf
def gather_S8x1024x32000_S8x1024x1x1_S8x1024x1_n_2_01_01_2_3_111 : GatherDims S8x1024x32000 S8x1024x1x1 S8x1024x1 where
  offsetDims := []
  collapsedSliceDims := [2]
  operandBatchingDims := [0, 1]
  startIndicesBatchingDims := [0, 1]
  startIndexMap := [2]
  indexVectorDim := 3
  sliceSizes := ![1, 1, 1]
  wf := gather_S8x1024x32000_S8x1024x1x1_S8x1024x1_n_2_01_01_2_3_111_wf

class Facts : Prop extends Facts₀ where

variable [Facts]
-- ==== Proof.FrameK.Kit.lean ====
/-
  The launch side of the program's frame: the host operations before the kernel's region, the region on its grid of
  8 × 25 points, the host operations after it.

  The region's arrays are what the earlier host operations leave (`V`); the later host operations read the region's two
  result arrays and write fresh buffers only, so the arrays and the arguments end as the region left them.  At grid point
  `(i, k)` the body's first branch is taken where `k = 0` (every 25th point from 0) and its last where `k = 24`; the two
  result windows are stored only there, and handed back untouched elsewhere.
-/
import proofs.«402844_j8701603741902_3_alg».proof.Proof.Gen.Kernel.Launch
import proofs.«402844_j8701603741902_3_alg».proof.Proof.Gen.Kernel.Skeleton
import proofs.«402844_j8701603741902_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core `c`'s buffer contents when the region is entered: after the twelve host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the earlier host operations, the region, the later host operations: it reduces to the region continued
    by the later ones, at the contents the earlier ones leave. -/
theorem main_around (c : Dev nD) : main (F := F) c = Pipeline.chain (([hostOps0, hostOps0_1, hostOps0_2] : List (List (HloOp τ sig (Elt F)))).map StableHlo.seq
    ++ [Prog.lift (.customCall (Pipeline.entry 0) ())] ++ ([hostOps1, hostOps1_1, hostOps1_2] : List (List (HloOp τ sig (Elt F)))).map StableHlo.seq) := by
  rw [main_chain]; rfl

set_option maxHeartbeats 2000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (And.intro hostOps0_sub (And.intro hostOps0_1_sub hostOps0_2_sub))
    (And.intro hostOps0_fresh (And.intro hostOps0_1_fresh hostOps0_2_fresh)) main_around

/-- The later host operations touch only the region's arrays and the buffers that bypass it. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of this stretch writes an array of the region: each writes only its own result buffer. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array of the region: each writes only its own result buffer. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array of the region: each writes only its own result buffer. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- And so the later host operations write no array of the region. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the three argument arrays (none is an array of the region, and no host
    operation writes one), the arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch conditions -/

/-- The body's first branch: the vocabulary tile is the first (`k = 0`). -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- The body's last branch: the vocabulary tile is the last (`k = 24`). -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile result window 3 is idle and not written back; on it, it is stored. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3_C : ∀ t : Fin cfg0.N, cond0_1 (grid0.coords t) → cfg0.idle 3 (grid0.coords t) = false := by decide +kernel
/-- Off the last tile result window 4 is idle and not written back; on it, it is stored. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel

/-! ## The staging and scratch memrefs the body is called with -/

abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The three scratch buffers: the running maximum, the running sum, the running target sum. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- What the region's invariant holds between points when nothing is tracked: the three scratch buffers at some contents
    and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen.Fr

end
-- ==== Proof.FrameK.RunA.lean ====
/-
  The kernel body run at a point of the first vocabulary tile (`k = 0`): the three scratch buffers are reset, then updated from this tile; the result windows are left untouched.
  The run is symbolic: each buffer ends at its contents overwritten by the pieces the body stored, found as the run goes.
-/
import proofs.«402844_j8701603741902_3_alg».proof.Proof.FrameK.Kit

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each result window and each scratch buffer, as pieces (last first), with the proof
    that on whole memrefs — the three input blocks at their contents, the result windows at contents handed back untouched, the scratch
    buffers at anything — the body runs to its end holding the inputs as they were and each buffer it stored into
    with its pieces written. -/
noncomputable def kernelRun0_A (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) :
    Σ' (L3 : List (View.Piece (Elt F) S1024x1 .f32)) (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi3 : Vec F S1024x1 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__hotpath_kernel i arg2 harg2 arg3 harg3 arg4 harg4 arg5 harg5 arg6 harg6 arg7 harg7 arg8 harg8 arg9 harg9) K } := by
  refine ⟨[], [], ?_, ?_, ?_, fun xi3 xi4 E K => ?run⟩
  case run =>
    simp only [cc0__hotpath_kernel_eq_skeleton]; unfold cc0__hotpath_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen.Fr

end
-- ==== Proof.FrameK.RunB.lean ====
/-
  The kernel body run at a point of a vocabulary tile that is neither first nor last: the three scratch buffers are updated from this tile; the result windows are left untouched.
  The run is symbolic: each buffer ends at its contents overwritten by the pieces the body stored, found as the run goes.
-/
import proofs.«402844_j8701603741902_3_alg».proof.Proof.FrameK.RunA

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each result window and each scratch buffer, as pieces (last first), with the proof
    that on whole memrefs — the three input blocks at their contents, the result windows at contents handed back untouched, the scratch
    buffers at what the point before left — the body runs to its end holding the inputs as they were and each buffer it stored into
    with its pieces written. -/
noncomputable def kernelRun0_B (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    Σ' (L3 : List (View.Piece (Elt F) S1024x1 .f32)) (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi3 : Vec F S1024x1 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__hotpath_kernel i arg2 harg2 arg3 harg3 arg4 harg4 arg5 harg5 arg6 harg6 arg7 harg7 arg8 harg8 arg9 harg9) K } := by
  refine ⟨[], [], ?_, ?_, ?_, fun xi3 xi4 E K => ?run⟩
  case run =>
    simp only [cc0__hotpath_kernel_eq_skeleton]; unfold cc0__hotpath_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen.Fr

end
-- ==== Proof.FrameK.RunC.lean ====
/-
  The kernel body run at a point of the last vocabulary tile (`k = 24`): the three scratch buffers are updated from this tile, then the two result windows are stored from them.
  The run is symbolic: each buffer ends at its contents overwritten by the pieces the body stored, found as the run goes.
-/
import proofs.«402844_j8701603741902_3_alg».proof.Proof.FrameK.RunB

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each result window and each scratch buffer, as pieces (last first), with the proof
    that on whole memrefs — the three input blocks at their contents, the result windows at anything, the scratch
    buffers at what the point before left — the body runs to its end holding the inputs as they were and each buffer it stored into
    with its pieces written. -/
noncomputable def kernelRun0_C (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    Σ' (L3 : List (View.Piece (Elt F) S1024x1 .f32)) (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__hotpath_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__hotpath_kernel_eq_skeleton]; unfold cc0__hotpath_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    isplitl [HS1]; · iexists _; iexact HS1
    iexists _; iexact HS2

end Cert.Kernel.Gen.Fr

end
-- ==== Proof.FrameK.Frame.lean ====
/-
  The frame of the program: what the result windows and the three scratch buffers hold after every grid point, the
  region's proof data, the body's obligation at every point, and the run of the whole program.

  The grid is walked row block by row block (`i = 0 … 7`), each over the 25 vocabulary tiles (`k = 0 … 24`): point
  `t = 25 i + k`.  At `k = 0` the scratch buffers are reset before they are updated; at every other `k` they are
  updated from what the point before left; at `k = 24` the two result windows are stored and written back.  Between
  points the region's invariant holds the scratch buffers at exactly what the last point left.
-/
import proofs.«402844_j8701603741902_3_alg».proof.Proof.FrameK.RunC

set_option maxRecDepth 16384

noncomputable section

namespace Cert.Kernel.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in result window 3's staging buffer: its pieces read back (none: the window is idle there, and nothing reads this placeholder). -/
def out0_A_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)

/-- What case A leaves in result window 4's staging buffer: its pieces read back (none: the window is idle there, and nothing reads this placeholder). -/
def out0_A_4 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2).2.1)

/-- Case A's stores into scratch buffer 0 cover it. -/
theorem scover0_A_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S1024x1.size (by sl_kernel_rfl) y

/-- What case A leaves in scratch buffer 0: its pieces read back. -/
def sout0_A_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.2.1)

/-- Case A's stores into scratch buffer 1 cover it. -/
theorem scover0_A_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1024x1.size (by sl_kernel_rfl) y

/-- What case A leaves in scratch buffer 1: its pieces read back. -/
def sout0_A_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.2.1)

/-- Case A's stores into scratch buffer 2 cover it. -/
theorem scover0_A_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.2.1 S1024x1.size (by sl_kernel_rfl) y

/-- What case A leaves in scratch buffer 2: its pieces read back. -/
def sout0_A_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2).2.2.2.2.1)

/-- What case B leaves in result window 3's staging buffer: its pieces read back (none: the window is idle there, and nothing reads this placeholder). -/
def out0_B_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1 xs2).1)

/-- What case B leaves in result window 4's staging buffer: its pieces read back (none: the window is idle there, and nothing reads this placeholder). -/
def out0_B_4 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 xs0 xs1 xs2).2.1)

/-- Case B's stores into scratch buffer 0 cover it. -/
theorem scover0_B_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.2.1 S1024x1.size (by sl_kernel_rfl) y

/-- What case B leaves in scratch buffer 0: its pieces read back. -/
def sout0_B_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1 xs2).2.2.1)

/-- Case B's stores into scratch buffer 1 cover it. -/
theorem scover0_B_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.2.2.1 S1024x1.size (by sl_kernel_rfl) y

/-- What case B leaves in scratch buffer 1: its pieces read back. -/
def sout0_B_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1 xs2).2.2.2.1)

/-- Case B's stores into scratch buffer 2 cover it. -/
theorem scover0_B_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.2.2.2.1 S1024x1.size (by sl_kernel_rfl) y

/-- What case B leaves in scratch buffer 2: its pieces read back. -/
def sout0_B_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 xs0 xs1 xs2).2.2.2.2.1)

/-- On the last tile the body's one store into result window 3 covers its block. -/
theorem cover0_C_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).1 S1024x1.size (by sl_kernel_rfl) y

/-- What case C leaves in result window 3's staging buffer: its pieces read back. -/
def out0_C_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1 xs2).1)

/-- On the last tile the body's one store into result window 4 covers its block. -/
theorem cover0_C_4 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.1 S1024x1.size (by sl_kernel_rfl) y

/-- What case C leaves in result window 4's staging buffer: its pieces read back. -/
def out0_C_4 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1 xs2).2.1)

/-- Case C's stores into scratch buffer 0 cover it. -/
theorem scover0_C_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.1 S1024x1.size (by sl_kernel_rfl) y

/-- What case C leaves in scratch buffer 0: its pieces read back. -/
def sout0_C_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1 xs2).2.2.1)

/-- Case C's stores into scratch buffer 1 cover it. -/
theorem scover0_C_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.2.1 S1024x1.size (by sl_kernel_rfl) y

/-- What case C leaves in scratch buffer 1: its pieces read back. -/
def sout0_C_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1 xs2).2.2.2.1)

/-- Case C's stores into scratch buffer 2 cover it. -/
theorem scover0_C_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.2.2.1 S1024x1.size (by sl_kernel_rfl) y

/-- What case C leaves in scratch buffer 2: its pieces read back. -/
def sout0_C_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 xs0 xs1 xs2).2.2.2.2.1)

/-! ## What the buffers hold after each point -/

/-- After the body at position `n`: the two result windows' staging buffers, then the three scratch buffers — the case the
    position selects, run at the point's memrefs and input blocks, a scratch buffer starting from what position `n - 1` left. -/
def outsAt0 (c : Dev nD) : (n : ℕ) → n < cfg0.N → Vec F S1024x1 .f32 × Vec F S1024x1 .f32 × Vec F S1024x1 .f32 × Vec F S1024x1 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 25 = 0 then
      if h1 : (n + 1) % 25 = 24 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of the first tile. -/
theorem outsAt0_A (c : Dev nD) (t : Fin cfg0.N) (h0 : t.val % 25 = 0) (h1 : ¬t.val % 25 = 24) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of a middle tile: over what the point before left. -/
theorem outsAt0_B (c : Dev nD) (t : Fin cfg0.N) (h0 : ¬t.val % 25 = 0) (h1 : ¬t.val % 25 = 24) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the last tile: over what the point before left. -/
theorem outsAt0_C (c : Dev nD) (t : Fin cfg0.N) (h0 : ¬t.val % 25 = 0) (h1 : t.val % 25 = 24) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch buffers at anything; afterwards each at
    what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The region's proof data -/

/-- The arrays as the region finds them; after the body at point `t` each input's buffer at its block and the result
    windows' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' memrefs hold their blocks; the position says which case the point is in; the
    invariant hands the body the scratch buffers at what the point before left (at anything before the first point) and
    takes them back at this point's contents; an idle result window is handed back untouched, a stored one with its
    pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  by_cases h0 : t.val % 25 = 0
  · by_cases h1 : t.val % 25 = 24
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 25 = 24
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t ((hcond0_1 t).mpr h1)], after0_3]
      rw [show (dats m 0 c).leavesExact 4 t = owns (c : Thread nD τ) (ms0_4 t) fullShare ((dats m 0 c).after 4 t) from by
        unfold Dat.leavesExact; rw [liveAt0_4_C t ((hcond0_1 t).mpr h1)], after0_4]
      rw [outsAt0_C m c t h0 h1]
      unfold out0_C_3 out0_C_4 sout0_C_0 sout0_C_1 sout0_C_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ _ _).2.2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        iintro ⟨H0, H1, H2, ⟨%e3, H3⟩, ⟨%e4, H4⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1 sout0_B_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ _ _).2.2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but none the invariant gives the untracked one back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option maxHeartbeats 4000000 in
set_option backward.isDefEq.respectTransparency.types false in
/-- From any memory with zero counters every weakly fair execution of the program terminates, each array of the region at
    what the proof data computes and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The program runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Gen.Fr

end
-- ==== Proof.FrameKI.Kit.lean ====
/-
  The launch side of the program's frame: the host operations before the kernel's region, the region on its grid of
  8 × 25 points, the host operations after it.

  The region's arrays are what the earlier host operations leave (`V`); the later host operations read the region's two
  result arrays and write fresh buffers only, so the arrays and the arguments end as the region left them.  At grid point
  `(i, k)` the body's first branch is taken where `k = 0` (every 25th point from 0) and its last where `k = 24`; the two
  result windows are stored only there, and handed back untouched elsewhere.
-/
import proofs.«402844_j8701603741902_3_alg».proof.Proof.Gen.KernelIdeal.Launch
import proofs.«402844_j8701603741902_3_alg».proof.Proof.Gen.KernelIdeal.Skeleton
import proofs.«402844_j8701603741902_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- Core `c`'s buffer contents when the region is entered: after the twelve host operations before it. -/
abbrev V0 (c : Dev nD) : Valuation τ sig (Elt F) := StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- The program is the earlier host operations, the region, the later host operations: it reduces to the region continued
    by the later ones, at the contents the earlier ones leave. -/
theorem main_around (c : Dev nD) : main (F := F) c = Pipeline.chain (([hostOps0, hostOps0_1, hostOps0_2] : List (List (HloOp τ sig (Elt F)))).map StableHlo.seq
    ++ [Prog.lift (.customCall (Pipeline.entry 0) ())] ++ ([hostOps1, hostOps1_1, hostOps1_2] : List (List (HloOp τ sig (Elt F)))).map StableHlo.seq) := by
  rw [main_chain]; rfl

set_option maxHeartbeats 2000000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2] [hostOps1, hostOps1_1, hostOps1_2]
    (And.intro hostOps0_sub (And.intro hostOps0_1_sub hostOps0_2_sub))
    (And.intro hostOps0_fresh (And.intro hostOps0_1_fresh hostOps0_2_fresh)) main_around

/-- The later host operations touch only the region's arrays and the buffers that bypass it. -/
theorem sfx_sub : ∀ ops ∈ ([hostOps1, hostOps1_1, hostOps1_2] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ ([hostOps1, hostOps1_1, hostOps1_2] : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No operation of this stretch writes an array of the region: each writes only its own result buffer. -/
theorem hostOps1_keeps : (hostOps1 : List (HloOp τ sig (Elt F))).Forall fun op => ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array of the region: each writes only its own result buffer. -/
theorem hostOps1_1_keeps : (hostOps1_1 : List (HloOp τ sig (Elt F))).Forall fun op => ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)
/-- No operation of this stretch writes an array of the region: each writes only its own result buffer. -/
theorem hostOps1_2_keeps : (hostOps1_2 : List (HloOp τ sig (Elt F))).Forall fun op => ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals intro w; fin_cases w <;> exact StableHlo.devRef_ne_of_ne (by decide)

/-- And so the later host operations write no array of the region. -/
theorem sfx_keeps : ∀ ops ∈ ([hostOps1, hostOps1_1, hostOps1_2] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
    simp only [hostOps1, hostOps1_1, hostOps1_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run to the library's frame post, read at the three argument arrays (none is an array of the region, and no host
    operation writes one), the arguments end as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch conditions -/

/-- The body's first branch: the vocabulary tile is the first (`k = 0`). -/
abbrev cond0_0 (i : grid0.Coords) : Prop := (Scalar.cmpi .ne (Scalar.extui (Scalar.cmpi .eq (BitVec.ofNat 32 (i 1).val) 0#32)) 0#32) = 1#1
/-- It holds at the points ≡ 0 (mod 25). -/
theorem hcond0_0 : ∀ t : Fin cfg0.N, cond0_0 (grid0.coords t) ↔ t.val % 25 = 0 :=
  (by decide +kernel : ∀ t : Fin grid0.N, cond0_0 (grid0.coords t) ↔ t.val % 25 = 0)

/-- The body's last branch: the vocabulary tile is the last (`k = 24`). -/
abbrev cond0_1 (i : grid0.Coords) : Prop := k0_cond2 i = 1#1
/-- It holds at the points ≡ 24 (mod 25). -/
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last tile result window 3 is idle and not written back; on it, it is stored. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3_C : ∀ t : Fin cfg0.N, cond0_1 (grid0.coords t) → cfg0.idle 3 (grid0.coords t) = false := by decide +kernel
/-- Off the last tile result window 4 is idle and not written back; on it, it is stored. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4_C : ∀ t : Fin cfg0.N, cond0_1 (grid0.coords t) → cfg0.idle 4 (grid0.coords t) = false := by decide +kernel

/-! ## The staging and scratch memrefs the body is called with -/

abbrev VO0_3 : View sig .tc .vmem S1024x1 .f32 := (Memref.whole cc0_stg3_0 : Memref sig .tc .vmem S1024x1 .f32).view
abbrev VO0_4 : View sig .tc .vmem S1024x1 .f32 := (Memref.whole cc0_stg4_0 : Memref sig .tc .vmem S1024x1 .f32).view
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The three scratch buffers: the running maximum, the running sum, the running target sum. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- What the region's invariant holds between points when nothing is tracked: the three scratch buffers at some contents
    and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen.Fr

end
-- ==== Proof.FrameKI.RunA.lean ====
/-
  The kernel body run at a point of the first vocabulary tile (`k = 0`): the three scratch buffers are reset, then updated from this tile; the result windows are left untouched.
  The run is symbolic: each buffer ends at its contents overwritten by the pieces the body stored, found as the run goes.
-/
import proofs.«402844_j8701603741902_3_alg».proof.Proof.FrameKI.Kit

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each result window and each scratch buffer, as pieces (last first), with the proof
    that on whole memrefs — the three input blocks at their contents, the result windows at contents handed back untouched, the scratch
    buffers at anything — the body runs to its end holding the inputs as they were and each buffer it stored into
    with its pieces written. -/
noncomputable def kernelRun0_A (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) :
    Σ' (L3 : List (View.Piece (Elt F) S1024x1 .f32)) (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi3 : Vec F S1024x1 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__hotpath_kernel i arg2 harg2 arg3 harg3 arg4 harg4 arg5 harg5 arg6 harg6 arg7 harg7 arg8 harg8 arg9 harg9) K } := by
  refine ⟨[], [], ?_, ?_, ?_, fun xi3 xi4 E K => ?run⟩
  case run =>
    simp only [cc0__hotpath_kernel_eq_skeleton]; unfold cc0__hotpath_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen.Fr

end
-- ==== Proof.FrameKI.RunB.lean ====
/-
  The kernel body run at a point of a vocabulary tile that is neither first nor last: the three scratch buffers are updated from this tile; the result windows are left untouched.
  The run is symbolic: each buffer ends at its contents overwritten by the pieces the body stored, found as the run goes.
-/
import proofs.«402844_j8701603741902_3_alg».proof.Proof.FrameKI.RunA

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each result window and each scratch buffer, as pieces (last first), with the proof
    that on whole memrefs — the three input blocks at their contents, the result windows at contents handed back untouched, the scratch
    buffers at what the point before left — the body runs to its end holding the inputs as they were and each buffer it stored into
    with its pieces written. -/
noncomputable def kernelRun0_B (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    Σ' (L3 : List (View.Piece (Elt F) S1024x1 .f32)) (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi3 : Vec F S1024x1 .f32) (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__hotpath_kernel i arg2 harg2 arg3 harg3 arg4 harg4 arg5 harg5 arg6 harg6 arg7 harg7 arg8 harg8 arg9 harg9) K } := by
  refine ⟨[], [], ?_, ?_, ?_, fun xi3 xi4 E K => ?run⟩
  case run =>
    simp only [cc0__hotpath_kernel_eq_skeleton]; unfold cc0__hotpath_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen.Fr

end
-- ==== Proof.FrameKI.RunC.lean ====
/-
  The kernel body run at a point of the last vocabulary tile (`k = 24`): the three scratch buffers are updated from this tile, then the two result windows are stored from them.
  The run is symbolic: each buffer ends at its contents overwritten by the pieces the body stored, found as the run goes.
-/
import proofs.«402844_j8701603741902_3_alg».proof.Proof.FrameKI.RunB

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in each result window and each scratch buffer, as pieces (last first), with the proof
    that on whole memrefs — the three input blocks at their contents, the result windows at anything, the scratch
    buffers at what the point before left — the body runs to its end holding the inputs as they were and each buffer it stored into
    with its pieces written. -/
noncomputable def kernelRun0_C (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    Σ' (L3 : List (View.Piece (Elt F) S1024x1 .f32)) (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__hotpath_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__hotpath_kernel_eq_skeleton]; unfold cc0__hotpath_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    isplitl [HS1]; · iexists _; iexact HS1
    iexists _; iexact HS2

end Cert.KernelIdeal.Gen.Fr

end
-- ==== Proof.FrameKI.Frame.lean ====
/-
  The frame of the program: what the result windows and the three scratch buffers hold after every grid point, the
  region's proof data, the body's obligation at every point, and the run of the whole program.

  The grid is walked row block by row block (`i = 0 … 7`), each over the 25 vocabulary tiles (`k = 0 … 24`): point
  `t = 25 i + k`.  At `k = 0` the scratch buffers are reset before they are updated; at every other `k` they are
  updated from what the point before left; at `k = 24` the two result windows are stored and written back.  Between
  points the region's invariant holds the scratch buffers at exactly what the last point left.
-/
import proofs.«402844_j8701603741902_3_alg».proof.Proof.FrameKI.RunC

set_option maxRecDepth 16384

noncomputable section

namespace Cert.KernelIdeal.Gen.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in result window 3's staging buffer: its pieces read back (none: the window is idle there, and nothing reads this placeholder). -/
def out0_A_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VO0_3.read (Elt F) (VO0_3.writes (Elt F) VO0_3.junk (kernelRun0_A c i arg2 harg2 arg3 harg3 arg4 harg4 arg5 harg5 arg6 harg6 arg7 harg7 arg8 harg8 arg9 harg9 hc0 hc1 x0 x1 x2).1)

/-- What case A leaves in result window 4's staging buffer: its pieces read back (none: the window is idle there, and nothing reads this placeholder). -/
def out0_A_4 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2).2.1)

/-- Case A's stores into scratch buffer 0 cover it. -/
theorem scover0_A_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.1 S1024x1.size (by sl_kernel_rfl) y

/-- What case A leaves in scratch buffer 0: its pieces read back. -/
def sout0_A_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2).2.2.1)

/-- Case A's stores into scratch buffer 1 cover it. -/
theorem scover0_A_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.1 S1024x1.size (by sl_kernel_rfl) y

/-- What case A leaves in scratch buffer 1: its pieces read back. -/
def sout0_A_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2).2.2.2.1)

/-- Case A's stores into scratch buffer 2 cover it. -/
theorem scover0_A_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) (y : S1024x1.Idx) :
    ∃ pc ∈ (kernelRun0_A c i arg2 harg2 arg3 harg3 arg4 harg4 arg5 harg5 arg6 harg6 arg7 harg7 arg8 harg8 arg9 harg9 hc0 hc1 x0 x1 x2).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2).2.2.2.2.1 S1024x1.size (by sl_kernel_rfl) y

/-- What case A leaves in scratch buffer 2: its pieces read back. -/
def sout0_A_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2).2.2.2.2.1)

/-- What case B leaves in result window 3's staging buffer: its pieces read back (none: the window is idle there, and nothing reads this placeholder). -/
def out0_B_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VO0_3.read (Elt F) (VO0_3.writes (Elt F) VO0_3.junk (kernelRun0_B c i arg2 harg2 arg3 harg3 arg4 harg4 arg5 harg5 arg6 harg6 arg7 harg7 arg8 harg8 arg9 harg9 hc0 hc1 x0 x1 x2 xs0 xs1 xs2).1)

/-- What case B leaves in result window 4's staging buffer: its pieces read back (none: the window is idle there, and nothing reads this placeholder). -/
def out0_B_4 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 xs0 xs1 xs2).2.1)

/-- Case B's stores into scratch buffer 0 cover it. -/
theorem scover0_B_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.2.1 S1024x1.size (by sl_kernel_rfl) y

/-- What case B leaves in scratch buffer 0: its pieces read back. -/
def sout0_B_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 xs0 xs1 xs2).2.2.1)

/-- Case B's stores into scratch buffer 1 cover it. -/
theorem scover0_B_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.2.2.1 S1024x1.size (by sl_kernel_rfl) y

/-- What case B leaves in scratch buffer 1: its pieces read back. -/
def sout0_B_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 xs0 xs1 xs2).2.2.2.1)

/-- Case B's stores into scratch buffer 2 cover it. -/
theorem scover0_B_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 xs0 xs1 xs2).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 xs0 xs1 xs2).2.2.2.2.1 S1024x1.size (by sl_kernel_rfl) y

/-- What case B leaves in scratch buffer 2: its pieces read back. -/
def sout0_B_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 xs0 xs1 xs2).2.2.2.2.1)

/-- On the last tile the body's one store into result window 3 covers its block. -/
theorem cover0_C_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).1 S1024x1.size (by sl_kernel_rfl) y

/-- What case C leaves in result window 3's staging buffer: its pieces read back. -/
def out0_C_3 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VO0_3.read (Elt F) (VO0_3.writes (Elt F) VO0_3.junk (kernelRun0_C c i arg2 harg2 arg3 harg3 arg4 harg4 arg5 harg5 arg6 harg6 arg7 harg7 arg8 harg8 arg9 harg9 hc0 hc1 x0 x1 x2 xs0 xs1 xs2).1)

/-- On the last tile the body's one store into result window 4 covers its block. -/
theorem cover0_C_4 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.1 S1024x1.size (by sl_kernel_rfl) y

/-- What case C leaves in result window 4's staging buffer: its pieces read back. -/
def out0_C_4 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 xs0 xs1 xs2).2.1)

/-- Case C's stores into scratch buffer 0 cover it. -/
theorem scover0_C_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.1 S1024x1.size (by sl_kernel_rfl) y

/-- What case C leaves in scratch buffer 0: its pieces read back. -/
def sout0_C_0 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 xs0 xs1 xs2).2.2.1)

/-- Case C's stores into scratch buffer 1 cover it. -/
theorem scover0_C_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.2.1 S1024x1.size (by sl_kernel_rfl) y

/-- What case C leaves in scratch buffer 1: its pieces read back. -/
def sout0_C_1 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 xs0 xs1 xs2).2.2.2.1)

/-- Case C's stores into scratch buffer 2 cover it. -/
theorem scover0_C_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 xs0 xs1 xs2).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 xs0 xs1 xs2).2.2.2.2.1 S1024x1.size (by sl_kernel_rfl) y

/-- What case C leaves in scratch buffer 2: its pieces read back. -/
def sout0_C_2 (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 xs0 xs1 xs2).2.2.2.2.1)

/-! ## What the buffers hold after each point -/

/-- After the body at position `n`: the two result windows' staging buffers, then the three scratch buffers — the case the
    position selects, run at the point's memrefs and input blocks, a scratch buffer starting from what position `n - 1` left. -/
def outsAt0 (c : Dev nD) : (n : ℕ) → n < cfg0.N → Vec F S1024x1 .f32 × Vec F S1024x1 .f32 × Vec F S1024x1 .f32 × Vec F S1024x1 .f32 × Vec F S1024x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩))
  | n + 1, hn =>
    if h0 : (n + 1) % 25 = 0 then
      if h1 : (n + 1) % 25 = 24 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of the first tile. -/
theorem outsAt0_A (c : Dev nD) (t : Fin cfg0.N) (h0 : t.val % 25 = 0) (h1 : ¬t.val % 25 = 24) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)) := by
  obtain ⟨n, hn⟩ := t
  cases n with
  | zero => exact rfl
  | succ n => exact (dif_pos h0).trans ((dif_neg h1).trans rfl)

/-- `outsAt0` at a point of a middle tile: over what the point before left. -/
theorem outsAt0_B (c : Dev nD) (t : Fin cfg0.N) (h0 : ¬t.val % 25 = 0) (h1 : ¬t.val % 25 = 24) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of the last tile: over what the point before left. -/
theorem outsAt0_C (c : Dev nD) (t : Fin cfg0.N) (h0 : ¬t.val % 25 = 0) (h1 : t.val % 25 = 24) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch buffers at anything; afterwards each at
    what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The region's proof data -/

/-- The arrays as the region finds them; after the body at point `t` each input's buffer at its block and the result
    windows' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body's obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 8000000 in
/-- The body at any point: the inputs' memrefs hold their blocks; the position says which case the point is in; the
    invariant hands the body the scratch buffers at what the point before left (at anything before the first point) and
    takes them back at this point's contents; an idle result window is handed back untouched, a stored one with its
    pieces covering it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 200 := lt_of_lt_of_eq t.isLt (show cfg0.N = 200 from N_0)
  by_cases h0 : t.val % 25 = 0
  · by_cases h1 : t.val % 25 = 24
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4
  · by_cases h1 : t.val % 25 = 24
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3_C t ((hcond0_1 t).mpr h1)], after0_3]
      rw [show (dats m 0 c).leavesExact 4 t = owns (c : Thread nD τ) (ms0_4 t) fullShare ((dats m 0 c).after 4 t) from by
        unfold Dat.leavesExact; rw [liveAt0_4_C t ((hcond0_1 t).mpr h1)], after0_4]
      rw [outsAt0_C m c t h0 h1]
      unfold out0_C_3 out0_C_4 sout0_C_0 sout0_C_1 sout0_C_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) _ _ _).2.2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        isplitl [HS2]; · iexact HS2
        iintro ⟨H0, H1, H2, ⟨%e3, H3⟩, ⟨%e4, H4⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (fun h => h1 ((hcond0_1 t).mp h))) (noFlush0_3 t (fun h => h1 ((hcond0_1 t).mp h)))]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1 sout0_B_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) _ _ _).2.2.2.2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but none the invariant gives the untracked one back: the scratch buffers' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 200 := N_0; omega)

/-! ## The run and the frame -/

set_option maxHeartbeats 4000000 in
set_option backward.isDefEq.respectTransparency.types false in
/-- From any memory with zero counters every weakly fair execution of the program terminates, each array of the region at
    what the proof data computes and every other unscoped buffer as the later host operations leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hin := hin m) (hout := hout m)

/-- The program runs to the end, faults nowhere, and leaves its three arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Gen.Fr

end
-- ==== Proof.Tail.lean ====
/-
  The loss from the per-token log-probabilities: the part of the computation the two programs share.

  From `P : [8, 1024]` (each token's log-probability, zero where the token is ignored) and the mask `K : [8, 1024]` of
  counted tokens:  the row means `avg b = (∑ t, P b t) / max (∑ t, K b t) 1`;  rows 0–3 are the chosen sequences, 4–7 the
  rejected;  `nll = -(∑ over chosen rows of P) / max (count of chosen tokens) 1`;  the log-odds
  `lo = (ch - rj) - (log1p (-exp (cl ch)) - log1p (-exp (cl rj)))`;  the loss `nll - 0.1 · (∑ logσ lo) / 4`.
  The kernel's program clamps the exponentials' arguments, `cl v = min v 0`; the reference does not, `cl = id`.  A mean of
  non-positive numbers over a positive count is non-positive, so the clamp changes nothing there.
-/
import Idealize.ShloMosaic.PureOps.Ideal
import Idealize.ShloMosaic.PureOps.Ideal.Laws
import Idealize.ShloMosaic.PureOps

noncomputable section

namespace Cert.Tail

open Idealize.ShloMosaic

abbrev S8x1024 : Shape := ⟨2, ![8, 1024]⟩
abbrev S4x1024 : Shape := ⟨2, ![4, 1024]⟩
abbrev S8 : Shape := ⟨1, ![8]⟩
abbrev S4 : Shape := ⟨1, ![4]⟩
abbrev S_ : Shape := ⟨0, ![]⟩

theorem natLt_1_32 : 1 < 32 := by decide
theorem h_S_ : 0 < S_.numel := by decide
theorem reducesTo_S8x1024_S8_d1 : S8x1024.ReducesTo [1] S8 := by decide
theorem bcast_S_S8 : S_.BroadcastsInDim S8 (![] : Fin 0 → Fin S8.rank) := by decide
theorem slices_S8_S4_0 : S8.Slices ![0] S4 := by decide
theorem slices_S8_S4_4 : S8.Slices ![4] S4 := by decide
theorem slices_S8x1024_S4x1024_0_0 : S8x1024.Slices ![0, 0] S4x1024 := by decide
theorem reducesTo_S4x1024_S_d0_1 : S4x1024.ReducesTo [0, 1] S_ := by decide
theorem bcast_S_S4 : S_.BroadcastsInDim S4 (![] : Fin 0 → Fin S4.rank) := by decide
theorem reducesTo_S4_S_d0 : S4.ReducesTo [0] S_ := by decide

variable {F : FTy → Type} [FloatOps F]

/-- `log σ` written as `-softplus (-v)`, the softplus `max u 0 + log1p (exp (-|u - 0|))` behind a test `u - 0 ≠ u - 0`
    that no extended real meets. -/
def logSigmoid (v : FVec F S4 .f32) : FVec F S4 .f32 :=
  let u : FVec F S4 .f32 := Host.negf v
  let z : FVec F S4 .f32 := broadcastInDim S4 ![] bcast_S_S4 (constant S_ .f32 0x00000000#32)
  let d : FVec F S4 .f32 := subf u z
  Host.negf (select (cmpf .une d d) (addf u z) (addf (maximumf u z) (Host.log1p (Host.exp (Host.negf (Host.absf d))))))

/-- The row means, over at least one counted token. -/
def rowMeans (P : FVec F S8x1024 .f32) (K : IVec S8x1024 1) : FVec F S8 .f32 :=
  Host.divf (Host.reduceAdd P (constant S_ .f32 0x00000000#32) reducesTo_S8x1024_S8_d1 h_S_)
    (sitofp .f32 (maxsi (Host.reduce IntOp.addi (extui 32 K natLt_1_32) (constantI S_ 32 0#32) reducesTo_S8x1024_S8_d1 h_S_)
      (broadcastInDim S8 ![] bcast_S_S8 (constantI S_ 32 1#32))))

/-- The chosen rows' negative log-likelihood per counted chosen token. -/
def chosenNll (P : FVec F S8x1024 .f32) (K : IVec S8x1024 1) : FVec F S_ .f32 :=
  Host.divf
    (Host.negf (Host.reduceAdd (extractStridedSlice S4x1024 ![0, 0] P slices_S8x1024_S4x1024_0_0) (constant S_ .f32 0x00000000#32) reducesTo_S4x1024_S_d0_1 h_S_))
    (sitofp .f32 (maxsi (Host.reduce IntOp.addi (extui 32 (extractStridedSlice S4x1024 ![0, 0] K slices_S8x1024_S4x1024_0_0) natLt_1_32) (constantI S_ 32 0#32) reducesTo_S4x1024_S_d0_1 h_S_)
      (constantI S_ 32 1#32)))

/-- The loss from the row means, with the clamp `cl` on the exponentials' arguments. -/
def lossOf (cl : FVec F S4 .f32 → FVec F S4 .f32) (avg : FVec F S8 .f32) (nll : FVec F S_ .f32) : FVec F S_ .f32 :=
  let ch : FVec F S4 .f32 := extractStridedSlice S4 ![0] avg slices_S8_S4_0
  let rj : FVec F S4 .f32 := extractStridedSlice S4 ![4] avg slices_S8_S4_4
  let lo : FVec F S4 .f32 := subf (subf ch rj) (subf (Host.log1p (Host.negf (Host.exp (cl ch)))) (Host.log1p (Host.negf (Host.exp (cl rj)))))
  subf nll (Host.divf (mulf (constant S_ .f32 0x3DCCCCCD#32) (Host.reduceAdd (logSigmoid lo) (constant S_ .f32 0x00000000#32) reducesTo_S4_S_d0 h_S_))
    (constant S_ .f32 0x40800000#32))

/-- The kernel's clamp: the minimum with zero. -/
def clamp0 (v : FVec F S4 .f32) : FVec F S4 .f32 :=
  minimumf v (broadcastInDim S4 ![] bcast_S_S4 (constant S_ .f32 0x00000000#32))

/-- The whole shared part, with the clamp as a parameter. -/
def tailG (cl : FVec F S4 .f32 → FVec F S4 .f32) (P : FVec F S8x1024 .f32) (K : IVec S8x1024 1) : FVec F S_ .f32 :=
  lossOf cl (rowMeans P K) (chosenNll P K)

end Cert.Tail

end
-- ==== Proof.TailK.lean ====
/-
  The kernel program's host-side layouts, as pure functions of the arguments.

  The kernel works on the 8 · 1024 tokens as one axis of 8192: `x` is viewed as `[8192, 2048]`, the ids as `[8192]`
  (and, with an ignored id replaced by `0`, as a column `[8192, 1]`), the mask is computed on the flat ids, and the two
  result columns `[8192, 1]` are viewed as `[8192]`, combined into `(tgt - lse) · mask`, and viewed as `[8, 1024]` again.
-/
import proofs.«402844_j8701603741902_3_alg».proof.Proof.Tail

noncomputable section

namespace Cert.Tail

open Idealize.ShloMosaic

abbrev S8x1024x2048 : Shape := ⟨3, ![8, 1024, 2048]⟩
abbrev S32000x2048 : Shape := ⟨2, ![32000, 2048]⟩
abbrev S8192x2048 : Shape := ⟨2, ![8192, 2048]⟩
abbrev S8192 : Shape := ⟨1, ![8192]⟩
abbrev S8192x1 : Shape := ⟨2, ![8192, 1]⟩

theorem shapeCasts_S8x1024x2048_S8192x2048 : S8x1024x2048.ShapeCasts S8192x2048 := by decide
theorem bitsLt_bf16_f32 : FTy.bits .bf16 < FTy.bits .f32 := by decide
theorem shapeCasts_S8x1024_S8192 : S8x1024.ShapeCasts S8192 := by decide
theorem bcast_S_S8192 : S_.BroadcastsInDim S8192 (![] : Fin 0 → Fin S8192.rank) := by decide
theorem bcast_S_S8x1024 : S_.BroadcastsInDim S8x1024 (![] : Fin 0 → Fin S8x1024.rank) := by decide
theorem shapeCasts_S8192_S8192x1 : S8192.ShapeCasts S8192x1 := by decide
theorem shapeCasts_S8192x1_S8192 : S8192x1.ShapeCasts S8192 := by decide
theorem shapeCasts_S8192_S8x1024 : S8192.ShapeCasts S8x1024 := by decide

variable {F : FTy → Type} [FloatOps F]

/-- The tokens that count: the id is not `-100`. -/
def maskOf (y : IVec S8x1024 32) : IVec S8x1024 1 :=
  cmpi .ne y (broadcastInDim S8x1024 ![] bcast_S_S8x1024 (constantI S_ 32 4294967196#32))

/-- The same on the flat ids. -/
def maskFlat (y : IVec S8x1024 32) : IVec S8192 1 :=
  cmpi .ne (shapeCast S8192 y shapeCasts_S8x1024_S8192) (broadcastInDim S8192 ![] bcast_S_S8192 (constantI S_ 32 4294967196#32))

/-- The flat mask viewed as `[8, 1024]`. -/
def kMask (y : IVec S8x1024 32) : IVec S8x1024 1 := shapeCast S8x1024 (maskFlat y) shapeCasts_S8192_S8x1024

/-- The column of ids the kernel reads: an ignored id replaced by `0`. -/
def kSafeY (y : IVec S8x1024 32) : IVec S8192x1 32 :=
  shapeCast S8192x1
    (select (maskFlat y) (shapeCast S8192 y shapeCasts_S8x1024_S8192) (broadcastInDim S8192 ![] bcast_S_S8192 (id (constantI S_ 32 0#32))))
    shapeCasts_S8192_S8192x1

/-- `x` as the kernel reads it: one row per token, in the narrower format (the same extended reals). -/
def kX (x : FVec F S8x1024x2048 .f32) : FVec F S8192x2048 .bf16 :=
  truncf .bf16 (shapeCast S8192x2048 x shapeCasts_S8x1024x2048_S8192x2048) bitsLt_bf16_f32

/-- `W` as the kernel reads it. -/
def kW (W : FVec F S32000x2048 .f32) : FVec F S32000x2048 .bf16 := truncf .bf16 W bitsLt_bf16_f32

/-- The per-token values from the kernel's two result columns: `(tgt - lse) · mask`, viewed as `[8, 1024]`. -/
def kPerTok (lse tgt : FVec F S8192x1 .f32) (y : IVec S8x1024 32) : FVec F S8x1024 .f32 :=
  shapeCast S8x1024
    (mulf (subf (shapeCast S8192 tgt shapeCasts_S8192x1_S8192) (shapeCast S8192 lse shapeCasts_S8192x1_S8192)) (uitofp .f32 (maskFlat y)))
    shapeCasts_S8192_S8x1024

/-- The kernel program's result from its two result columns and the ids. -/
def kVal (lse tgt : FVec F S8192x1 .f32) (y : IVec S8x1024 32) : FVec F S_ .f32 :=
  tailG clamp0 (kPerTok lse tgt y) (kMask y)

end Cert.Tail

end
-- ==== Proof.KHost.lean ====
/-
  The host operations around the region, read as pure functions: what the region's three input arrays hold, and what the
  later host operations make of the region's two result arrays.
-/
import proofs.«402844_j8701603741902_3_alg».proof.Proof.FrameKI.Frame
import proofs.«402844_j8701603741902_3_alg».proof.Proof.TailK
import Idealize.ShloMosaic.Lib.StableHlo.Run
import Idealize.ShloMosaic.Lib.ValueIdx
import Idealize.ShloMosaic.Lib.IdealHost
import Idealize.ShloMosaic.Lib.Pipeline.Value

set_option maxRecDepth 16384

noncomputable section

namespace Cert.KernelIdeal.Gen.Fr

open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ)

/-- The region's first input array is `x` viewed one row per token. -/
theorem V_main_v1 (c : Dev nD) : V m c main_v1 = Cert.Tail.kX (m ((c : Thread nD τ).loc main_arg0)) := by
  dsimp only [V, V0]
  simp only [hostOps0, hostOps0_1, hostOps0_2, List.flatten_cons, List.flatten_nil, List.append_nil, List.cons_append, List.nil_append]
  after_results
  rfl
/-- Its second is `W`. -/
theorem V_main_v2 (c : Dev nD) : V m c main_v2 = Cert.Tail.kW (m ((c : Thread nD τ).loc main_arg2)) := by
  dsimp only [V, V0]
  simp only [hostOps0, hostOps0_1, hostOps0_2, List.flatten_cons, List.flatten_nil, List.append_nil, List.cons_append, List.nil_append]
  after_results
  rfl
/-- Its third is the column of safe ids. -/
theorem V_main_v7 (c : Dev nD) : V m c main_v7 = Cert.Tail.kSafeY (m ((c : Thread nD τ).loc main_arg1)) := by
  dsimp only [V, V0]
  simp only [hostOps0, hostOps0_1, hostOps0_2, List.flatten_cons, List.flatten_nil, List.append_nil, List.cons_append, List.nil_append]
  after_results
  rfl

/-- The flat mask, computed before the region, is `maskFlat` of the ids. -/
theorem V_main_v5 (c : Dev nD) : V0 m c (Proc.devRef .tc main_v5) = Cert.Tail.maskFlat (m ((c : Thread nD τ).loc main_arg1)) := by
  dsimp only [V0]
  simp only [hostOps0, hostOps0_1, hostOps0_2, List.flatten_cons, List.flatten_nil, List.append_nil, List.cons_append, List.nil_append]
  after_results
  rfl

set_option maxHeartbeats 1000000 in
/-- The program's result buffer after the later host operations is `kVal` of the region's two result arrays and the ids. -/
theorem tail_read (c : Dev nD) :
    Pipeline.afterTail₀ cfgs (dats m) 0 (V0 m) [hostOps1, hostOps1_1, hostOps1_2] c main_v51
      = Cert.Tail.kVal ((dats m 0 c).arrAt 3 cfg0.N) ((dats m 0 c).arrAt 4 cfg0.N) (m ((c : Thread nD τ).loc main_arg1)) := by
  -- the two result arrays are the region's arrays 3 and 4; the flat mask is no array of the region
  have e3 : Pipeline.withArrays (cfgs 0).spec c (V0 m c) (fun w => (dats m 0 c).arrAt w (cfgs 0).N) (Proc.devRef .tc main_v8_0)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v8_1)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v5)
      = Cert.Tail.maskFlat (m ((c : Thread nD τ).loc main_arg1)) := by
    rw [Pipeline.withArrays_of_ne _ c (V0 m c) _ main_v5 (by exact (by decide : ∀ w, Pipeline.arrRef spec0 w ≠ main_v5))]
    exact V_main_v5 m c
  unfold Pipeline.afterTail₀
  simp only [hostOps1, hostOps1_1, hostOps1_2, List.flatten_cons, List.flatten_nil, List.append_nil, List.cons_append, List.nil_append]
  after_results_simp
  rw [e3, e4, e5]
  generalize (dats m 0 c).arrAt 3 cfg0.N = lse
  generalize (dats m 0 c).arrAt 4 cfg0.N = tgt
  generalize m ((c : Thread nD τ).loc main_arg1) = y
  simp only [StableHlo.TRef.ofBuf, StableHlo.TRef.toBuf, cast_eq]
  rfl

end Cert.KernelIdeal.Gen.Fr

namespace Cert.Tail

open Idealize.ShloMosaic Idealize.ShloMosaic.ValueIdx

/-- Viewing the flat mask as `[8, 1024]` gives the mask computed on the `[8, 1024]` ids. -/
theorem kMask_eq (y : IVec S8x1024 32) : kMask y = maskOf y := by
  funext j
  -- a view as `[8192]` and back as `[8, 1024]` reads the same entry; the broadcast scalar is the same everywhere
  have h1 : shapeCast S8x1024 (shapeCast S8192 y shapeCasts_S8x1024_S8192) shapeCasts_S8192_S8x1024 j = y j :=
    congrFun (shapeCast_shapeCast y _ _) j
  unfold kMask maskFlat maskOf
  show IntOp.cmpi .ne (shapeCast S8x1024 (shapeCast S8192 y shapeCasts_S8x1024_S8192) shapeCasts_S8192_S8x1024 j) _ = IntOp.cmpi .ne (y j) _
  rw [h1, broadcastInDim_scalar_apply, broadcastInDim_scalar_apply]

end Cert.Tail

end
-- ==== Proof.Spec.lean ====
/-
  The mathematics both programs compute, stated once over the extended reals.

  One token's logits are a row of 32000 reals.  The kernel walks the row in 25 tiles of 1280 columns and keeps a running
  maximum `M`, a running sum `L` of exponentials shifted by the current maximum, and a running sum `T` of the one
  logit whose column is the target id; after the last tile it returns `M + log L` and `T`.  The reference takes the
  whole row's maximum, subtracts it, and subtracts the logarithm of the sum of the shifted exponentials.  Both are the
  log-sum-exp of the row: `lse a = log (∑ j, exp (a j))`.
-/
import Idealize.ShloMosaic.PureOps.Ideal

noncomputable section

namespace Cert.Spec

open Idealize.ShloMosaic

/-- The log-sum-exp of finitely many reals. -/
def lse {n : ℕ} (a : Fin n → ℝ) : ℝ := Real.log (∑ j, Real.exp (a j))

/-- Column `j` of tile `k` is column `1280 k + j` of the row. -/
def tileIdx (k : Fin 25) (j : Fin 1280) : Fin 32000 := ⟨k.val * 1280 + j.val, by have := k.isLt; have := j.isLt; omega⟩

/-- The fold of `max` from `-∞` over a tile's entries: the tile's maximum. -/
def tileMax (row : Fin 1280 → EReal) : EReal := (Finset.univ : Finset (Fin 1280)).fold max ⊥ row

/-- One tile's update of the running maximum. -/
def stepM (M : EReal) (row : Fin 1280 → EReal) : EReal := max M (tileMax row)

/-- One tile's update of the running sum: the old sum rescaled to the new maximum, plus the tile's shifted exponentials. -/
def stepL (M L : EReal) (row : Fin 1280 → EReal) : EReal :=
  Ideal.exp (M - stepM M row) * L + ∑ j, Ideal.exp (row j - stepM M row)

/-- The running maximum after the first `k` tiles (`-∞` before any). -/
def onM (a : ℕ → Fin 1280 → EReal) : ℕ → EReal
  | 0 => ⊥
  | k + 1 => stepM (onM a k) (a k)

/-- The running sum after the first `k` tiles (`0` before any). -/
def onL (a : ℕ → Fin 1280 → EReal) : ℕ → EReal
  | 0 => 0
  | k + 1 => stepL (onM a k) (onL a k) (a k)

/-- The running target sum after the first `k` tiles: each tile adds the sum of its entries masked to the target column. -/
def onT (s : ℕ → Fin 1280 → EReal) : ℕ → EReal
  | 0 => 0
  | k + 1 => onT s k + ∑ j, s k j

/-- A real row cut into tiles of extended reals (junk `0` past the last tile, which no statement reads). -/
def tiles (a : Fin 32000 → ℝ) (k : ℕ) (j : Fin 1280) : EReal :=
  if h : k < 25 then ((a (tileIdx ⟨k, h⟩ j) : ℝ) : EReal) else 0

/-- The same row masked to the column `y`: the entry where the column is `y`, zero elsewhere. -/
def tilesAt (a : Fin 32000 → ℝ) (y : ℕ) (k : ℕ) (j : Fin 1280) : EReal :=
  if k * 1280 + j.val = y then tiles a k j else 0

end Cert.Spec

end
-- ==== Proof.KSpec.lean ====
/-
  One grid point's arithmetic on one row, over the extended reals.

  At row block `i` and vocabulary tile `k` the body sees a block `X` of 1024 rows of `x`, a tile `Wt` of 1280 rows of
  `W`, and the column `Y` of the block's ids.  Row `r`'s logits against the tile are `∑ h, X[r, h] · Wt[j, h]`; the
  column `1280 k + j` (as a 32-bit word) is compared with the row's id to mask the logits to the target.
-/
import proofs.«402844_j8701603741902_3_alg».proof.Proof.Spec
import Idealize.ShloMosaic.Lib.ValueIdx

noncomputable section

namespace Cert.Spec

open Idealize.ShloMosaic Idealize.ShloMosaic.ValueIdx

abbrev SBx : Shape := ⟨2, ![1024, 2048]⟩
abbrev SBw : Shape := ⟨2, ![1280, 2048]⟩
abbrev SBc : Shape := ⟨2, ![1024, 1]⟩

/-- Row `r`'s logit against row `j` of the tile. -/
def blkLogit (X : SBx.Idx → EReal) (Wt : SBw.Idx → EReal) (r : Fin 1024) (j : Fin 1280) : EReal :=
  ∑ h : Fin 2048, X (ix2 r h) * Wt (ix2 j h)

/-- The word the body compares with the id: the column `j` within the tile plus `1280 k`, in 32-bit arithmetic. -/
def colWord (k : ℕ) (j : Fin 1280) : BitVec 32 := BitVec.ofNat 32 j.val + BitVec.ofNat 32 k * 1280#32

/-- Row `r`'s logits masked to the row's target id. -/
def blkSel (k : ℕ) (X : SBx.Idx → EReal) (Wt : SBw.Idx → EReal) (Y : SBc.Idx → BitVec 32) (r : Fin 1024) (j : Fin 1280) : EReal :=
  if colWord k j = Y (ix2 r 0) then blkLogit X Wt r j else 0

end Cert.Spec

end
-- ==== Proof.KPieces.lean ====
/-
  What one grid point's body computes, first as the body's own payload terms, then row by row over the extended reals.

  The running maximum is replaced by its maximum with the tile's row maximum; the running sum is rescaled by
  `exp (old maximum - new maximum)` and the tile's exponentials shifted by the new maximum are added; the running target
  sum gains the tile's logits masked to the target column.  On the first tile the three start from `-∞`, `0`, `0`; on
  the last the results are `maximum + log sum` and the target sum.
-/
import proofs.«402844_j8701603741902_3_alg».proof.Proof.FrameKI.Frame
import proofs.«402844_j8701603741902_3_alg».proof.Proof.KSpec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Gen.Fr

open Idealize.ShloMosaic Idealize.ShloMosaic.TcCoe Idealize.ShloMosaic.Tactic Idealize.ShloMosaic.ValueIdx
open Idealize.SL Idealize.SL.Sem
open Cert.Spec

variable {F : FTy → Type} [FloatOps F]

/-! ## The pieces each case leaves are the body's payload terms (at any float instance) -/

/-- The unit rectangle's offsets are zero. -/
theorem kp_hz : (![0, 0] : Fin 2 → Nat) = fun _ => 0 := funext fun a => by fin_cases a <;> rfl

theorem sout0_A_0_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) :
    sout0_A_0 c i arg2 harg2 arg3 harg3 arg4 harg4 arg5 harg5 arg6 harg6 arg7 harg7 arg8 harg8 arg9 harg9 hc0 hc1 x0 x1 x2 = k0_pay2 (k0_pay9 x0 x1 (k0_pay4 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem sout0_A_1_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) :
    sout0_A_1 c i arg2 harg2 arg3 harg3 arg4 harg4 arg5 harg5 arg6 harg6 arg7 harg7 arg8 harg8 arg9 harg9 hc0 hc1 x0 x1 x2 = k0_pay1 (k0_pay10 x0 x1 (k0_pay4 (F := F)) (k0_pay4 (F := F))) (k0_pay11 x0 x1 (k0_pay4 (F := F))) (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem sout0_A_2_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x2048 .bf16) (x1 : Vec F S1280x2048 .bf16) (x2 : Vec F S1024x1 .i32) :
    sout0_A_2 c i arg2 harg2 arg3 harg3 arg4 harg4 arg5 harg5 arg6 harg6 arg7 harg7 arg8 harg8 arg9 harg9 hc0 hc1 x0 x1 x2 = k0_pay8 i x0 x1 x2 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem sout0_B_0_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_B_0 c i arg2 harg2 arg3 harg3 arg4 harg4 arg5 harg5 arg6 harg6 arg7 harg7 arg8 harg8 arg9 harg9 hc0 hc1 x0 x1 x2 xs0 xs1 xs2 = k0_pay2 (k0_pay9 x0 x1 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem sout0_B_1_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_B_1 c i arg2 harg2 arg3 harg3 arg4 harg4 arg5 harg5 arg6 harg6 arg7 harg7 arg8 harg8 arg9 harg9 hc0 hc1 x0 x1 x2 xs0 xs1 xs2 = k0_pay1 (k0_pay10 x0 x1 xs0 xs0) (k0_pay11 x0 x1 xs0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem sout0_B_2_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_B_2 c i arg2 harg2 arg3 harg3 arg4 harg4 arg5 harg5 arg6 harg6 arg7 harg7 arg8 harg8 arg9 harg9 hc0 hc1 x0 x1 x2 xs0 xs1 xs2 = k0_pay8 i x0 x1 x2 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem sout0_C_0_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_C_0 c i arg2 harg2 arg3 harg3 arg4 harg4 arg5 harg5 arg6 harg6 arg7 harg7 arg8 harg8 arg9 harg9 hc0 hc1 x0 x1 x2 xs0 xs1 xs2 = k0_pay2 (k0_pay9 x0 x1 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem sout0_C_1_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_C_1 c i arg2 harg2 arg3 harg3 arg4 harg4 arg5 harg5 arg6 harg6 arg7 harg7 arg8 harg8 arg9 harg9 hc0 hc1 x0 x1 x2 xs0 xs1 xs2 = k0_pay1 (k0_pay10 x0 x1 xs0 xs0) (k0_pay11 x0 x1 xs0) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem sout0_C_2_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    sout0_C_2 c i arg2 harg2 arg3 harg3 arg4 harg4 arg5 harg5 arg6 harg6 arg7 harg7 arg8 harg8 arg9 harg9 hc0 hc1 x0 x1 x2 xs0 xs1 xs2 = k0_pay8 i x0 x1 x2 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem out0_C_3_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    out0_C_3 c i arg2 harg2 arg3 harg3 arg4 harg4 arg5 harg5 arg6 harg6 arg7 harg7 arg8 harg8 arg9 harg9 hc0 hc1 x0 x1 x2 xs0 xs1 xs2 = k0_pay3 (k0_pay2 (k0_pay9 x0 x1 xs0)) (k0_pay1 (k0_pay10 x0 x1 xs0 xs0) (k0_pay11 x0 x1 xs0) xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

theorem out0_C_4_eq (c : Dev nD) (i : grid0.Coords) (arg2 : Memref sig .tc .vmem S1024x2048 .bf16) (harg2 : arg2.IsWhole) (arg3 : Memref sig .tc .vmem S1280x2048 .bf16) (harg3 : arg3.IsWhole) (arg4 : Memref sig .tc .vmem S1024x1 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x2048 .bf16) (x1 : Vec F S1280x2048 .bf16) (x2 : Vec F S1024x1 .i32) (xs0 : Vec F S1024x1 .f32) (xs1 : Vec F S1024x1 .f32) (xs2 : Vec F S1024x1 .f32) :
    out0_C_4 c i arg2 harg2 arg3 harg3 arg4 harg4 arg5 harg5 arg6 harg6 arg7 harg7 arg8 harg8 arg9 harg9 hc0 hc1 x0 x1 x2 xs0 xs1 xs2 = k0_pay8 i x0 x1 x2 xs2 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero (S := S1024x1) kp_hz]
  simp only [View.readAt_eq_ld, harg2.read_unread, harg3.read_unread, harg4.read_unread, harg5.read_unread, harg6.read_unread, harg7.read_unread, harg8.read_unread, harg9.read_unread,
    View.readCov_unit_zero (S := S1024x1) _ kp_hz, View.ld_unit_zero (S := S1024x2048) kp_hz, View.ld_unit_zero (S := S1280x2048) kp_hz, View.ld_unit_zero (S := S1024x1) kp_hz]

/-! ## The payload terms at a row, over the extended reals -/

/-- The pattern of `-∞`. -/
theorem ofBits_neg_inf : Ideal.ofBits .f32 0xFF800000#32 = (⊥ : EReal) := by simp [Ideal.ofBits, Ideal.ieee]

/-- A vector cast to a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column broadcast along the rows of a `[1024, 1280]` block reads, at `(r, j)`, the column at `(r, 0)`. -/
theorem bcast_col_apply {α : Type} (x : S1024x1.Idx → α) (h : S1024x1.Broadcasts S1024x1280) (r : Fin 1024) (j : Fin 1280) :
    broadcastTo S1024x1280 x h (ix2 r j) = x (ix2 r 0) :=
  broadcastTo_apply x h _ _ (by
    intro a
    match a with
    | ⟨0, _⟩ => rfl
    | ⟨1, _⟩ => rfl)

/-- The reduced index `r` with the column `k` put back is `(r, k)`. -/
theorem lift_row (h : S1024x1280.Reduces [1] S1024) (r : Fin 1024) (k : Fin (S1024x1280.size 1)) :
    h.lift (ix1 r) k = ix2 r (⟨k.val, k.isLt⟩ : Fin 1280) := by
  funext c; apply Fin.ext
  fin_cases c <;> rfl

theorem lhs_pay7_0 (i : S1024x1280.Idx) (q : dot_S1024x2048_S1280x2048_S1024x1280_1_1_0_0_n_n.contr.Idx) :
    (dot_S1024x2048_S1280x2048_S1024x1280_1_1_0_0_n_n.lhsIdx i q 0).val = (i 0).val := by
  unfold DotDims.lhsIdx
  rw [dif_neg (show ¬(0 : Fin S1024x2048.rank) ∈ dot_S1024x2048_S1280x2048_S1024x1280_1_1_0_0_n_n.lhsBatch by decide),
    dif_pos (show (0 : Fin S1024x2048.rank) ∈ dot_S1024x2048_S1280x2048_S1024x1280_1_1_0_0_n_n.lhsNonContracting by decide)]
  rfl
theorem lhs_pay7_1 (i : S1024x1280.Idx) (q : dot_S1024x2048_S1280x2048_S1024x1280_1_1_0_0_n_n.contr.Idx) :
    (dot_S1024x2048_S1280x2048_S1024x1280_1_1_0_0_n_n.lhsIdx i q 1).val = (q ⟨0, by decide⟩).val :=
  dot_S1024x2048_S1280x2048_S1024x1280_1_1_0_0_n_n.lhsIdx_val_of_single rfl i q
theorem rhs_pay7_0 (i : S1024x1280.Idx) (q : dot_S1024x2048_S1280x2048_S1024x1280_1_1_0_0_n_n.contr.Idx) :
    (dot_S1024x2048_S1280x2048_S1024x1280_1_1_0_0_n_n.rhsIdx i q 0).val = (i 1).val := by
  unfold DotDims.rhsIdx
  rw [dif_neg (show ¬(0 : Fin S1280x2048.rank) ∈ dot_S1024x2048_S1280x2048_S1024x1280_1_1_0_0_n_n.rhsBatch by decide),
    dif_pos (show (0 : Fin S1280x2048.rank) ∈ dot_S1024x2048_S1280x2048_S1024x1280_1_1_0_0_n_n.rhsNonContracting by decide)]
  rfl
theorem rhs_pay7_1 (i : S1024x1280.Idx) (q : dot_S1024x2048_S1280x2048_S1024x1280_1_1_0_0_n_n.contr.Idx) :
    (dot_S1024x2048_S1280x2048_S1024x1280_1_1_0_0_n_n.rhsIdx i q 1).val = (q ⟨0, by decide⟩).val :=
  dot_S1024x2048_S1280x2048_S1024x1280_1_1_0_0_n_n.rhsIdx_val_of_single rfl i q

/-- The block's logits: row `r` of the first operand against row `j` of the second. -/
theorem pay7_apply (x0 : Vec Ideal S1024x2048 .bf16) (x1 : Vec Ideal S1280x2048 .bf16) (r : Fin 1024) (j : Fin 1280) :
    k0_pay7 (F := Ideal) x0 x1 (ix2 r j) = blkLogit x0 x1 r j := by
  unfold k0_pay7
  refine (Ideal.matmul_constant_zero_apply dot_S1024x2048_S1280x2048_S1024x1280_1_1_0_0_n_n none _ _ (ix2 r j)).trans ?_
  unfold blkLogit
  rw [← Equiv.sum_comp (contrEquiv1 dot_S1024x2048_S1280x2048_S1024x1280_1_1_0_0_n_n 2048 rfl rfl).symm]
  refine Finset.sum_congr rfl fun k _ => ?_
  have hk := contrEquiv1_symm_val dot_S1024x2048_S1280x2048_S1024x1280_1_1_0_0_n_n 2048 rfl rfl k
  have el : dot_S1024x2048_S1280x2048_S1024x1280_1_1_0_0_n_n.lhsIdx (ix2 r j) ((contrEquiv1 dot_S1024x2048_S1280x2048_S1024x1280_1_1_0_0_n_n 2048 rfl rfl).symm k) = ix2 r k := funext fun a => Fin.ext (by
    match a with
    | ⟨0, _⟩ => exact lhs_pay7_0 _ _
    | ⟨1, _⟩ => exact (lhs_pay7_1 _ _).trans hk)
  have er : dot_S1024x2048_S1280x2048_S1024x1280_1_1_0_0_n_n.rhsIdx (ix2 r j) ((contrEquiv1 dot_S1024x2048_S1280x2048_S1024x1280_1_1_0_0_n_n 2048 rfl rfl).symm k) = ix2 j k := funext fun a => Fin.ext (by
    match a with
    | ⟨0, _⟩ => exact rhs_pay7_0 _ _
    | ⟨1, _⟩ => exact (rhs_pay7_1 _ _).trans hk)
  rw [el, er]
  have e0 : shapeCast S1024x2048 x0 shapeCasts_S1024x2048_S1024x2048 (ix2 r k) = x0 (ix2 r k) := congrFun (shapeCast_self x0 _) _
  have e1 : shapeCast S1280x2048 x1 shapeCasts_S1280x2048_S1280x2048 (ix2 j k) = x1 (ix2 j k) := congrFun (shapeCast_self x1 _) _
  rw [e0, e1]

theorem pay4_apply (y : S1024x1.Idx) : k0_pay4 (F := Ideal) y = (⊥ : EReal) := by
  unfold k0_pay4
  exact (congrFun (shapeCast_self _ _) y).trans ofBits_neg_inf
theorem pay5_apply (y : S1024x1.Idx) : k0_pay5 (F := Ideal) y = (0 : EReal) := by
  unfold k0_pay5
  exact (congrFun (shapeCast_self _ _) y).trans Ideal.ofBits_zero_f32
theorem pay6_apply (y : S1024x1.Idx) : k0_pay6 (F := Ideal) y = (0 : EReal) := by
  unfold k0_pay6
  exact (congrFun (shapeCast_self _ _) y).trans Ideal.ofBits_zero_f32

/-- The stored log-sum-exp at row `r`. -/
theorem payLse_apply (a b : Vec Ideal S1024x1 .f32) (r : Fin 1024) :
    k0_pay3 (F := Ideal) a b (ix2 r 0) = a (ix2 r 0) + Ideal.log (b (ix2 r 0)) := by
  rfl

/-- The maximum of the old running maximum and the tile's row maximum, at row `r`. -/
theorem pay9_apply (x0 : Vec Ideal S1024x2048 .bf16) (x1 : Vec Ideal S1280x2048 .bf16) (s0 : Vec Ideal S1024x1 .f32) (r : Fin 1024) :
    k0_pay9 (F := Ideal) x0 x1 s0 (ix2 r 0) = stepM (s0 (ix2 r 0)) (blkLogit x0 x1 r) := by
  unfold k0_pay9
  refine (maximumf_apply (φ := .f32) _ _ _).trans ?_
  unfold stepM
  refine congrArg (max (s0 (ix2 r 0))) ?_
  refine (shapeCast_a_a1_apply _ shapeCasts_S1024_S1024x1 r 0).trans ?_
  refine (Ideal.multiReduction_maximumf_single (k0_pay7 (F := Ideal) x0 x1) _ reduces_S1024x1280_S1024 _ _ (ix1 r)).trans ?_
  unfold tileMax
  have hf : (k0_pay7 (F := Ideal) x0 x1 ∘ reduces_S1024x1280_S1024.lift (ix1 r)) = blkLogit x0 x1 r := by
    funext k
    exact (congrArg (k0_pay7 (F := Ideal) x0 x1) (lift_row _ r k)).trans (pay7_apply x0 x1 r _)
  have hb : FloatOps.ofBits (F := Ideal) FTy.f32 4286578688#32 = (⊥ : EReal) := ofBits_neg_inf
  rw [hf, hb]
  rfl

/-- The new running maximum at row `r`. -/
theorem payM_apply (x0 : Vec Ideal S1024x2048 .bf16) (x1 : Vec Ideal S1280x2048 .bf16) (s0 : Vec Ideal S1024x1 .f32) (r : Fin 1024) :
    k0_pay2 (F := Ideal) (k0_pay9 x0 x1 s0) (ix2 r 0) = stepM (s0 (ix2 r 0)) (blkLogit x0 x1 r) := by
  unfold k0_pay2
  exact (congrFun (shapeCast_self _ _) (ix2 r 0)).trans (pay9_apply x0 x1 s0 r)

/-- The rescaling factor at row `r`. -/
theorem pay10_apply (x0 : Vec Ideal S1024x2048 .bf16) (x1 : Vec Ideal S1280x2048 .bf16) (s0 : Vec Ideal S1024x1 .f32) (r : Fin 1024) :
    k0_pay10 (F := Ideal) x0 x1 s0 s0 (ix2 r 0) = Ideal.exp (s0 (ix2 r 0) - stepM (s0 (ix2 r 0)) (blkLogit x0 x1 r)) := by
  unfold k0_pay10
  exact congrArg (fun z => Ideal.exp (s0 (ix2 r 0) - z)) (pay9_apply x0 x1 s0 r)

/-- The tile's shifted exponentials at `(r, j)`. -/
theorem pay11_apply (x0 : Vec Ideal S1024x2048 .bf16) (x1 : Vec Ideal S1280x2048 .bf16) (s0 : Vec Ideal S1024x1 .f32) (r : Fin 1024) (j : Fin 1280) :
    k0_pay11 (F := Ideal) x0 x1 s0 (ix2 r j) = Ideal.exp (blkLogit x0 x1 r j - stepM (s0 (ix2 r 0)) (blkLogit x0 x1 r)) := by
  unfold k0_pay11
  have e1 := pay7_apply x0 x1 r j
  have e2 : broadcastTo S1024x1280 (k0_pay9 (F := Ideal) x0 x1 s0) broadcasts_S1024x1_S1024x1280 (ix2 r j) = stepM (s0 (ix2 r 0)) (blkLogit x0 x1 r) :=
    (bcast_col_apply _ _ r j).trans (pay9_apply x0 x1 s0 r)
  exact congrArg₂ (fun a b => Ideal.exp (a - b)) e1 e2

/-- The new running sum at row `r`. -/
theorem payL_apply (x0 : Vec Ideal S1024x2048 .bf16) (x1 : Vec Ideal S1280x2048 .bf16) (s0 s1 : Vec Ideal S1024x1 .f32) (r : Fin 1024) :
    k0_pay1 (F := Ideal) (k0_pay10 x0 x1 s0 s0) (k0_pay11 x0 x1 s0) s1 (ix2 r 0)
      = stepL (s0 (ix2 r 0)) (s1 (ix2 r 0)) (blkLogit x0 x1 r) := by
  unfold k0_pay1
  refine (congrFun (shapeCast_self _ _) (ix2 r 0)).trans ?_
  refine (addf_apply (φ := .f32) _ _ _).trans ?_
  unfold stepL
  refine congrArg₂ (· + ·) ?_ ?_
  · refine (mulf_apply (φ := .f32) _ _ _).trans ?_
    exact congrArg (· * s1 (ix2 r 0)) (pay10_apply x0 x1 s0 r)
  · refine (shapeCast_a_a1_apply _ shapeCasts_S1024_S1024x1 r 0).trans ?_
    refine (Ideal.multiReduction_add_single (k0_pay11 (F := Ideal) x0 x1 s0) _ reduces_S1024x1280_S1024 _ _ (ix1 r)).trans ?_
    refine Finset.sum_congr rfl fun k _ => ?_
    exact (congrArg (k0_pay11 (F := Ideal) x0 x1 s0) (lift_row _ r k)).trans (pay11_apply x0 x1 s0 r _)

/-- One entry of the masked logits: the logit where the column's word is the row's id, zero elsewhere. -/
theorem sel_apply (kw : BitVec 32) (Lg : FVec Ideal S1024x1280 .f32) (x2 : Vec Ideal S1024x1 .i32) (r : Fin 1024) (j : Fin 1280) :
    (select (cmpi .eq (addi (iota .tc S1024x1280 32 [1] iota_S1024x1280_d1_w32) (broadcast S1024x1280 (Scalar.muli kw 1280#32)))
        (broadcastTo S1024x1280 (shapeCast S1024x1 x2 shapeCasts_S1024x1_S1024x1) broadcasts_S1024x1_S1024x1280))
      Lg (broadcast S1024x1280 (Scalar.ofBits (F := Ideal) .f32 0x00000000#32)) : FVec Ideal S1024x1280 .f32) (ix2 r j)
      = if BitVec.ofNat 32 j.val + kw * 1280#32 = x2 (ix2 r (0 : Fin 1)) then Lg (ix2 r j) else 0 := by
  have hi : iota .tc S1024x1280 32 [1] iota_S1024x1280_d1_w32 (ix2 r j) = BitVec.ofNat 32 j.val :=
    iota_single_apply .tc S1024x1280 32 1 iota_S1024x1280_d1_w32 (ix2 r j)
  have hb : broadcastTo S1024x1280 (shapeCast S1024x1 x2 shapeCasts_S1024x1_S1024x1) broadcasts_S1024x1_S1024x1280 (ix2 r j)
      = x2 (ix2 r (0 : Fin 1)) :=
    (bcast_col_apply _ _ r j).trans (congrFun (shapeCast_self x2 _) _)
  have hz : (broadcast S1024x1280 (Scalar.ofBits (F := Ideal) .f32 0x00000000#32) : FVec Ideal S1024x1280 .f32) (ix2 r j) = (0 : EReal) :=
    Ideal.ofBits_zero_f32
  rw [select_apply, hz]
  show Scalar.select (IntOp.cmpi .eq (IntOp.addi (iota .tc S1024x1280 32 [1] iota_S1024x1280_d1_w32 (ix2 r j)) (kw * 1280#32))
    (broadcastTo S1024x1280 (shapeCast S1024x1 x2 shapeCasts_S1024x1_S1024x1) broadcasts_S1024x1_S1024x1280 (ix2 r j))) (Lg (ix2 r j)) 0 = _
  rw [hi, hb]
  show Scalar.select (IntOp.cmpi .eq (BitVec.ofNat 32 j.val + kw * 1280#32) (x2 (ix2 r (0 : Fin 1)))) (Lg (ix2 r j)) 0 = _
  by_cases h : BitVec.ofNat 32 j.val + kw * 1280#32 = x2 (ix2 r (0 : Fin 1))
  · rw [if_pos h, IntOp.cmpi_eq.mpr h, select_one]
  · rw [if_neg h, eq_zero_of_ne_one (fun h1 => h (IntOp.cmpi_eq.mp h1)), select_zero]

/-- The new running target sum at row `r`, over any block of logits: the old sum plus the row's masked logits. -/
theorem payT_core (kw : BitVec 32) (Lg : FVec Ideal S1024x1280 .f32) (x2 : Vec Ideal S1024x1 .i32) (s2 : Vec Ideal S1024x1 .f32) (r : Fin 1024) :
    (shapeCast S1024x1 (addf s2 (shapeCast S1024x1 (multiReduction .add [1] S1024
        (select (cmpi .eq (addi (iota .tc S1024x1280 32 [1] iota_S1024x1280_d1_w32) (broadcast S1024x1280 (Scalar.muli kw 1280#32)))
            (broadcastTo S1024x1280 (shapeCast S1024x1 x2 shapeCasts_S1024x1_S1024x1) broadcasts_S1024x1_S1024x1280))
          Lg (broadcast S1024x1280 (Scalar.ofBits (F := Ideal) .f32 0x00000000#32)))
        0x00000000#32 reduces_S1024x1280_S1024 (.inl rfl) rfl) shapeCasts_S1024_S1024x1)) shapeCasts_S1024x1_S1024x1
        : FVec Ideal S1024x1 .f32) (ix2 r (0 : Fin 1))
      = s2 (ix2 r (0 : Fin 1)) + ∑ j : Fin 1280, (if BitVec.ofNat 32 j.val + kw * 1280#32 = x2 (ix2 r (0 : Fin 1)) then Lg (ix2 r j) else 0) := by
  refine (congrFun (shapeCast_self _ _) (ix2 r (0 : Fin 1))).trans ?_
  refine (addf_apply _ _ _).trans ?_
  refine congrArg (s2 (ix2 r (0 : Fin 1)) + ·) ?_
  refine (shapeCast_a_a1_apply _ _ r (0 : Fin 1)).trans ?_
  refine (Ideal.multiReduction_add_single _ _ reduces_S1024x1280_S1024 _ _ (ix1 r)).trans ?_
  show ∑ k : Fin 1280, _ = _
  refine Finset.sum_congr rfl fun k _ => ?_
  refine (congrArg _ (lift_row reduces_S1024x1280_S1024 r k)).trans ?_
  exact sel_apply kw Lg x2 r k

/-- The new running target sum at row `r`, at vocabulary tile `i 1`. -/
theorem payT_apply (i : grid0.Coords) (x0 : Vec Ideal S1024x2048 .bf16) (x1 : Vec Ideal S1280x2048 .bf16) (x2 : Vec Ideal S1024x1 .i32)
    (s2 : Vec Ideal S1024x1 .f32) (r : Fin 1024) :
    k0_pay8 (F := Ideal) i x0 x1 x2 s2 (ix2 r 0) = s2 (ix2 r 0) + ∑ j : Fin 1280, blkSel (i 1).val x0 x1 x2 r j := by
  unfold k0_pay8
  refine (payT_core (BitVec.ofNat 32 (i 1).val) (k0_pay7 x0 x1) x2 s2 r).trans ?_
  refine congrArg (s2 (ix2 r 0) + ·) (Finset.sum_congr rfl fun j _ => ?_)
  unfold blkSel colWord
  rw [pay7_apply]

end Cert.KernelIdeal.Gen.Fr

end
-- ==== Proof.SpecTok.lean ====
/-
  What each token contributes, as one function of the real entries of `x` and `W` and of the ids `y`.

  Token `(b, t)`'s logits are the row `v ↦ ∑ h, x[b, t, h] · W[v, h]`.  Its log-probability of the target id is the
  target's logit less the row's log-sum-exp; an ignored token (id `-100`) contributes `0`.
-/
import proofs.«402844_j8701603741902_3_alg».proof.Proof.Spec
import Idealize.ShloMosaic.Lib.ValueIdx

noncomputable section

namespace Cert.Spec

open Idealize.ShloMosaic Idealize.ShloMosaic.ValueIdx

abbrev SX : Shape := ⟨3, ![8, 1024, 2048]⟩
abbrev SW : Shape := ⟨2, ![32000, 2048]⟩
abbrev SY : Shape := ⟨2, ![8, 1024]⟩

/-- Token `(b, t)`'s row of logits. -/
def rowOf (xr : SX.Idx → ℝ) (wr : SW.Idx → ℝ) (b : Fin 8) (t : Fin 1024) (v : Fin 32000) : ℝ :=
  ∑ h : Fin 2048, xr (ix3 b t h) * wr (ix2 v h)

/-- The column an id names (ids are used only where they are below 32000). -/
def colOf (w : BitVec 32) : Fin 32000 := ⟨w.toNat % 32000, Nat.mod_lt _ (by decide)⟩

/-- The ignore index `-100` as a 32-bit word. -/
abbrev ignoreWord : BitVec 32 := 4294967196#32

/-- Each token's contribution: zero where ignored, else the target's logit less the row's log-sum-exp. -/
def tokSpec (xr : SX.Idx → ℝ) (wr : SW.Idx → ℝ) (y : IVec SY 32) : SY.Idx → EReal := fun i =>
  if y i = ignoreWord then 0
  else (((rowOf xr wr (i 0) (i 1) (colOf (y i)) - lse (rowOf xr wr (i 0) (i 1)) : ℝ)) : EReal)

/-- The ids are labels: the ignore index, or a column of the vocabulary. -/
def LabelsOk (y : IVec SY 32) : Prop := ∀ i, y i = ignoreWord ∨ (y i).toNat < 32000

end Cert.Spec

end
-- ==== Proof.OnlineLse.lean ====
/-
  The online log-sum-exp is the log-sum-exp, and the reference's shifted form is too.

  For a row `a` of reals with maximum `m`:  `m + log ∑ exp (a j - m) = log ∑ exp (a j)`, because
  `exp (a j - m) = exp (a j) / exp m`.  The running pair `(M, L)` keeps `L = ∑_{seen} exp (a j - M)`: a new tile
  raises `M` to `M'`, the old sum is rescaled by `exp (M - M')`, and the new tile's terms are added at `M'`; before
  any tile `M = -∞`, `exp (-∞ - M') = 0` and the empty sum is `0`.
-/
import proofs.«402844_j8701603741902_3_alg».proof.Proof.Spec
import Mathlib.Analysis.SpecialFunctions.Log.Basic
import Mathlib.Analysis.SpecialFunctions.Exp
import Mathlib.Algebra.BigOperators.Fin
import Mathlib.Data.EReal.Operations
import Mathlib.Data.Finset.Lattice.Fold
import Mathlib.Logic.Equiv.Fin.Basic

noncomputable section

namespace Cert.Spec

open Idealize.ShloMosaic

/-! ### General facts over an arbitrary finite index set -/

/-- The coercion of a finite real sum is the sum of the coercions. -/
theorem coe_sum' {ι : Type*} (s : Finset ι) (f : ι → ℝ) :
    ((∑ j ∈ s, f j : ℝ) : EReal) = ∑ j ∈ s, (f j : EReal) := by
  classical
  induction s using Finset.induction_on with
  | empty => simp
  | insert i s hi ih => rw [Finset.sum_insert hi, Finset.sum_insert hi, EReal.coe_add, ih]

/-- The fold of `max` from `-∞` over a nonempty finite family of reals is a real. -/
theorem fold_max_coe {ι : Type*} (s : Finset ι) (hs : s.Nonempty) (f : ι → ℝ) :
    ∃ m : ℝ, s.fold max ⊥ (fun j => ((f j : ℝ) : EReal)) = (m : EReal) := by
  refine ⟨s.sup' hs f, ?_⟩
  change s.sup (fun j => ((f j : ℝ) : EReal)) = _
  apply le_antisymm
  · exact Finset.sup_le fun j hj => EReal.coe_le_coe_iff.2 (Finset.le_sup' f hj)
  · obtain ⟨i, hi, hm⟩ := Finset.exists_mem_eq_sup' hs f
    rw [hm]
    exact Finset.le_sup (f := fun j => ((f j : ℝ) : EReal)) hi

/-- Shifting by any real `m` and adding it back outside the logarithm leaves the log-sum-exp unchanged. -/
theorem add_log_sum_shift {ι : Type*} (s : Finset ι) (hs : s.Nonempty) (f : ι → ℝ) (m : ℝ) :
    m + Real.log (∑ j ∈ s, Real.exp (f j - m)) = Real.log (∑ j ∈ s, Real.exp (f j)) := by
  have hpos : 0 < ∑ j ∈ s, Real.exp (f j) := Finset.sum_pos (fun j _ => Real.exp_pos _) hs
  have h : ∑ j ∈ s, Real.exp (f j - m) = (∑ j ∈ s, Real.exp (f j)) * Real.exp (-m) := by
    rw [Finset.sum_mul]
    refine Finset.sum_congr rfl fun j _ => ?_
    rw [sub_eq_add_neg, Real.exp_add]
  rw [h, Real.log_mul hpos.ne' (Real.exp_pos _).ne', Real.log_exp]
  ring

/-- Rescaling a sum of shifted exponentials from the shift `m` to the shift `m'`. -/
theorem rescale_sum {ι : Type*} (s : Finset ι) (f : ι → ℝ) (m m' : ℝ) :
    Real.exp (m - m') * ∑ j ∈ s, Real.exp (f j - m) = ∑ j ∈ s, Real.exp (f j - m') := by
  rw [Finset.mul_sum]
  refine Finset.sum_congr rfl fun j _ => ?_
  rw [← Real.exp_add]
  congr 1
  ring

/-- Summing tile by tile is summing the whole row. -/
theorem sum_tiles {M : Type*} [AddCommMonoid M] {m n N : ℕ} (h : m * n = N) (idx : Fin m → Fin n → Fin N)
    (hidx : ∀ i j, (idx i j).val = i.val * n + j.val) (g : Fin N → M) :
    ∑ i : Fin m, ∑ j : Fin n, g (idx i j) = ∑ x : Fin N, g x := by
  subst h
  rw [← Fintype.sum_prod_type']
  refine Fintype.sum_equiv finProdFinEquiv _ _ fun x => ?_
  congr 1
  apply Fin.ext
  rw [hidx]
  simp [finProdFinEquiv, mul_comm, add_comm]

/-- The two-level form of `rescale_sum`. -/
theorem rescale_sum2 {ι κ : Type*} (s : Finset ι) (u : Finset κ) (f : ι → κ → ℝ) (m m' : ℝ) :
    Real.exp (m - m') * ∑ i ∈ s, ∑ j ∈ u, Real.exp (f i j - m) = ∑ i ∈ s, ∑ j ∈ u, Real.exp (f i j - m') := by
  rw [Finset.mul_sum]
  exact Finset.sum_congr rfl fun i _ => rescale_sum u (f i) m m'

/-- The two-level form of `add_log_sum_shift`. -/
theorem add_log_sum_shift2 {ι κ : Type*} (s : Finset ι) (u : Finset κ) (hs : s.Nonempty) (hu : u.Nonempty)
    (f : ι → κ → ℝ) (m : ℝ) :
    m + Real.log (∑ i ∈ s, ∑ j ∈ u, Real.exp (f i j - m)) = Real.log (∑ i ∈ s, ∑ j ∈ u, Real.exp (f i j)) := by
  have h := add_log_sum_shift (s ×ˢ u) (hs.product hu) (fun p => f p.1 p.2) m
  simpa only [Finset.sum_product] using h

/-! ### The running pair over tiles of reals -/

theorem univ_tile_nonempty : (Finset.univ : Finset (Fin 1280)).Nonempty :=
  ⟨⟨0, by norm_num⟩, Finset.mem_univ _⟩

/-- A tile of reals has a real maximum. -/
theorem tileMax_coe (b : Fin 1280 → ℝ) : ∃ t : ℝ, tileMax (fun j => ((b j : ℝ) : EReal)) = (t : EReal) :=
  fold_max_coe Finset.univ univ_tile_nonempty b

/-- The sum of a tile's shifted exponentials is the coercion of the real sum. -/
theorem sum_exp_coe (b : Fin 1280 → ℝ) (m : ℝ) :
    ∑ j, Ideal.exp ((fun j => ((b j : ℝ) : EReal)) j - (m : EReal)) = ((∑ j, Real.exp (b j - m) : ℝ) : EReal) := by
  rw [coe_sum']
  refine Finset.sum_congr rfl fun j _ => ?_
  show Ideal.exp (((b j : ℝ) : EReal) - (m : EReal)) = _
  rw [← EReal.coe_sub, Ideal.exp_coe]

/-- The first tile: from `(-∞, 0)` the pair becomes the tile's maximum and the tile's shifted sum. -/
theorem step_first (b : Fin 1280 → ℝ) :
    ∃ m : ℝ, stepM ⊥ (fun j => ((b j : ℝ) : EReal)) = (m : EReal) ∧
      stepL ⊥ 0 (fun j => ((b j : ℝ) : EReal)) = ((∑ j, Real.exp (b j - m) : ℝ) : EReal) := by
  obtain ⟨t, ht⟩ := tileMax_coe b
  have hM : stepM ⊥ (fun j => ((b j : ℝ) : EReal)) = (t : EReal) := by
    unfold stepM
    rw [ht]
    exact max_eq_right bot_le
  refine ⟨t, hM, ?_⟩
  unfold stepL
  rw [hM, EReal.bot_sub, Ideal.exp_bot, mul_zero, zero_add, sum_exp_coe]

/-- A later tile: from a real pair `(m, S)` the pair becomes `(m', exp (m - m') S + the tile's sum shifted by m')`. -/
theorem step_next (b : Fin 1280 → ℝ) (m S : ℝ) :
    ∃ m' : ℝ, stepM (m : EReal) (fun j => ((b j : ℝ) : EReal)) = (m' : EReal) ∧
      stepL (m : EReal) (S : EReal) (fun j => ((b j : ℝ) : EReal))
        = ((Real.exp (m - m') * S + ∑ j, Real.exp (b j - m') : ℝ) : EReal) := by
  obtain ⟨t, ht⟩ := tileMax_coe b
  have hM : stepM (m : EReal) (fun j => ((b j : ℝ) : EReal)) = ((max m t : ℝ) : EReal) := by
    unfold stepM
    rw [ht]
    exact (EReal.coe_strictMono.monotone.map_max).symm
  refine ⟨max m t, hM, ?_⟩
  unfold stepL
  rw [hM, sum_exp_coe, ← EReal.coe_sub, Ideal.exp_coe, ← EReal.coe_mul, ← EReal.coe_add]

/-- The invariant: after `k + 1` tiles the running maximum is a real `m` and the running sum is the sum of the
    exponentials of everything seen, shifted by `m`. -/
theorem online_inv (b : ℕ → Fin 1280 → ℝ) (k : ℕ) :
    ∃ m : ℝ, onM (fun i j => ((b i j : ℝ) : EReal)) (k + 1) = (m : EReal) ∧
      onL (fun i j => ((b i j : ℝ) : EReal)) (k + 1)
        = ((∑ i ∈ Finset.range (k + 1), ∑ j, Real.exp (b i j - m) : ℝ) : EReal) := by
  induction k with
  | zero =>
    obtain ⟨m, hM, hL⟩ := step_first (b 0)
    refine ⟨m, hM, ?_⟩
    rw [Finset.sum_range_one]
    exact hL
  | succ k ih =>
    obtain ⟨m, hM, hL⟩ := ih
    obtain ⟨m', hM', hL'⟩ :=
      step_next (b (k + 1)) m (∑ i ∈ Finset.range (k + 1), ∑ j, Real.exp (b i j - m))
    refine ⟨m', ?_, ?_⟩
    · show stepM (onM (fun i j => ((b i j : ℝ) : EReal)) (k + 1)) (fun j => ((b (k + 1) j : ℝ) : EReal)) = _
      rw [hM]
      exact hM'
    · show stepL (onM (fun i j => ((b i j : ℝ) : EReal)) (k + 1)) (onL (fun i j => ((b i j : ℝ) : EReal)) (k + 1))
          (fun j => ((b (k + 1) j : ℝ) : EReal)) = _
      rw [hM, hL, hL', Finset.sum_range_succ _ (k + 1), rescale_sum2]

/-- The row cut into tiles of reals (junk `0` past the last tile). -/
def realTiles (a : Fin 32000 → ℝ) (k : ℕ) (j : Fin 1280) : ℝ :=
  if h : k < 25 then a (tileIdx ⟨k, h⟩ j) else 0

theorem tiles_eq_coe (a : Fin 32000 → ℝ) : tiles a = fun i j => ((realTiles a i j : ℝ) : EReal) := by
  funext i j
  unfold tiles realTiles
  split
  · rfl
  · exact EReal.coe_zero.symm

theorem realTiles_fin (a : Fin 32000 → ℝ) (i : Fin 25) (j : Fin 1280) :
    realTiles a i.val j = a (tileIdx i j) := by
  unfold realTiles
  rw [dif_pos i.isLt]

/-- Tile by tile, the 25 tiles of 1280 columns cover the 32000 columns once each. -/
theorem sum_row_tiles {M : Type*} [AddCommMonoid M] (g : Fin 32000 → M) :
    ∑ i : Fin 25, ∑ j : Fin 1280, g (tileIdx i j) = ∑ x : Fin 32000, g x :=
  sum_tiles (by norm_num) tileIdx (fun _ _ => rfl) g

/-- The log-sum-exp of a nonempty family dominates each member. -/
theorem le_log_sum_exp {ι : Type*} (s : Finset ι) (f : ι → ℝ) (y : ι) (hy : y ∈ s) :
    f y ≤ Real.log (∑ j ∈ s, Real.exp (f j)) := by
  have h : Real.exp (f y) ≤ ∑ j ∈ s, Real.exp (f j) :=
    Finset.single_le_sum (f := fun j => Real.exp (f j)) (fun j _ => (Real.exp_pos _).le) hy
  calc f y = Real.log (Real.exp (f y)) := (Real.log_exp _).symm
    _ ≤ _ := Real.log_le_log (Real.exp_pos _) h

/-- After all 25 tiles the kernel's `M + log L` is the row's log-sum-exp. -/
theorem online_lse (a : Fin 32000 → ℝ) :
    onM (tiles a) 25 + Ideal.log (onL (tiles a) 25) = ((lse a : ℝ) : EReal) := by
  rw [tiles_eq_coe]
  obtain ⟨m, hM, hL⟩ : ∃ m : ℝ, onM (fun i j => ((realTiles a i j : ℝ) : EReal)) 25 = (m : EReal) ∧
      onL (fun i j => ((realTiles a i j : ℝ) : EReal)) 25
        = ((∑ i ∈ Finset.range 25, ∑ j, Real.exp (realTiles a i j - m) : ℝ) : EReal) :=
    online_inv (realTiles a) 24
  have hr : (Finset.range 25).Nonempty := ⟨0, Finset.mem_range.2 (by norm_num)⟩
  have hS : 0 < ∑ i ∈ Finset.range 25, ∑ j, Real.exp (realTiles a i j - m) :=
    Finset.sum_pos (fun i _ => Finset.sum_pos (fun j _ => Real.exp_pos _) univ_tile_nonempty) hr
  rw [hM, hL, Ideal.log_coe, if_neg (not_le.2 hS), ← EReal.coe_add,
    add_log_sum_shift2 _ _ hr univ_tile_nonempty, Finset.sum_range]
  refine congrArg _ ?_
  unfold lse
  refine congrArg Real.log ?_
  rw [← sum_row_tiles]
  refine Finset.sum_congr rfl fun i _ => Finset.sum_congr rfl fun j _ => ?_
  rw [realTiles_fin]

/-- The running target sum is the sum over the tiles seen. -/
theorem onT_eq_sum (s : ℕ → Fin 1280 → EReal) (k : ℕ) :
    onT s k = ∑ i ∈ Finset.range k, ∑ j, s i j := by
  induction k with
  | zero => rfl
  | succ k ih =>
    rw [Finset.sum_range_succ, ← ih]
    rfl

/-- After all 25 tiles the masked running sum is the target's logit. -/
theorem online_tgt (a : Fin 32000 → ℝ) (y : Fin 32000) :
    onT (tilesAt a y.val) 25 = ((a y : ℝ) : EReal) := by
  rw [onT_eq_sum, Finset.sum_range]
  have h : ∀ (i : Fin 25) (j : Fin 1280), tilesAt a y.val i.val j
      = (fun x : Fin 32000 => if x = y then ((a x : ℝ) : EReal) else 0) (tileIdx i j) := by
    intro i j
    show (if i.val * 1280 + j.val = y.val then tiles a i.val j else 0) = if tileIdx i j = y then _ else 0
    have hc : (i.val * 1280 + j.val = y.val) ↔ (tileIdx i j = y) := by
      rw [Fin.ext_iff]
      rfl
    rw [if_congr hc rfl rfl]
    congr 1
    unfold tiles
    rw [dif_pos i.isLt]
  simp_rw [h]
  rw [sum_row_tiles (fun x : Fin 32000 => if x = y then ((a x : ℝ) : EReal) else 0),
    Finset.sum_ite_eq' Finset.univ y, if_pos (Finset.mem_univ y)]

/-- The reference's form: with `mx` the row's maximum folded from `-∞` (and once more against `-∞`), the entry
    shifted by `mx` less the logarithm of `0 +` the sum of the shifted exponentials is the entry less the log-sum-exp. -/
theorem shifted_lse (a : Fin 32000 → ℝ) (y : Fin 32000) :
    let mx : EReal := max ⊥ ((Finset.univ : Finset (Fin 32000)).fold max ⊥ fun j => ((a j : ℝ) : EReal))
    (((a y : ℝ) : EReal) - mx) - Ideal.log (0 + ∑ j : Fin 32000, Ideal.exp (((a j : ℝ) : EReal) - mx))
      = ((a y - lse a : ℝ) : EReal) := by
  intro mx
  have hne : (Finset.univ : Finset (Fin 32000)).Nonempty := ⟨y, Finset.mem_univ _⟩
  obtain ⟨m, hm⟩ := fold_max_coe Finset.univ hne a
  have hmx : mx = (m : EReal) := by
    show max ⊥ _ = _
    rw [hm]
    exact max_eq_right bot_le
  have hS : 0 < ∑ j : Fin 32000, Real.exp (a j - m) := Finset.sum_pos (fun j _ => Real.exp_pos _) hne
  have hsum : ∑ j : Fin 32000, Ideal.exp (((a j : ℝ) : EReal) - (m : EReal))
      = ((∑ j : Fin 32000, Real.exp (a j - m) : ℝ) : EReal) := by
    rw [coe_sum']
    refine Finset.sum_congr rfl fun j _ => ?_
    rw [← EReal.coe_sub, Ideal.exp_coe]
  rw [hmx, hsum, zero_add, Ideal.log_coe, if_neg (not_le.2 hS), ← EReal.coe_sub, ← EReal.coe_sub]
  refine congrArg _ ?_
  have h := add_log_sum_shift Finset.univ hne a m
  unfold lse
  rw [← h]
  ring

/-- A logit never exceeds the row's log-sum-exp. -/
theorem sub_lse_nonpos (a : Fin 32000 → ℝ) (y : Fin 32000) : a y - lse a ≤ 0 :=
  sub_nonpos.2 (le_log_sum_exp Finset.univ a y (Finset.mem_univ y))

end Cert.Spec

end
-- ==== Proof.KValue.lean ====
/-
  The kernel's two result arrays give the token specification.

  Row `1024 i + r` of the results is written at the last tile of row block `i`; by induction over the tiles the scratch
  buffers hold the running maximum, sum and target sum of that row's logits over the tiles seen; after the last tile
  these are the row's log-sum-exp and the target's logit.
-/
import proofs.«402844_j8701603741902_3_alg».proof.Proof.KPieces
import proofs.«402844_j8701603741902_3_alg».proof.Proof.KHost
import proofs.«402844_j8701603741902_3_alg».proof.Proof.SpecTok
import proofs.«402844_j8701603741902_3_alg».proof.Proof.OnlineLse

set_option maxRecDepth 16384

noncomputable section

namespace Cert.KernelIdeal.Gen.Fr

open Idealize.ShloMosaic Idealize.ShloMosaic.TcCoe Idealize.ShloMosaic.ValueIdx
open Idealize.SL Idealize.SL.Sem
open Idealize.ShloMosaic.Pipeline (Dat)
open Cert.Spec

section Rows

variable (m : (ℓ : Loc nD τ sig) → Buf (Elt Ideal) ℓ) (c : Dev nD)

/-- The row block a point works on. -/
def blockOf (t : Fin cfg0.N) : Fin 8 := ⟨t.val / 25, by have := t.isLt; have hN : cfg0.N = 200 := N_0; omega⟩
/-- The vocabulary tile a point works on. -/
def tileOf (t : Fin cfg0.N) : Fin 25 := ⟨t.val % 25, Nat.mod_lt _ (by decide)⟩

/-- The three input blocks at a point, at their literal types. -/
abbrev xblk (t : Fin cfg0.N) : Vec Ideal S1024x2048 .bf16 := iblk m c 0 t
abbrev wblk (t : Fin cfg0.N) : Vec Ideal S1280x2048 .bf16 := iblk m c 1 t
abbrev yblk (t : Fin cfg0.N) : Vec Ideal S1024x1 .i32 := iblk m c 2 t

/-- The three input arrays, at their literal types. -/
abbrev xarr : FVec Ideal Cert.Tail.S8192x2048 .bf16 := V m c main_v1
abbrev warr : FVec Ideal Cert.Tail.S32000x2048 .bf16 := V m c main_v2
abbrev yarr : IVec Cert.Tail.S8192x1 32 := V m c main_v7

/-- The windows' index maps over the grid: the row block is `t / 25`, the vocabulary tile `t % 25`. -/
theorem idx_facts : ∀ t : Fin cfg0.N, win0_0.index t (0 : Fin 2) = t.val / 25 ∧ win0_0.index t (1 : Fin 2) = 0
    ∧ win0_1.index t (0 : Fin 2) = t.val % 25 ∧ win0_1.index t (1 : Fin 2) = 0
    ∧ win0_2.index t (0 : Fin 2) = t.val / 25 ∧ win0_2.index t (1 : Fin 2) = 0
    ∧ win0_3.index t (0 : Fin 2) = t.val / 25 ∧ win0_3.index t (1 : Fin 2) = 0
    ∧ win0_4.index t (0 : Fin 2) = t.val / 25 ∧ win0_4.index t (1 : Fin 2) = 0
    ∧ ((grid0.coords t) 1).val = t.val % 25 :=
  (by decide +kernel : ∀ t : Fin grid0.N, _)

theorem xblk_apply (t : Fin cfg0.N) (r : Fin 1024) (h : Fin 2048) (R : Fin 8192) (hR : R.val = 1024 * (t.val / 25) + r.val) :
    xblk m c t (ix2 r h) = xarr m c (ix2 R h) := by
  obtain ⟨e0, e1, -⟩ := idx_facts t
  unfold xblk iblk
  rw [View.read_apply]
  show V m c main_v1 _ = V m c main_v1 _
  congr 1
  funext a
  apply Fin.ext
  match a with
  | ⟨0, _⟩ => show win0_0.index t 0 * 1024 + 1 * r.val = R.val; rw [e0, hR]; omega
  | ⟨1, _⟩ => show win0_0.index t 1 * 2048 + 1 * h.val = h.val; rw [e1]; omega

theorem wblk_apply (t : Fin cfg0.N) (j : Fin 1280) (h : Fin 2048) (v : Fin 32000) (hv : v.val = 1280 * (t.val % 25) + j.val) :
    wblk m c t (ix2 j h) = warr m c (ix2 v h) := by
  obtain ⟨-, -, e0, e1, -⟩ := idx_facts t
  unfold wblk iblk
  rw [View.read_apply]
  show V m c main_v2 _ = V m c main_v2 _
  congr 1
  funext a
  apply Fin.ext
  match a with
  | ⟨0, _⟩ => show win0_1.index t 0 * 1280 + 1 * j.val = v.val; rw [e0, hv]; omega
  | ⟨1, _⟩ => show win0_1.index t 1 * 2048 + 1 * h.val = h.val; rw [e1]; omega

theorem yblk_apply (t : Fin cfg0.N) (r : Fin 1024) (R : Fin 8192) (hR : R.val = 1024 * (t.val / 25) + r.val) :
    yblk m c t (ix2 r (0 : Fin 1)) = yarr m c (ix2 R (0 : Fin 1)) := by
  obtain ⟨-, -, -, -, e0, e1, -⟩ := idx_facts t
  unfold yblk iblk
  rw [View.read_apply]
  show V m c main_v7 _ = V m c main_v7 _
  congr 1
  funext a
  apply Fin.ext
  match a with
  | ⟨0, _⟩ => show win0_2.index t 0 * 1024 + 1 * r.val = R.val; rw [e0, hR]; omega
  | ⟨1, _⟩ => show win0_2.index t 1 * 1 + 1 * 0 = 0; rw [e1]

/-! ## The input arrays on real inputs -/

/-- A token's id with the ignore index replaced by `0`. -/
def safeW (w : BitVec 32) : BitVec 32 := Scalar.select (IntOp.cmpi .ne w ignoreWord) w 0#32

variable (xr : SX.Idx → ℝ) (wr : SW.Idx → ℝ)

theorem xarr_apply (hx : m ((c : Thread nD τ).loc main_arg0) = fun i => ((xr i : ℝ) : EReal))
    (b : Fin 8) (r : Fin 1024) (h : Fin 2048) (R : Fin 8192) (hR : R.val = 1024 * b.val + r.val) :
    xarr m c (ix2 R h) = ((xr (ix3 b r h) : ℝ) : EReal) := by
  show V m c main_v1 (ix2 R h) = _
  rw [V_main_v1 m c, hx]
  unfold Cert.Tail.kX
  rw [truncf_apply]
  refine (shapeCast_apply _ Cert.Tail.shapeCasts_S8x1024x2048_S8192x2048 (ix2 R h) (ix3 b r h) ?_).trans rfl
  rw [Shape.rowMajor_val_three, Shape.rowMajor_val_two]
  show (b.val * 1024 + r.val) * 2048 + h.val = R.val * 2048 + h.val
  rw [hR]
  omega

theorem warr_apply (hw : m ((c : Thread nD τ).loc main_arg2) = fun i => ((wr i : ℝ) : EReal)) (v : Fin 32000) (h : Fin 2048) :
    warr m c (ix2 v h) = ((wr (ix2 v h) : ℝ) : EReal) := by
  show V m c main_v2 (ix2 v h) = _
  rw [V_main_v2 m c, hw]
  rfl

theorem yarr_apply (b : Fin 8) (r : Fin 1024) (R : Fin 8192) (hR : R.val = 1024 * b.val + r.val) :
    yarr m c (ix2 R (0 : Fin 1)) = safeW (m ((c : Thread nD τ).loc main_arg1) (ix2 b r)) := by
  show V m c main_v7 (ix2 R (0 : Fin 1)) = _
  rw [V_main_v7 m c]
  unfold Cert.Tail.kSafeY
  refine (shapeCast_apply _ Cert.Tail.shapeCasts_S8192_S8192x1 (ix2 R (0 : Fin 1)) (ix1 R) ?_).trans ?_
  · rw [Shape.rowMajor_val_one, Shape.rowMajor_val_two]
    show R.val = R.val * 1 + 0
    omega
  have hy : shapeCast Cert.Tail.S8192 (m ((c : Thread nD τ).loc main_arg1)) Cert.Tail.shapeCasts_S8x1024_S8192 (ix1 R)
      = m ((c : Thread nD τ).loc main_arg1) (ix2 b r) :=
    shapeCast_apply _ _ (ix1 R) (ix2 b r) (by
      rw [Shape.rowMajor_val_two, Shape.rowMajor_val_one]
      show b.val * 1024 + r.val = R.val
      omega)
  show Scalar.select (IntOp.cmpi .ne (shapeCast Cert.Tail.S8192 (m ((c : Thread nD τ).loc main_arg1)) Cert.Tail.shapeCasts_S8x1024_S8192 (ix1 R)) ignoreWord)
    (shapeCast Cert.Tail.S8192 (m ((c : Thread nD τ).loc main_arg1)) Cert.Tail.shapeCasts_S8x1024_S8192 (ix1 R)) 0#32 = _
  rw [hy]
  rfl

/-! ## One point's rows on real inputs -/

/-- The word the body compares with an id is the column's number: no wrap below `32000`. -/
theorem colWord_toNat (k : ℕ) (hk : k < 25) (j : Fin 1280) : (colWord k j).toNat = k * 1280 + j.val := by
  unfold colWord
  rw [BitVec.toNat_add, BitVec.toNat_mul, BitVec.toNat_ofNat, BitVec.toNat_ofNat]
  have h1 : (1280#32 : BitVec 32).toNat = 1280 := by decide
  have hj := j.isLt
  rw [h1]
  norm_num
  omega

theorem colWord_eq_iff (k : ℕ) (hk : k < 25) (j : Fin 1280) (w : BitVec 32) : colWord k j = w ↔ k * 1280 + j.val = w.toNat := by
  constructor
  · intro h
    rw [← h, colWord_toNat k hk j]
  · intro h
    exact BitVec.eq_of_toNat_eq ((colWord_toNat k hk j).trans h)

/-- A tile's masked logits, once the row's logits are a tile of a real row. -/
theorem blkSel_eq (k : ℕ) (hk : k < 25) (X : SBx.Idx → EReal) (Wt : SBw.Idx → EReal) (Y : SBc.Idx → BitVec 32) (r : Fin 1024)
    (a : Fin 32000 → ℝ) (hrow : blkLogit X Wt r = tiles a k) :
    (fun j => blkSel k X Wt Y r j) = tilesAt a (Y (ix2 r (0 : Fin 1))).toNat k := by
  funext j
  unfold blkSel tilesAt
  rw [hrow]
  exact if_congr (colWord_eq_iff k hk j _) rfl rfl

variable (hx : m ((c : Thread nD τ).loc main_arg0) = fun i => ((xr i : ℝ) : EReal))
  (hw : m ((c : Thread nD τ).loc main_arg2) = fun i => ((wr i : ℝ) : EReal))

include hx hw in
/-- At a point, a row's logits against the tile are that tile of the token's real row. -/
theorem blkLogit_real (t : Fin cfg0.N) (r : Fin 1024) :
    blkLogit (xblk m c t) (wblk m c t) r = tiles (rowOf xr wr (blockOf t) r) (tileOf t).val := by
  funext j
  unfold blkLogit tiles
  rw [dif_pos (tileOf t).isLt]
  unfold rowOf
  rw [coe_sum']
  refine Finset.sum_congr rfl fun h _ => ?_
  rw [xblk_apply m c t r h ⟨1024 * (t.val / 25) + r.val, by have := (blockOf t).isLt; have : (blockOf t).val = t.val / 25 := rfl; have := r.isLt; omega⟩ rfl,
    xarr_apply m c xr hx (blockOf t) r h _ rfl,
    wblk_apply m c t j h (tileIdx (tileOf t) j) (by show (t.val % 25) * 1280 + j.val = 1280 * (t.val % 25) + j.val; omega),
    warr_apply m c wr hw]
  exact (EReal.coe_mul _ _).symm

/-- At a point, a row's id is the token's safe id. -/
theorem yblk_safe (t : Fin cfg0.N) (r : Fin 1024) :
    yblk m c t (ix2 r (0 : Fin 1)) = safeW (m ((c : Thread nD τ).loc main_arg1) (ix2 (blockOf t) r)) := by
  rw [yblk_apply m c t r ⟨1024 * (t.val / 25) + r.val, by have := (blockOf t).isLt; have : (blockOf t).val = t.val / 25 := rfl; have := r.isLt; omega⟩ rfl]
  exact yarr_apply m c (blockOf t) r _ rfl

/-! ## The scratch buffers after each point -/

/-- One tile's step of the three running quantities. -/
theorem step_all (a s : ℕ → Fin 1280 → EReal) (k : ℕ) (p0 p1 p2 : EReal) (row sel : Fin 1280 → EReal)
    (h0 : p0 = onM a k) (h1 : p1 = onL a k) (h2 : p2 = onT s k) (hrow : row = a k) (hsel : sel = s k) :
    stepM p0 row = onM a (k + 1) ∧ stepL p0 p1 row = onL a (k + 1) ∧ p2 + ∑ j, sel j = onT s (k + 1) := by
  subst h0 h1 h2 hrow hsel
  exact ⟨rfl, rfl, rfl⟩

/-- The token `(b, r)`'s target column: its safe id as a number. -/
abbrev tgtOf (b : Fin 8) (r : Fin 1024) : ℕ := (safeW (m ((c : Thread nD τ).loc main_arg1) (ix2 b r))).toNat

include hx hw in
/-- The body's three updates at a point, row by row: one step of the running maximum, sum and target sum. -/
theorem point_step (t : Fin cfg0.N) (r : Fin 1024) (p0 p1 p2 : Vec Ideal S1024x1 .f32)
    (h0 : p0 (ix2 r (0 : Fin 1)) = onM (tiles (rowOf xr wr (blockOf t) r)) (t.val % 25))
    (h1 : p1 (ix2 r (0 : Fin 1)) = onL (tiles (rowOf xr wr (blockOf t) r)) (t.val % 25))
    (h2 : p2 (ix2 r (0 : Fin 1)) = onT (tilesAt (rowOf xr wr (blockOf t) r) (tgtOf m c (blockOf t) r)) (t.val % 25)) :
    k0_pay2 (F := Ideal) (k0_pay9 (xblk m c t) (wblk m c t) p0) (ix2 r (0 : Fin 1))
        = onM (tiles (rowOf xr wr (blockOf t) r)) (t.val % 25 + 1)
      ∧ k0_pay1 (F := Ideal) (k0_pay10 (xblk m c t) (wblk m c t) p0 p0) (k0_pay11 (xblk m c t) (wblk m c t) p0) p1 (ix2 r (0 : Fin 1))
        = onL (tiles (rowOf xr wr (blockOf t) r)) (t.val % 25 + 1)
      ∧ k0_pay8 (F := Ideal) (grid0.coords t) (xblk m c t) (wblk m c t) (yblk m c t) p2 (ix2 r (0 : Fin 1))
        = onT (tilesAt (rowOf xr wr (blockOf t) r) (tgtOf m c (blockOf t) r)) (t.val % 25 + 1) := by
  have hrow : blkLogit (xblk m c t) (wblk m c t) r = tiles (rowOf xr wr (blockOf t) r) (t.val % 25) :=
    blkLogit_real m c xr wr hx hw t r
  have hk : t.val % 25 < 25 := Nat.mod_lt _ (by decide)
  have hsel : (fun j => blkSel (t.val % 25) (xblk m c t) (wblk m c t) (yblk m c t) r j)
      = tilesAt (rowOf xr wr (blockOf t) r) (tgtOf m c (blockOf t) r) (t.val % 25) := by
    rw [blkSel_eq (t.val % 25) hk (xblk m c t) (wblk m c t) (yblk m c t) r (rowOf xr wr (blockOf t) r) hrow, yblk_safe m c t r]
  have hi : ((grid0.coords t) 1).val = t.val % 25 := (idx_facts t).2.2.2.2.2.2.2.2.2.2
  rw [payM_apply (xblk m c t) (wblk m c t) p0 r, payL_apply (xblk m c t) (wblk m c t) p0 p1 r,
    payT_apply (grid0.coords t) (xblk m c t) (wblk m c t) (yblk m c t) p2 r, hi]
  exact step_all _ _ (t.val % 25) _ _ _ _ _ h0 h1 h2 hrow hsel

/-- After a point, each row of the three scratch buffers holds the running maximum, sum and target sum over the tiles seen. -/
def Inv (n : ℕ) (hn : n < cfg0.N) (r : Fin 1024) : Prop :=
  (outsAt0 m c n hn).2.2.1 (ix2 r (0 : Fin 1)) = onM (tiles (rowOf xr wr (blockOf ⟨n, hn⟩) r)) (n % 25 + 1)
    ∧ (outsAt0 m c n hn).2.2.2.1 (ix2 r (0 : Fin 1)) = onL (tiles (rowOf xr wr (blockOf ⟨n, hn⟩) r)) (n % 25 + 1)
    ∧ (outsAt0 m c n hn).2.2.2.2 (ix2 r (0 : Fin 1))
        = onT (tilesAt (rowOf xr wr (blockOf ⟨n, hn⟩) r) (tgtOf m c (blockOf ⟨n, hn⟩) r)) (n % 25 + 1)

include hx hw in
theorem inv_A (t : Fin cfg0.N) (h0 : t.val % 25 = 0) (h1 : ¬t.val % 25 = 24) (r : Fin 1024) : Inv m c xr wr t.val t.isLt r := by
  obtain ⟨g0, g1, g2⟩ := point_step m c xr wr hx hw t r (k0_pay4 (F := Ideal)) (k0_pay5 (F := Ideal)) (k0_pay6 (F := Ideal))
    (by rw [h0]; exact pay4_apply _) (by rw [h0]; exact pay5_apply _) (by rw [h0]; exact pay6_apply _)
  unfold Inv
  rw [outsAt0_A m c t h0 h1]
  dsimp only
  refine ⟨(congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (yblk m c t)) (ix2 r (0 : Fin 1))).trans g0,
    (congrFun (sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (yblk m c t)) (ix2 r (0 : Fin 1))).trans g1,
    (congrFun (sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (xblk m c t) (wblk m c t) (yblk m c t)) (ix2 r (0 : Fin 1))).trans g2⟩

include hx hw in
theorem inv_B (t : Fin cfg0.N) (h0 : ¬t.val % 25 = 0) (h1 : ¬t.val % 25 = 24) (r : Fin 1024)
    (ih : Inv m c xr wr (t.val - 1) (Nat.lt_of_le_of_lt (Nat.sub_le _ _) t.isLt) r) : Inv m c xr wr t.val t.isLt r := by
  have hb : blockOf ⟨t.val - 1, Nat.lt_of_le_of_lt (Nat.sub_le _ _) t.isLt⟩ = blockOf t := Fin.ext (by
    show (t.val - 1) / 25 = t.val / 25
    omega)
  have hk : (t.val - 1) % 25 + 1 = t.val % 25 := by omega
  unfold Inv at ih
  rw [hb, hk] at ih
  obtain ⟨i0, i1, i2⟩ := ih
  obtain ⟨g0, g1, g2⟩ := point_step m c xr wr hx hw t r (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 i0 i1 i2
  unfold Inv
  rw [outsAt0_B m c t h0 h1]
  dsimp only
  refine ⟨(congrFun (sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r (0 : Fin 1))).trans g0,
    (congrFun (sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r (0 : Fin 1))).trans g1,
    (congrFun (sout0_B_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (xblk m c t) (wblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r (0 : Fin 1))).trans g2⟩

include hx hw in
theorem inv_C (t : Fin cfg0.N) (h0 : ¬t.val % 25 = 0) (h1 : t.val % 25 = 24) (r : Fin 1024)
    (ih : Inv m c xr wr (t.val - 1) (Nat.lt_of_le_of_lt (Nat.sub_le _ _) t.isLt) r) : Inv m c xr wr t.val t.isLt r := by
  have hb : blockOf ⟨t.val - 1, Nat.lt_of_le_of_lt (Nat.sub_le _ _) t.isLt⟩ = blockOf t := Fin.ext (by
    show (t.val - 1) / 25 = t.val / 25
    omega)
  have hk : (t.val - 1) % 25 + 1 = t.val % 25 := by omega
  unfold Inv at ih
  rw [hb, hk] at ih
  obtain ⟨i0, i1, i2⟩ := ih
  obtain ⟨g0, g1, g2⟩ := point_step m c xr wr hx hw t r (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 i0 i1 i2
  unfold Inv
  rw [outsAt0_C m c t h0 h1]
  dsimp only
  refine ⟨(congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r (0 : Fin 1))).trans g0,
    (congrFun (sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r (0 : Fin 1))).trans g1,
    (congrFun (sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r (0 : Fin 1))).trans g2⟩

include hx hw in
/-- The invariant at every point, by induction along the grid. -/
theorem inv_all : ∀ (n : ℕ) (hn : n < cfg0.N) (r : Fin 1024), Inv m c xr wr n hn r := by
  intro n
  induction n with
  | zero => exact fun hn r => inv_A m c xr wr hx hw ⟨0, hn⟩ rfl (by show ¬(0 : ℕ) % 25 = 24; decide) r
  | succ n ih =>
    intro hn r
    by_cases h0 : (n + 1) % 25 = 0
    · exact inv_A m c xr wr hx hw ⟨n + 1, hn⟩ h0 (by show ¬(n + 1) % 25 = 24; omega) r
    · by_cases h1 : (n + 1) % 25 = 24
      · exact inv_C m c xr wr hx hw ⟨n + 1, hn⟩ h0 h1 r (ih (Nat.lt_of_succ_lt hn) r)
      · exact inv_B m c xr wr hx hw ⟨n + 1, hn⟩ h0 h1 r (ih (Nat.lt_of_succ_lt hn) r)

include hx hw in
/-- What the last tile of a row block stores in the two result windows: the row's log-sum-exp and its target's logit. -/
theorem results_C (t : Fin cfg0.N) (h1 : t.val % 25 = 24) (r : Fin 1024) (hlt : tgtOf m c (blockOf t) r < 32000) :
    (outsAt0 m c t.val t.isLt).1 (ix2 r (0 : Fin 1)) = ((lse (rowOf xr wr (blockOf t) r) : ℝ) : EReal)
      ∧ (outsAt0 m c t.val t.isLt).2.1 (ix2 r (0 : Fin 1))
        = ((rowOf xr wr (blockOf t) r ⟨tgtOf m c (blockOf t) r, hlt⟩ : ℝ) : EReal) := by
  have h0 : ¬t.val % 25 = 0 := by omega
  have ih := inv_all m c xr wr hx hw (t.val - 1) (Nat.lt_of_le_of_lt (Nat.sub_le _ _) t.isLt) r
  have hb : blockOf ⟨t.val - 1, Nat.lt_of_le_of_lt (Nat.sub_le _ _) t.isLt⟩ = blockOf t := Fin.ext (by
    show (t.val - 1) / 25 = t.val / 25
    omega)
  have hk : (t.val - 1) % 25 + 1 = t.val % 25 := by omega
  unfold Inv at ih
  rw [hb, hk] at ih
  obtain ⟨i0, i1, i2⟩ := ih
  obtain ⟨g0, g1, g2⟩ := point_step m c xr wr hx hw t r (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 i0 i1 i2
  rw [h1] at g0 g1 g2
  rw [outsAt0_C m c t h0 h1]
  dsimp only
  constructor
  · refine (congrFun (out0_C_3_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r (0 : Fin 1))).trans ?_
    rw [payLse_apply, g0, g1]
    exact online_lse (rowOf xr wr (blockOf t) r)
  · refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (xblk m c t) (wblk m c t) (yblk m c t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) (ix2 r (0 : Fin 1))).trans ?_
    rw [g2]
    exact online_tgt (rowOf xr wr (blockOf t) r) ⟨tgtOf m c (blockOf t) r, hlt⟩

/-! ## The two result arrays -/

/-- A safe id is a column: an ignored id became `0`, another label is below `32000`. -/
theorem safeW_lt (w : BitVec 32) (h : w = ignoreWord ∨ w.toNat < 32000) : (safeW w).toNat < 32000 := by
  by_cases hw : w = ignoreWord
  · subst hw
    decide
  · have hs : safeW w = w := by
      unfold safeW
      rw [IntOp.cmpi_ne.mpr hw, select_one]
    rw [hs]
    exact h.resolve_left hw

/-- What the log-sum-exp array ends holding: row `1024 b + r` is token `(b, r)`'s. -/
def lseArr : FVec Ideal Cert.Tail.S8192x1 .f32 := fun I =>
  ((lse (rowOf xr wr ⟨(I 0).val / 1024, by have := idx2_lt0 I; omega⟩ ⟨(I 0).val % 1024, Nat.mod_lt _ (by decide)⟩) : ℝ) : EReal)

/-- What the target-logit array ends holding. -/
def tgtArr : FVec Ideal Cert.Tail.S8192x1 .f32 := fun I =>
  ((rowOf xr wr ⟨(I 0).val / 1024, by have := idx2_lt0 I; omega⟩ ⟨(I 0).val % 1024, Nat.mod_lt _ (by decide)⟩
    (colOf (safeW (m ((c : Thread nD τ).loc main_arg1) (ix2 ⟨(I 0).val / 1024, by have := idx2_lt0 I; omega⟩ ⟨(I 0).val % 1024, Nat.mod_lt _ (by decide)⟩)))) : ℝ) : EReal)

theorem lseArr_apply (I : Cert.Tail.S8192x1.Idx) (b : Fin 8) (r : Fin 1024) (hI : (I 0).val = 1024 * b.val + r.val) :
    lseArr xr wr I = ((lse (rowOf xr wr b r) : ℝ) : EReal) := by
  have hb : (⟨(I 0).val / 1024, by have := idx2_lt0 I; omega⟩ : Fin 8) = b := Fin.ext (by show (I 0).val / 1024 = b.val; have := r.isLt; omega)
  have hr : (⟨(I 0).val % 1024, Nat.mod_lt _ (by decide)⟩ : Fin 1024) = r := Fin.ext (by show (I 0).val % 1024 = r.val; have := r.isLt; omega)
  unfold lseArr
  rw [hb, hr]

theorem tgtArr_apply (I : Cert.Tail.S8192x1.Idx) (b : Fin 8) (r : Fin 1024) (hI : (I 0).val = 1024 * b.val + r.val) :
    tgtArr m c xr wr I = ((rowOf xr wr b r (colOf (safeW (m ((c : Thread nD τ).loc main_arg1) (ix2 b r)))) : ℝ) : EReal) := by
  have hb : (⟨(I 0).val / 1024, by have := idx2_lt0 I; omega⟩ : Fin 8) = b := Fin.ext (by show (I 0).val / 1024 = b.val; have := r.isLt; omega)
  have hr : (⟨(I 0).val % 1024, Nat.mod_lt _ (by decide)⟩ : Fin 1024) = r := Fin.ext (by show (I 0).val % 1024 = r.val; have := r.isLt; omega)
  unfold tgtArr
  rw [hb, hr]

/-- A block of 1024 rows that agrees row by row with rows `1024 q …` of a column array is that block of the array. -/
theorem block_rows (X : Vec Ideal S1024x1 .f32) (G : FVec Ideal Cert.Tail.S8192x1 .f32) (q : ℕ)
    (hX : ∀ (r : Fin 1024) (I : Cert.Tail.S8192x1.Idx), (I 0).val = 1024 * q + r.val → X (ix2 r (0 : Fin 1)) = G I)
    (j : S1024x1.Idx) (I : Cert.Tail.S8192x1.Idx) (hI : (I 0).val = q * 1024 + 1 * (j 0).val) : X j = G I := by
  obtain ⟨r, z, rfl⟩ : ∃ (r : Fin 1024) (z : Fin 1), j = ix2 r z := ⟨j 0, j 1, eq_ix2 j⟩
  obtain rfl : z = 0 := Subsingleton.elim _ _
  exact hX r I (by rw [hI]; show q * 1024 + 1 * r.val = 1024 * q + r.val; omega)

variable (hy : LabelsOk (m ((c : Thread nD τ).loc main_arg1)))

include hy in
theorem tgtOf_lt (b : Fin 8) (r : Fin 1024) : tgtOf m c b r < 32000 := safeW_lt _ (hy (ix2 b r))

include hx hw hy in
/-- What a row block's last point writes back to the log-sum-exp array is that block of `lseArr`. -/
theorem flushed3_eq (t : Fin cfg0.N) (hf : (cfg0.win 3).flush t = true) :
    (dats m 0 c).flushed 3 t = ((cfg0.win 3).blk t).view.read (Elt Ideal) (lseArr xr wr) := by
  have h1 : t.val % 25 = 24 := (flush0_3 t).mp hf
  obtain ⟨-, -, -, -, -, -, e0, e1, -⟩ := idx_facts t
  show (cfg0.win 3).cut (grid0.coords t) ((dats m 0 c).after 3 t) = _
  rw [after0_3]
  funext j
  rw [View.read_apply]
  refine block_rows (outsAt0 m c t.val t.isLt).1 (lseArr xr wr) (t.val / 25) (fun r I hI => ?_) j _ ?_
  · rw [(results_C m c xr wr hx hw t h1 r (tgtOf_lt m c hy (blockOf t) r)).1]
    exact (lseArr_apply xr wr I (blockOf t) r hI).symm
  · show win0_3.index t 0 * 1024 + 1 * (j 0).val = t.val / 25 * 1024 + 1 * (j 0).val
    rw [e0]

include hx hw hy in
/-- What a row block's last point writes back to the target-logit array is that block of `tgtArr`. -/
theorem flushed4_eq (t : Fin cfg0.N) (hf : (cfg0.win 4).flush t = true) :
    (dats m 0 c).flushed 4 t = ((cfg0.win 4).blk t).view.read (Elt Ideal) (tgtArr m c xr wr) := by
  have h1 : t.val % 25 = 24 := (flush0_4 t).mp hf
  obtain ⟨-, -, -, -, -, -, -, -, e0, e1, -⟩ := idx_facts t
  show (cfg0.win 4).cut (grid0.coords t) ((dats m 0 c).after 4 t) = _
  rw [after0_4]
  funext j
  rw [View.read_apply]
  refine block_rows (outsAt0 m c t.val t.isLt).2.1 (tgtArr m c xr wr) (t.val / 25) (fun r I hI => ?_) j _ ?_
  · rw [(results_C m c xr wr hx hw t h1 r (tgtOf_lt m c hy (blockOf t) r)).2, tgtArr_apply m c xr wr I (blockOf t) r hI]
    refine congrArg (fun v => ((rowOf xr wr (blockOf t) r v : ℝ) : EReal)) (Fin.ext ?_)
    show tgtOf m c (blockOf t) r = tgtOf m c (blockOf t) r % 32000
    exact (Nat.mod_eq_of_lt (tgtOf_lt m c hy (blockOf t) r)).symm
  · show win0_4.index t 0 * 1024 + 1 * (j 0).val = t.val / 25 * 1024 + 1 * (j 0).val
    rw [e0]

/-- An index of a result array is in a point's block iff each coordinate is in the block's range on its axis. -/
theorem mem_blk3 (t : Fin cfg0.N) (i : Cert.Tail.S8192x1.Idx) :
    i ∈ ((cfg0.win 3).blk t).view.set ↔ ∀ a : Fin 2, win0_3.index t a * S1024x1.size a ≤ (i a).val ∧ (i a).val < win0_3.index t a * S1024x1.size a + S1024x1.size a := by
  show i ∈ ((View.whole main_v8_0).slice (win0_3.rect t)).set ↔ _
  rw [View.set_slice_whole, Rect.mem_set_unit]
  exact Iff.rfl

theorem mem_blk4 (t : Fin cfg0.N) (i : Cert.Tail.S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v8_1).slice (win0_4.rect t)).set ↔ _
  rw [View.set_slice_whole, Rect.mem_set_unit]
  exact Iff.rfl

/-- The point that writes row `R` back: the last tile of row block `R / 1024`. -/
def lastOf (i : Cert.Tail.S8192x1.Idx) : Fin cfg0.N :=
  ⟨25 * ((i 0).val / 1024) + 24, by have := idx2_lt0 i; have hN : cfg0.N = 200 := N_0; omega⟩

theorem cover3 (i : Cert.Tail.S8192x1.Idx) : ∃ t : Fin cfg0.N, (cfg0.win 3).flush t = true ∧ i ∈ ((cfg0.win 3).blk t).view.set := by
  have h0 := idx2_lt0 i
  have h1 : (i 1).val < 1 := idx2_lt1 i
  have hv : (lastOf i).val = 25 * ((i 0).val / 1024) + 24 := rfl
  obtain ⟨-, -, -, -, -, -, e0, e1, -⟩ := idx_facts (lastOf i)
  refine ⟨lastOf i, (flush0_3 (lastOf i)).mpr (by rw [hv]; omega), ?_⟩
  rw [mem_blk3]
  intro a
  match a with
  | ⟨0, _⟩ =>
    show win0_3.index (lastOf i) 0 * 1024 ≤ (i 0).val ∧ (i 0).val < win0_3.index (lastOf i) 0 * 1024 + 1024
    rw [e0, hv]
    omega
  | ⟨1, _⟩ =>
    show win0_3.index (lastOf i) 1 * 1 ≤ (i 1).val ∧ (i 1).val < win0_3.index (lastOf i) 1 * 1 + 1
    rw [e1]
    omega

theorem cover4 (i : Cert.Tail.S8192x1.Idx) : ∃ t : Fin cfg0.N, (cfg0.win 4).flush t = true ∧ i ∈ ((cfg0.win 4).blk t).view.set := by
  have h0 := idx2_lt0 i
  have h1 : (i 1).val < 1 := idx2_lt1 i
  have hv : (lastOf i).val = 25 * ((i 0).val / 1024) + 24 := rfl
  obtain ⟨-, -, -, -, -, -, -, -, e0, e1, -⟩ := idx_facts (lastOf i)
  refine ⟨lastOf i, (flush0_4 (lastOf i)).mpr (by rw [hv]; omega), ?_⟩
  rw [mem_blk4]
  intro a
  match a with
  | ⟨0, _⟩ =>
    show win0_4.index (lastOf i) 0 * 1024 ≤ (i 0).val ∧ (i 0).val < win0_4.index (lastOf i) 0 * 1024 + 1024
    rw [e0, hv]
    omega
  | ⟨1, _⟩ =>
    show win0_4.index (lastOf i) 1 * 1 ≤ (i 1).val ∧ (i 1).val < win0_4.index (lastOf i) 1 * 1 + 1
    rw [e1]
    omega

include hx hw hy in
/-- The log-sum-exp array after the run. -/
theorem final3 : (dats m 0 c).arrAt 3 cfg0.N = lseArr xr wr :=
  (dats m 0 c).arrAt_eq_of_cover 3 (lseArr xr wr) (flushed3_eq m c xr wr hx hw hy) cover3

include hx hw hy in
/-- The target-logit array after the run. -/
theorem final4 : (dats m 0 c).arrAt 4 cfg0.N = tgtArr m c xr wr :=
  (dats m 0 c).arrAt_eq_of_cover 4 (tgtArr m c xr wr) (flushed4_eq m c xr wr hx hw hy) cover4

/-! ## The per-token values -/

/-- The kernel's per-token value at token `(b, t)`: the two result columns at row `1024 b + t`, their difference times
    the mask bit. -/
theorem kPerTok_apply (lseA tgtA : FVec Ideal Cert.Tail.S8192x1 .f32) (y : IVec SY 32) (b : Fin 8) (t : Fin 1024) (R : Fin 8192)
    (hR : R.val = 1024 * b.val + t.val) :
    Cert.Tail.kPerTok (F := Ideal) lseA tgtA y (ix2 b t)
      = (tgtA (ix2 R (0 : Fin 1)) - lseA (ix2 R (0 : Fin 1)))
        * ((((IntOp.cmpi .ne (y (ix2 b t)) ignoreWord).toNat : ℕ) : ℝ) : EReal) := by
  unfold Cert.Tail.kPerTok
  refine (shapeCast_apply _ Cert.Tail.shapeCasts_S8192_S8x1024 (ix2 b t) (ix1 R) ?_).trans ?_
  · rw [Shape.rowMajor_val_one, Shape.rowMajor_val_two]
    show R.val = b.val * 1024 + t.val
    omega
  have hcol : ∀ A : FVec Ideal Cert.Tail.S8192x1 .f32,
      shapeCast Cert.Tail.S8192 A Cert.Tail.shapeCasts_S8192x1_S8192 (ix1 R) = A (ix2 R (0 : Fin 1)) := fun A =>
    shapeCast_apply A _ (ix1 R) (ix2 R (0 : Fin 1)) (by
      rw [Shape.rowMajor_val_two, Shape.rowMajor_val_one]
      show R.val * 1 + 0 = R.val
      omega)
  have hy : shapeCast Cert.Tail.S8192 y Cert.Tail.shapeCasts_S8x1024_S8192 (ix1 R) = y (ix2 b t) :=
    shapeCast_apply y _ (ix1 R) (ix2 b t) (by
      rw [Shape.rowMajor_val_two, Shape.rowMajor_val_one]
      show b.val * 1024 + t.val = R.val
      omega)
  rw [mulf_apply, subf_apply, hcol, hcol]
  show _ * ((((IntOp.cmpi .ne (shapeCast Cert.Tail.S8192 y Cert.Tail.shapeCasts_S8x1024_S8192 (ix1 R)) ignoreWord).toNat : ℕ) : ℝ) : EReal) = _
  rw [hy]

end Rows

/-- On real inputs and labels in range, the kernel's per-token array is the token specification. -/
theorem kPerTok_eq (m : (ℓ : Loc nD τ sig) → Buf (Elt Ideal) ℓ) (c : Dev nD) (xr : SX.Idx → ℝ) (wr : SW.Idx → ℝ)
    (hx : m ((c : Thread nD τ).loc main_arg0) = fun i => ((xr i : ℝ) : EReal))
    (hw : m ((c : Thread nD τ).loc main_arg2) = fun i => ((wr i : ℝ) : EReal))
    (hy : LabelsOk (m ((c : Thread nD τ).loc main_arg1))) :
    Cert.Tail.kPerTok (F := Ideal) ((dats m 0 c).arrAt 3 cfg0.N) ((dats m 0 c).arrAt 4 cfg0.N) (m ((c : Thread nD τ).loc main_arg1))
      = tokSpec xr wr (m ((c : Thread nD τ).loc main_arg1)) := by
  rw [final3 m c xr wr hx hw hy, final4 m c xr wr hx hw hy]
  funext i
  obtain ⟨b, t, rfl⟩ : ∃ (b : Fin 8) (t : Fin 1024), i = ix2 b t := ⟨i 0, i 1, eq_ix2 i⟩
  have hRlt : 1024 * b.val + t.val < 8192 := by have := b.isLt; have := t.isLt; omega
  rw [kPerTok_apply (lseArr xr wr) (tgtArr m c xr wr) (m ((c : Thread nD τ).loc main_arg1)) b t ⟨1024 * b.val + t.val, hRlt⟩ rfl,
    lseArr_apply xr wr _ b t rfl, tgtArr_apply m c xr wr _ b t rfl, ← EReal.coe_sub]
  unfold tokSpec
  by_cases hig : m ((c : Thread nD τ).loc main_arg1) (ix2 b t) = ignoreWord
  · rw [if_pos hig, hig]
    have hm : IntOp.cmpi .ne ignoreWord ignoreWord = 0#1 := by decide
    rw [hm]
    show ((_ : ℝ) : EReal) * (((0 : ℕ) : ℝ) : EReal) = 0
    rw [Nat.cast_zero, EReal.coe_zero, mul_zero]
  · rw [if_neg hig, IntOp.cmpi_ne.mpr hig]
    have hs : safeW (m ((c : Thread nD τ).loc main_arg1) (ix2 b t)) = m ((c : Thread nD τ).loc main_arg1) (ix2 b t) := by
      unfold safeW
      rw [IntOp.cmpi_ne.mpr hig, select_one]
    rw [hs]
    show ((_ : ℝ) : EReal) * (((1 : ℕ) : ℝ) : EReal) = _
    rw [Nat.cast_one, EReal.coe_one, mul_one]

end Cert.KernelIdeal.Gen.Fr

end
-- ==== Proof.RefDefs.lean ====
/-
  The reference's computation as pure functions of its three arguments.

  `logits x W` contracts the hidden axis: `logits[b, t, v] = ∑ h, x[b, t, h] · W[v, h]`.  `logSoftmax` subtracts each row's
  maximum (taken from `-∞`, and once more against `-∞`), then the logarithm of the sum of the shifted exponentials.
  `mask y` marks the tokens that are not the ignore index `-100`; `safeY` replaces an ignored token's id by `0`.
  `takeAlong` reads a row at an index: a negative index is first shifted by the row's length, an index outside
  `[0, 31999]` yields the fill value instead of an entry.  `perTok` is the entry read at the safe id, times the mask.
-/
import proofs.«402844_j8701603741902_3_alg».proof.Proof.Gen.ReferenceIdeal
import proofs.«402844_j8701603741902_3_alg».proof.Proof.Tail

noncomputable section

namespace Cert.ReferenceIdeal.RefDefs

open Cert.ReferenceIdeal Idealize.ShloMosaic
open Cert.ReferenceIdeal.Facts₀

variable {F : FTy → Type} [FloatOps F]

/-- Every token's row of 32000 logits. -/
def logits (x : FVec F S8x1024x2048 .f32) (W : FVec F S32000x2048 .f32) : FVec F S8x1024x32000 .f32 :=
  Host.dotGeneral dot_S8x1024x2048_S32000x2048_S8x1024x32000_2_1_01_0_n_n none x W

/-- Each row's maximum, folded from `-∞` and taken once more against `-∞`. -/
def rowMax (l : FVec F S8x1024x32000 .f32) : FVec F S8x1024 .f32 :=
  maximumf (broadcastInDim S8x1024 ![] bcast_S_S8x1024 (constant S_ .f32 0xFF800000#32))
    (Host.reduce FloatOps.maximumf l (constant S_ .f32 0xFF800000#32) reducesTo_S8x1024x32000_S8x1024_d2 h_S_)

/-- The logits less their row's maximum. -/
def shifted (l : FVec F S8x1024x32000 .f32) : FVec F S8x1024x32000 .f32 :=
  subf l (broadcastInDim S8x1024x32000 ![0, 1, 2] bcast_S8x1024x1_S8x1024x32000_0_1_2
    (broadcastInDim S8x1024x1 ![0, 1] bcast_S8x1024_S8x1024x1_0_1 (rowMax l)))

/-- The row-wise log-softmax. -/
def logSoftmax (l : FVec F S8x1024x32000 .f32) : FVec F S8x1024x32000 .f32 :=
  subf (shifted l) (broadcastInDim S8x1024x32000 ![0, 1, 2] bcast_S8x1024x1_S8x1024x32000_0_1_2
    (Host.log (broadcastInDim S8x1024x1 ![0, 1] bcast_S8x1024_S8x1024x1_0_1
      (Host.reduceAdd (Host.exp (shifted l)) (constant S_ .f32 0x00000000#32) reducesTo_S8x1024x32000_S8x1024_d2 h_S_))))

/-- The tokens that count: the id is not `-100`. -/
def mask (y : IVec S8x1024 32) : IVec S8x1024 1 :=
  cmpi .ne y (broadcastInDim S8x1024 ![] bcast_S_S8x1024 (constantI S_ 32 4294967196#32))

/-- The id with an ignored token's replaced by `0`. -/
def safeY (y : IVec S8x1024 32) : IVec S8x1024 32 :=
  select (mask y) y (broadcastInDim S8x1024 ![] bcast_S_S8x1024 (id (constantI S_ 32 0#32)))

/-- The index a row is read at: a negative one shifted by the row's length. -/
def wrapIdx (idx : IVec S8x1024x1 32) : IVec S8x1024x1x1 32 :=
  shapeCast S8x1024x1x1
    (select (cmpi .slt idx (broadcastInDim S8x1024x1 ![] bcast_S_S8x1024x1 (constantI S_ 32 0#32)))
      (addi idx (broadcastInDim S8x1024x1 ![] bcast_S_S8x1024x1 (constantI S_ 32 32000#32))) idx)
    shapeCasts_S8x1024x1_S8x1024x1x1

/-- Whether that index lies in `[0, 31999]`. -/
def inRange (i : IVec S8x1024x1x1 32) : IVec S8x1024x1 1 :=
  Host.reduce IntOp.andi
    (andi (cmpi .sge i (broadcastInDim S8x1024x1x1 ![] bcast_S_S8x1024x1x1 (constantI S_ 32 0#32)))
      (cmpi .sle i (broadcastInDim S8x1024x1x1 ![0, 1, 2, 3] bcast_S1x1x1x1_S8x1024x1x1_0_1_2_3
        (broadcastInDim S1x1x1x1 ![3] bcast_S1_S1x1x1x1_3 (constantI S1 32 31999#32)))))
    (constantI S_ 1 1#1) reducesTo_S8x1024x1x1_S8x1024x1_d3 h_S_

/-- Each row read at its index: the entry where the index is in range, the fill value elsewhere. -/
def takeAlong (lp : FVec F S8x1024x32000 .f32) (idx : IVec S8x1024x1 32) : FVec F S8x1024x1 .f32 :=
  select (inRange (wrapIdx idx))
    (Host.gather gather_S8x1024x32000_S8x1024x1x1_S8x1024x1_n_2_01_01_2_3_111 lp (wrapIdx idx))
    (broadcastInDim S8x1024x1 ![] bcast_S_S8x1024x1 (constant S_ .f32 0x7FC00000#32))

/-- Each token's log-probability of its target, zero where the token is ignored. -/
def perTok (x : FVec F S8x1024x2048 .f32) (y : IVec S8x1024 32) (W : FVec F S32000x2048 .f32) : FVec F S8x1024 .f32 :=
  mulf (shapeCast S8x1024 (takeAlong (logSoftmax (logits x W)) (broadcastInDim S8x1024x1 ![0, 1] bcast_S8x1024_S8x1024x1_0_1 (safeY y)))
      shapeCasts_S8x1024x1_S8x1024)
    (uitofp .f32 (mask y))

/-- The reference's result. -/
def refVal (x : FVec F S8x1024x2048 .f32) (y : IVec S8x1024 32) (W : FVec F S32000x2048 .f32) : FVec F S_ .f32 :=
  Cert.Tail.tailG id (perTok x y W) (mask y)

end Cert.ReferenceIdeal.RefDefs

end
-- ==== Proof.RefRun.lean ====
/-
  The reference program runs to the end and leaves its result at `RefDefs.refVal` of its arguments.

  The program is a straight line of host operations (the four helper functions' bodies laid out at their call sites),
  each writing one fresh buffer; reading the last buffer back through the operations gives the composed function.
-/
import proofs.«402844_j8701603741902_3_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 105 operations in order, the helper functions' operations at their call sites over the calls' own
    buffers: the product of the activations with the table's transpose; the row-wise log-softmax (15); the mask of
    counted tokens and the safe ids (3, 1, 3); the read of each row at its id (1, 22); the per-token term (3); the
    counts, row sums, row means and the chosen rows' sums (24); the log-odds (9); the log-sigmoid through the softplus
    (16); the weighted sum and the final difference (7). -/
abbrev ops : List (HloOp τ sig (Elt F)) :=
  [ StableHlo.binary main_arg0 main_arg2 main_v0 ((fun l r => Host.dotGeneral dot_S8x1024x2048_S32000x2048_S8x1024x32000_2_1_01_0_n_n none l r) : (⟨S8x1024x2048, .f32⟩ : BufTy).Contents (Elt F) → (⟨S32000x2048, .f32⟩ : BufTy).Contents (Elt F) → (⟨S8x1024x32000, .f32⟩ : BufTy).Contents (Elt F)),
    StableHlo.TRef.nullary (.of main_call0_cst : StableHlo.TRef sig ⟨S_, .f32⟩) (constant S_ .f32 0xFF800000#32),
    StableHlo.TRef.binary (.of main_v0 : StableHlo.TRef sig ⟨S8x1024x32000, .f32⟩) (.of main_call0_cst : StableHlo.TRef sig ⟨S_, .f32⟩) (.of main_call0_v0 : StableHlo.TRef sig ⟨S8x1024, .f32⟩) (fun x v => Host.reduce FloatOps.maximumf x v reducesTo_S8x1024x32000_S8x1024_d2 h_S_),
    StableHlo.TRef.nullary (.of main_call0_cst_0 : StableHlo.TRef sig ⟨S_, .f32⟩) (constant S_ .f32 0xFF800000#32),
    StableHlo.TRef.unary (.of main_call0_cst_0 : StableHlo.TRef sig ⟨S_, .f32⟩) (.of main_call0_v1 : StableHlo.TRef sig ⟨S8x1024, .f32⟩) (broadcastInDim S8x1024 ![] bcast_S_S8x1024),
    StableHlo.TRef.binary (.of main_call0_v1 : StableHlo.TRef sig ⟨S8x1024, .f32⟩) (.of main_call0_v0 : StableHlo.TRef sig ⟨S8x1024, .f32⟩) (.of main_call0_v2 : StableHlo.TRef sig ⟨S8x1024, .f32⟩) maximumf,
    StableHlo.TRef.unary (.of main_call0_v2 : StableHlo.TRef sig ⟨S8x1024, .f32⟩) (.of main_call0_v3 : StableHlo.TRef sig ⟨S8x1024x1, .f32⟩) (broadcastInDim S8x1024x1 ![0, 1] bcast_S8x1024_S8x1024x1_0_1),
    StableHlo.TRef.unary (.of main_call0_v3 : StableHlo.TRef sig ⟨S8x1024x1, .f32⟩) (.of main_call0_v4 : StableHlo.TRef sig ⟨S8x1024x32000, .f32⟩) (broadcastInDim S8x1024x32000 ![0, 1, 2] bcast_S8x1024x1_S8x1024x32000_0_1_2),
    StableHlo.TRef.binary (.of main_v0 : StableHlo.TRef sig ⟨S8x1024x32000, .f32⟩) (.of main_call0_v4 : StableHlo.TRef sig ⟨S8x1024x32000, .f32⟩) (.of main_call0_v5 : StableHlo.TRef sig ⟨S8x1024x32000, .f32⟩) subf,
    StableHlo.TRef.unary (.of main_call0_v5 : StableHlo.TRef sig ⟨S8x1024x32000, .f32⟩) (.of main_call0_v6 : StableHlo.TRef sig ⟨S8x1024x32000, .f32⟩) Host.exp,
    StableHlo.TRef.nullary (.of main_call0_cst_1 : StableHlo.TRef sig ⟨S_, .f32⟩) (constant S_ .f32 0x00000000#32),
    StableHlo.TRef.binary (.of main_call0_v6 : StableHlo.TRef sig ⟨S8x1024x32000, .f32⟩) (.of main_call0_cst_1 : StableHlo.TRef sig ⟨S_, .f32⟩) (.of main_call0_v7 : StableHlo.TRef sig ⟨S8x1024, .f32⟩) (fun x v => Host.reduceAdd x v reducesTo_S8x1024x32000_S8x1024_d2 h_S_),
    StableHlo.TRef.unary (.of main_call0_v7 : StableHlo.TRef sig ⟨S8x1024, .f32⟩) (.of main_call0_v8 : StableHlo.TRef sig ⟨S8x1024x1, .f32⟩) (broadcastInDim S8x1024x1 ![0, 1] bcast_S8x1024_S8x1024x1_0_1),
    StableHlo.TRef.unary (.of main_call0_v8 : StableHlo.TRef sig ⟨S8x1024x1, .f32⟩) (.of main_call0_v9 : StableHlo.TRef sig ⟨S8x1024x1, .f32⟩) Host.log,
    StableHlo.TRef.unary (.of main_call0_v9 : StableHlo.TRef sig ⟨S8x1024x1, .f32⟩) (.of main_call0_v10 : StableHlo.TRef sig ⟨S8x1024x32000, .f32⟩) (broadcastInDim S8x1024x32000 ![0, 1, 2] bcast_S8x1024x1_S8x1024x32000_0_1_2),
    StableHlo.TRef.binary (.of main_call0_v5 : StableHlo.TRef sig ⟨S8x1024x32000, .f32⟩) (.of main_call0_v10 : StableHlo.TRef sig ⟨S8x1024x32000, .f32⟩) (.of main_v1 : StableHlo.TRef sig ⟨S8x1024x32000, .f32⟩) subf,
    StableHlo.nullary main_c (constantI S_ 32 4294967196#32),
    StableHlo.unary main_c main_v2 (broadcastInDim S8x1024 ![] bcast_S_S8x1024 : (⟨S_, .i32⟩ : BufTy).Contents (Elt F) → (⟨S8x1024, .i32⟩ : BufTy).Contents (Elt F)),
    StableHlo.binary main_arg1 main_v2 main_v3 (cmpi .ne : (⟨S8x1024, .i32⟩ : BufTy).Contents (Elt F) → (⟨S8x1024, .i32⟩ : BufTy).Contents (Elt F) → (⟨S8x1024, .i1⟩ : BufTy).Contents (Elt F)),
    StableHlo.nullary main_c_0 (constantI S_ 32 0#32),
    StableHlo.TRef.unary (.of main_c_0 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S8x1024, .i32⟩) (broadcastInDim S8x1024 ![] bcast_S_S8x1024),
    StableHlo.TRef.ternary (.of main_v3 : StableHlo.TRef sig ⟨S8x1024, .i1⟩) (.of main_arg1 : StableHlo.TRef sig ⟨S8x1024, .i32⟩) (.of main_call1_v1 : StableHlo.TRef sig ⟨S8x1024, .i32⟩) (.of main_v4 : StableHlo.TRef sig ⟨S8x1024, .i32⟩) select,
    StableHlo.unary main_v4 main_v5 (broadcastInDim S8x1024x1 ![0, 1] bcast_S8x1024_S8x1024x1_0_1 : (⟨S8x1024, .i32⟩ : BufTy).Contents (Elt F) → (⟨S8x1024x1, .i32⟩ : BufTy).Contents (Elt F)),
    StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8x1024x1, .i32⟩) (broadcastInDim S8x1024x1 ![] bcast_S_S8x1024x1),
    StableHlo.TRef.binary (.of main_v5 : StableHlo.TRef sig ⟨S8x1024x1, .i32⟩) (.of main_call2_v0 : StableHlo.TRef sig ⟨S8x1024x1, .i32⟩) (.of main_call2_v1 : StableHlo.TRef sig ⟨S8x1024x1, .i1⟩) (cmpi .slt),
    StableHlo.TRef.nullary (.of main_call2_c_0 : StableHlo.TRef sig ⟨S_, .i32⟩) (constantI S_ 32 32000#32),
    StableHlo.TRef.unary (.of main_call2_c_0 : StableHlo.TRef sig ⟨S_, .i32⟩) (.of main_call2_v2 : StableHlo.TRef sig ⟨S8x1024x1, .i32⟩) (broadcastInDim S8x1024x1 ![] bcast_S_S8x1024x1),
    StableHlo.TRef.binary (.of main_v5 : StableHlo.TRef sig ⟨S8x1024x1, .i32⟩) (.of main_call2_v2 : StableHlo.TRef sig ⟨S8x1024x1, .i32⟩) (.of main_call2_v3 : StableHlo.TRef sig ⟨S8x1024x1, .i32⟩) addi,
    StableHlo.TRef.ternary (.of main_call2_v1 : StableHlo.TRef sig ⟨S8x1024x1, .i1⟩) (.of main_call2_v3 : StableHlo.TRef sig ⟨S8x1024x1, .i32⟩) (.of main_v5 : StableHlo.TRef sig ⟨S8x1024x1, .i32⟩) (.of main_call2_v4 : StableHlo.TRef sig ⟨S8x1024x1, .i32⟩) select,
    StableHlo.TRef.reshape (.of main_call2_v4 : StableHlo.TRef sig ⟨S8x1024x1, .i32⟩) (.of main_call2_v5 : StableHlo.TRef sig ⟨S8x1024x1x1, .i32⟩) rfl shapeCasts_S8x1024x1_S8x1024x1x1,
    StableHlo.TRef.nullary (.of main_call2_c_1 : StableHlo.TRef sig ⟨S1, .i32⟩) (constantI S1 32 31999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8x1024x1x1, .i32⟩) (broadcastInDim S8x1024x1x1 ![] bcast_S_S8x1024x1x1),
    StableHlo.TRef.binary (.of main_call2_v5 : StableHlo.TRef sig ⟨S8x1024x1x1, .i32⟩) (.of main_call2_v6 : StableHlo.TRef sig ⟨S8x1024x1x1, .i32⟩) (.of main_call2_v7 : StableHlo.TRef sig ⟨S8x1024x1x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S8x1024x1x1, .i32⟩) (broadcastInDim S8x1024x1x1 ![0, 1, 2, 3] bcast_S1x1x1x1_S8x1024x1x1_0_1_2_3),
    StableHlo.TRef.binary (.of main_call2_v5 : StableHlo.TRef sig ⟨S8x1024x1x1, .i32⟩) (.of main_call2_v9 : StableHlo.TRef sig ⟨S8x1024x1x1, .i32⟩) (.of main_call2_v10 : StableHlo.TRef sig ⟨S8x1024x1x1, .i1⟩) (cmpi .sle),
    StableHlo.TRef.binary (.of main_call2_v7 : StableHlo.TRef sig ⟨S8x1024x1x1, .i1⟩) (.of main_call2_v10 : StableHlo.TRef sig ⟨S8x1024x1x1, .i1⟩) (.of main_call2_v11 : StableHlo.TRef sig ⟨S8x1024x1x1, .i1⟩) andi,
    StableHlo.TRef.nullary (.of main_call2_c_3 : StableHlo.TRef sig ⟨S_, .i1⟩) (constantI S_ 1 1#1),
    StableHlo.TRef.binary (.of main_call2_v11 : StableHlo.TRef sig ⟨S8x1024x1x1, .i1⟩) (.of main_call2_c_3 : StableHlo.TRef sig ⟨S_, .i1⟩) (.of main_call2_v12 : StableHlo.TRef sig ⟨S8x1024x1, .i1⟩) (fun x v => Host.reduce IntOp.andi x v reducesTo_S8x1024x1x1_S8x1024x1_d3 h_S_),
    StableHlo.TRef.binary (.of main_v1 : StableHlo.TRef sig ⟨S8x1024x32000, .f32⟩) (.of main_call2_v5 : StableHlo.TRef sig ⟨S8x1024x1x1, .i32⟩) (.of main_call2_v13 : StableHlo.TRef sig ⟨S8x1024x1, .f32⟩) (fun x i => Host.gather gather_S8x1024x32000_S8x1024x1x1_S8x1024x1_n_2_01_01_2_3_111 x i),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S8x1024x1, .f32⟩) (broadcastInDim S8x1024x1 ![] bcast_S_S8x1024x1),
    StableHlo.TRef.ternary (.of main_call2_v12 : StableHlo.TRef sig ⟨S8x1024x1, .i1⟩) (.of main_call2_v13 : StableHlo.TRef sig ⟨S8x1024x1, .f32⟩) (.of main_call2_v14 : StableHlo.TRef sig ⟨S8x1024x1, .f32⟩) (.of main_v6 : StableHlo.TRef sig ⟨S8x1024x1, .f32⟩) select,
    StableHlo.reshape main_v6 main_v7 rfl shapeCasts_S8x1024x1_S8x1024,
    StableHlo.unary main_v3 main_v8 (uitofp .f32 : (⟨S8x1024, .i1⟩ : BufTy).Contents (Elt F) → (⟨S8x1024, .f32⟩ : BufTy).Contents (Elt F)),
    StableHlo.binary main_v7 main_v8 main_v9 (mulf : (⟨S8x1024, .f32⟩ : BufTy).Contents (Elt F) → (⟨S8x1024, .f32⟩ : BufTy).Contents (Elt F) → (⟨S8x1024, .f32⟩ : BufTy).Contents (Elt F)),
    StableHlo.unary main_v3 main_v10 ((extui 32 · natLt_1_32) : (⟨S8x1024, .i1⟩ : BufTy).Contents (Elt F) → (⟨S8x1024, .i32⟩ : BufTy).Contents (Elt F)),
    StableHlo.nullary main_c_1 (constantI S_ 32 0#32),
    StableHlo.binary main_v10 main_c_1 main_v11 ((fun x v => Host.reduce IntOp.addi x v reducesTo_S8x1024_S8_d1 h_S_) : (⟨S8x1024, .i32⟩ : BufTy).Contents (Elt F) → (⟨S_, .i32⟩ : BufTy).Contents (Elt F) → (⟨S8, .i32⟩ : BufTy).Contents (Elt F)),
    StableHlo.nullary main_c_2 (constantI S_ 32 1#32),
    StableHlo.unary main_c_2 main_v12 (broadcastInDim S8 ![] bcast_S_S8 : (⟨S_, .i32⟩ : BufTy).Contents (Elt F) → (⟨S8, .i32⟩ : BufTy).Contents (Elt F)),
    StableHlo.binary main_v11 main_v12 main_v13 (maxsi : (⟨S8, .i32⟩ : BufTy).Contents (Elt F) → (⟨S8, .i32⟩ : BufTy).Contents (Elt F) → (⟨S8, .i32⟩ : BufTy).Contents (Elt F)),
    StableHlo.unary main_v13 main_v14 (sitofp .f32 : (⟨S8, .i32⟩ : BufTy).Contents (Elt F) → (⟨S8, .f32⟩ : BufTy).Contents (Elt F)),
    StableHlo.nullary main_cst (constant S_ .f32 0x00000000#32),
    StableHlo.binary main_v9 main_cst main_v15 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    StableHlo.binary main_v15 main_v14 main_v16 (Host.divf : (⟨S8, .f32⟩ : BufTy).Contents (Elt F) → (⟨S8, .f32⟩ : BufTy).Contents (Elt F) → (⟨S8, .f32⟩ : BufTy).Contents (Elt F)),
    StableHlo.unary main_v16 main_v17 ((extractStridedSlice S4 ![0] · slices_S8_S4_0) : (⟨S8, .f32⟩ : BufTy).Contents (Elt F) → (⟨S4, .f32⟩ : BufTy).Contents (Elt F)),
    StableHlo.unary main_v16 main_v18 ((extractStridedSlice S4 ![4] · slices_S8_S4_4) : (⟨S8, .f32⟩ : BufTy).Contents (Elt F) → (⟨S4, .f32⟩ : BufTy).Contents (Elt F)),
    StableHlo.unary main_v3 main_v19 ((extractStridedSlice S4x1024 ![0, 0] · slices_S8x1024_S4x1024_0_0) : (⟨S8x1024, .i1⟩ : BufTy).Contents (Elt F) → (⟨S4x1024, .i1⟩ : BufTy).Contents (Elt F)),
    StableHlo.unary main_v19 main_v20 ((extui 32 · natLt_1_32) : (⟨S4x1024, .i1⟩ : BufTy).Contents (Elt F) → (⟨S4x1024, .i32⟩ : BufTy).Contents (Elt F)),
    StableHlo.nullary main_c_3 (constantI S_ 32 0#32),
    StableHlo.binary main_v20 main_c_3 main_v21 ((fun x v => Host.reduce IntOp.addi x v reducesTo_S4x1024_S_d0_1 h_S_) : (⟨S4x1024, .i32⟩ : BufTy).Contents (Elt F) → (⟨S_, .i32⟩ : BufTy).Contents (Elt F) → (⟨S_, .i32⟩ : BufTy).Contents (Elt F)),
    StableHlo.nullary main_c_4 (constantI S_ 32 1#32),
    StableHlo.binary main_v21 main_c_4 main_v22 (maxsi : (⟨S_, .i32⟩ : BufTy).Contents (Elt F) → (⟨S_, .i32⟩ : BufTy).Contents (Elt F) → (⟨S_, .i32⟩ : BufTy).Contents (Elt F)),
    StableHlo.unary main_v22 main_v23 (sitofp .f32 : (⟨S_, .i32⟩ : BufTy).Contents (Elt F) → (⟨S_, .f32⟩ : BufTy).Contents (Elt F)),
    StableHlo.unary main_v9 main_v24 ((extractStridedSlice S4x1024 ![0, 0] · slices_S8x1024_S4x1024_0_0) : (⟨S8x1024, .f32⟩ : BufTy).Contents (Elt F) → (⟨S4x1024, .f32⟩ : BufTy).Contents (Elt F)),
    StableHlo.nullary main_cst_5 (constant S_ .f32 0x00000000#32),
    StableHlo.binary main_v24 main_cst_5 main_v25 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    StableHlo.unary main_v25 main_v26 (Host.negf : (⟨S_, .f32⟩ : BufTy).Contents (Elt F) → (⟨S_, .f32⟩ : BufTy).Contents (Elt F)),
    StableHlo.binary main_v26 main_v23 main_v27 (Host.divf : (⟨S_, .f32⟩ : BufTy).Contents (Elt F) → (⟨S_, .f32⟩ : BufTy).Contents (Elt F) → (⟨S_, .f32⟩ : BufTy).Contents (Elt F)),
    StableHlo.binary main_v17 main_v18 main_v28 (subf : (⟨S4, .f32⟩ : BufTy).Contents (Elt F) → (⟨S4, .f32⟩ : BufTy).Contents (Elt F) → (⟨S4, .f32⟩ : BufTy).Contents (Elt F)),
    StableHlo.unary main_v17 main_v29 (Host.exp : (⟨S4, .f32⟩ : BufTy).Contents (Elt F) → (⟨S4, .f32⟩ : BufTy).Contents (Elt F)),
    StableHlo.unary main_v29 main_v30 (Host.negf : (⟨S4, .f32⟩ : BufTy).Contents (Elt F) → (⟨S4, .f32⟩ : BufTy).Contents (Elt F)),
    StableHlo.unary main_v30 main_v31 (Host.log1p : (⟨S4, .f32⟩ : BufTy).Contents (Elt F) → (⟨S4, .f32⟩ : BufTy).Contents (Elt F)),
    StableHlo.unary main_v18 main_v32 (Host.exp : (⟨S4, .f32⟩ : BufTy).Contents (Elt F) → (⟨S4, .f32⟩ : BufTy).Contents (Elt F)),
    StableHlo.unary main_v32 main_v33 (Host.negf : (⟨S4, .f32⟩ : BufTy).Contents (Elt F) → (⟨S4, .f32⟩ : BufTy).Contents (Elt F)),
    StableHlo.unary main_v33 main_v34 (Host.log1p : (⟨S4, .f32⟩ : BufTy).Contents (Elt F) → (⟨S4, .f32⟩ : BufTy).Contents (Elt F)),
    StableHlo.binary main_v31 main_v34 main_v35 (subf : (⟨S4, .f32⟩ : BufTy).Contents (Elt F) → (⟨S4, .f32⟩ : BufTy).Contents (Elt F) → (⟨S4, .f32⟩ : BufTy).Contents (Elt F)),
    StableHlo.binary main_v28 main_v35 main_v36 (subf : (⟨S4, .f32⟩ : BufTy).Contents (Elt F) → (⟨S4, .f32⟩ : BufTy).Contents (Elt F) → (⟨S4, .f32⟩ : BufTy).Contents (Elt F)),
    StableHlo.TRef.unary (.of main_v36 : StableHlo.TRef sig ⟨S4, .f32⟩) (.of main_call3_v0 : StableHlo.TRef sig ⟨S4, .f32⟩) Host.negf,
    StableHlo.TRef.nullary (.of main_call3_call0_cst : StableHlo.TRef sig ⟨S_, .f32⟩) (constant S_ .f32 0x00000000#32),
    StableHlo.TRef.unary (.of main_call3_call0_cst : StableHlo.TRef sig ⟨S_, .f32⟩) (.of main_call3_call0_v0 : StableHlo.TRef sig ⟨S4, .f32⟩) (broadcastInDim S4 ![] bcast_S_S4),
    StableHlo.TRef.binary (.of main_call3_v0 : StableHlo.TRef sig ⟨S4, .f32⟩) (.of main_call3_call0_v0 : StableHlo.TRef sig ⟨S4, .f32⟩) (.of main_call3_call0_v1 : StableHlo.TRef sig ⟨S4, .f32⟩) maximumf,
    StableHlo.TRef.unary (.of main_call3_call0_cst : StableHlo.TRef sig ⟨S_, .f32⟩) (.of main_call3_call0_v2 : StableHlo.TRef sig ⟨S4, .f32⟩) (broadcastInDim S4 ![] bcast_S_S4),
    StableHlo.TRef.binary (.of main_call3_v0 : StableHlo.TRef sig ⟨S4, .f32⟩) (.of main_call3_call0_v2 : StableHlo.TRef sig ⟨S4, .f32⟩) (.of main_call3_call0_v3 : StableHlo.TRef sig ⟨S4, .f32⟩) subf,
    StableHlo.TRef.binary (.of main_call3_call0_v3 : StableHlo.TRef sig ⟨S4, .f32⟩) (.of main_call3_call0_v3 : StableHlo.TRef sig ⟨S4, .f32⟩) (.of main_call3_call0_v4 : StableHlo.TRef sig ⟨S4, .i1⟩) (cmpf .une),
    StableHlo.TRef.unary (.of main_call3_call0_cst : StableHlo.TRef sig ⟨S_, .f32⟩) (.of main_call3_call0_v5 : StableHlo.TRef sig ⟨S4, .f32⟩) (broadcastInDim S4 ![] bcast_S_S4),
    StableHlo.TRef.binary (.of main_call3_v0 : StableHlo.TRef sig ⟨S4, .f32⟩) (.of main_call3_call0_v5 : StableHlo.TRef sig ⟨S4, .f32⟩) (.of main_call3_call0_v6 : StableHlo.TRef sig ⟨S4, .f32⟩) addf,
    StableHlo.TRef.unary (.of main_call3_call0_v3 : StableHlo.TRef sig ⟨S4, .f32⟩) (.of main_call3_call0_v7 : StableHlo.TRef sig ⟨S4, .f32⟩) Host.absf,
    StableHlo.TRef.unary (.of main_call3_call0_v7 : StableHlo.TRef sig ⟨S4, .f32⟩) (.of main_call3_call0_v8 : StableHlo.TRef sig ⟨S4, .f32⟩) Host.negf,
    StableHlo.TRef.unary (.of main_call3_call0_v8 : StableHlo.TRef sig ⟨S4, .f32⟩) (.of main_call3_call0_v9 : StableHlo.TRef sig ⟨S4, .f32⟩) Host.exp,
    StableHlo.TRef.unary (.of main_call3_call0_v9 : StableHlo.TRef sig ⟨S4, .f32⟩) (.of main_call3_call0_v10 : StableHlo.TRef sig ⟨S4, .f32⟩) Host.log1p,
    StableHlo.TRef.binary (.of main_call3_call0_v1 : StableHlo.TRef sig ⟨S4, .f32⟩) (.of main_call3_call0_v10 : StableHlo.TRef sig ⟨S4, .f32⟩) (.of main_call3_call0_v11 : StableHlo.TRef sig ⟨S4, .f32⟩) addf,
    StableHlo.TRef.ternary (.of main_call3_call0_v4 : StableHlo.TRef sig ⟨S4, .i1⟩) (.of main_call3_call0_v6 : StableHlo.TRef sig ⟨S4, .f32⟩) (.of main_call3_call0_v11 : StableHlo.TRef sig ⟨S4, .f32⟩) (.of main_call3_v1 : StableHlo.TRef sig ⟨S4, .f32⟩) select,
    StableHlo.TRef.unary (.of main_call3_v1 : StableHlo.TRef sig ⟨S4, .f32⟩) (.of main_v37 : StableHlo.TRef sig ⟨S4, .f32⟩) Host.negf,
    StableHlo.nullary main_cst_6 (constant S_ .f32 0x00000000#32),
    StableHlo.binary main_v37 main_cst_6 main_v38 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_7 (constant S_ .f32 0x3DCCCCCD#32),
    StableHlo.binary main_cst_7 main_v38 main_v39 (mulf : (⟨S_, .f32⟩ : BufTy).Contents (Elt F) → (⟨S_, .f32⟩ : BufTy).Contents (Elt F) → (⟨S_, .f32⟩ : BufTy).Contents (Elt F)),
    StableHlo.nullary main_cst_8 (constant S_ .f32 0x40800000#32),
    StableHlo.binary main_v39 main_cst_8 main_v40 (Host.divf : (⟨S_, .f32⟩ : BufTy).Contents (Elt F) → (⟨S_, .f32⟩ : BufTy).Contents (Elt F) → (⟨S_, .f32⟩ : BufTy).Contents (Elt F)),
    StableHlo.binary main_v27 main_v40 main_v41 (subf : (⟨S_, .f32⟩ : BufTy).Contents (Elt F) → (⟨S_, .f32⟩ : BufTy).Contents (Elt F) → (⟨S_, .f32⟩ : BufTy).Contents (Elt F)) ]

/-- The same operations with each helper function's operation written over the buffers themselves: a helper's typed
    reference to a buffer carries that buffer's own type, so moving a value along it is the identity. -/
abbrev opsP : List (HloOp τ sig (Elt F)) :=
  [ StableHlo.binary main_arg0 main_arg2 main_v0 ((fun l r => Host.dotGeneral dot_S8x1024x2048_S32000x2048_S8x1024x32000_2_1_01_0_n_n none l r) : (⟨S8x1024x2048, .f32⟩ : BufTy).Contents (Elt F) → (⟨S32000x2048, .f32⟩ : BufTy).Contents (Elt F) → (⟨S8x1024x32000, .f32⟩ : BufTy).Contents (Elt F)),
    StableHlo.nullary main_call0_cst (constant S_ .f32 0xFF800000#32),
    StableHlo.binary main_v0 main_call0_cst main_call0_v0 ((fun x v => Host.reduce FloatOps.maximumf x v reducesTo_S8x1024x32000_S8x1024_d2 h_S_) : (⟨S8x1024x32000, .f32⟩ : BufTy).Contents (Elt F) → (⟨S_, .f32⟩ : BufTy).Contents (Elt F) → (⟨S8x1024, .f32⟩ : BufTy).Contents (Elt F)),
    StableHlo.nullary main_call0_cst_0 (constant S_ .f32 0xFF800000#32),
    StableHlo.unary main_call0_cst_0 main_call0_v1 (broadcastInDim S8x1024 ![] bcast_S_S8x1024 : (⟨S_, .f32⟩ : BufTy).Contents (Elt F) → (⟨S8x1024, .f32⟩ : BufTy).Contents (Elt F)),
    StableHlo.binary main_call0_v1 main_call0_v0 main_call0_v2 (maximumf : (⟨S8x1024, .f32⟩ : BufTy).Contents (Elt F) → (⟨S8x1024, .f32⟩ : BufTy).Contents (Elt F) → (⟨S8x1024, .f32⟩ : BufTy).Contents (Elt F)),
    StableHlo.unary main_call0_v2 main_call0_v3 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_call0_v3 main_call0_v4 (broadcastInDim S8x1024x32000 ![0, 1, 2] bcast_S8x1024x1_S8x1024x32000_0_1_2 : (⟨S8x1024x1, .f32⟩ : BufTy).Contents (Elt F) → (⟨S8x1024x32000, .f32⟩ : BufTy).Contents (Elt F)),
    StableHlo.binary main_v0 main_call0_v4 main_call0_v5 (subf : (⟨S8x1024x32000, .f32⟩ : BufTy).Contents (Elt F) → (⟨S8x1024x32000, .f32⟩ : BufTy).Contents (Elt F) → (⟨S8x1024x32000, .f32⟩ : BufTy).Contents (Elt F)),
    StableHlo.unary main_call0_v5 main_call0_v6 (Host.exp : (⟨S8x1024x32000, .f32⟩ : BufTy).Contents (Elt F) → (⟨S8x1024x32000, .f32⟩ : BufTy).Contents (Elt F)),
    StableHlo.nullary main_call0_cst_1 (constant S_ .f32 0x00000000#32),
    StableHlo.binary main_call0_v6 main_call0_cst_1 main_call0_v7 ((fun x v => Host.reduceAdd x v reducesTo_S8x1024x32000_S8x1024_d2 h_S_) : (⟨S8x1024x32000, .f32⟩ : BufTy).Contents (Elt F) → (⟨S_, .f32⟩ : BufTy).Contents (Elt F) → (⟨S8x1024, .f32⟩ : BufTy).Contents (Elt F)),
    StableHlo.unary main_call0_v7 main_call0_v8 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_call0_v8 main_call0_v9 (Host.log : (⟨S8x1024x1, .f32⟩ : BufTy).Contents (Elt F) → (⟨S8x1024x1, .f32⟩ : BufTy).Contents (Elt F)),
    StableHlo.unary main_call0_v9 main_call0_v10 (broadcastInDim S8x1024x32000 ![0, 1, 2] bcast_S8x1024x1_S8x1024x32000_0_1_2 : (⟨S8x1024x1, .f32⟩ : BufTy).Contents (Elt F) → (⟨S8x1024x32000, .f32⟩ : BufTy).Contents (Elt F)),
    StableHlo.binary main_call0_v5 main_call0_v10 main_v1 (subf : (⟨S8x1024x32000, .f32⟩ : BufTy).Contents (Elt F) → (⟨S8x1024x32000, .f32⟩ : BufTy).Contents (Elt F) → (⟨S8x1024x32000, .f32⟩ : BufTy).Contents (Elt F)),
    StableHlo.nullary main_c (constantI S_ 32 4294967196#32),
    StableHlo.unary main_c main_v2 (broadcastInDim S8x1024 ![] bcast_S_S8x1024 : (⟨S_, .i32⟩ : BufTy).Contents (Elt F) → (⟨S8x1024, .i32⟩ : BufTy).Contents (Elt F)),
    StableHlo.binary main_arg1 main_v2 main_v3 (cmpi .ne : (⟨S8x1024, .i32⟩ : BufTy).Contents (Elt F) → (⟨S8x1024, .i32⟩ : BufTy).Contents (Elt F) → (⟨S8x1024, .i1⟩ : BufTy).Contents (Elt F)),
    StableHlo.nullary main_c_0 (constantI S_ 32 0#32),
    StableHlo.unary main_c_0 main_call1_v0 (id : (⟨S_, .i32⟩ : BufTy).Contents (Elt F) → (⟨S_, .i32⟩ : BufTy).Contents (Elt F)),
    StableHlo.unary main_call1_v0 main_call1_v1 (broadcastInDim S8x1024 ![] bcast_S_S8x1024 : (⟨S_, .i32⟩ : BufTy).Contents (Elt F) → (⟨S8x1024, .i32⟩ : BufTy).Contents (Elt F)),
    StableHlo.ternary main_v3 main_arg1 main_call1_v1 main_v4 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)),
    StableHlo.unary main_v4 main_v5 (broadcastInDim S8x1024x1 ![0, 1] bcast_S8x1024_S8x1024x1_0_1 : (⟨S8x1024, .i32⟩ : BufTy).Contents (Elt F) → (⟨S8x1024x1, .i32⟩ : BufTy).Contents (Elt F)),
    StableHlo.nullary main_call2_c (constantI S_ 32 0#32),
    StableHlo.unary main_call2_c main_call2_v0 (broadcastInDim S8x1024x1 ![] bcast_S_S8x1024x1 : (⟨S_, .i32⟩ : BufTy).Contents (Elt F) → (⟨S8x1024x1, .i32⟩ : BufTy).Contents (Elt F)),
    StableHlo.binary main_v5 main_call2_v0 main_call2_v1 (cmpi .slt : (⟨S8x1024x1, .i32⟩ : BufTy).Contents (Elt F) → (⟨S8x1024x1, .i32⟩ : BufTy).Contents (Elt F) → (⟨S8x1024x1, .i1⟩ : BufTy).Contents (Elt F)),
    StableHlo.nullary main_call2_c_0 (constantI S_ 32 32000#32),
    StableHlo.unary main_call2_c_0 main_call2_v2 (broadcastInDim S8x1024x1 ![] bcast_S_S8x1024x1 : (⟨S_, .i32⟩ : BufTy).Contents (Elt F) → (⟨S8x1024x1, .i32⟩ : BufTy).Contents (Elt F)),
    StableHlo.binary main_v5 main_call2_v2 main_call2_v3 (addi : (⟨S8x1024x1, .i32⟩ : BufTy).Contents (Elt F) → (⟨S8x1024x1, .i32⟩ : BufTy).Contents (Elt F) → (⟨S8x1024x1, .i32⟩ : BufTy).Contents (Elt F)),
    StableHlo.ternary main_call2_v1 main_call2_v3 main_v5 main_call2_v4 (select : (⟨S8x1024x1, .i1⟩ : BufTy).Contents (Elt F) → (⟨S8x1024x1, .i32⟩ : BufTy).Contents (Elt F) → (⟨S8x1024x1, .i32⟩ : BufTy).Contents (Elt F) → (⟨S8x1024x1, .i32⟩ : BufTy).Contents (Elt F)),
    StableHlo.reshape main_call2_v4 main_call2_v5 rfl shapeCasts_S8x1024x1_S8x1024x1x1,
    StableHlo.nullary main_call2_c_1 (constantI S1 32 31999#32),
    StableHlo.nullary main_call2_c_2 (constantI S_ 32 0#32),
    StableHlo.unary main_call2_c_2 main_call2_v6 (broadcastInDim S8x1024x1x1 ![] bcast_S_S8x1024x1x1 : (⟨S_, .i32⟩ : BufTy).Contents (Elt F) → (⟨S8x1024x1x1, .i32⟩ : BufTy).Contents (Elt F)),
    StableHlo.binary main_call2_v5 main_call2_v6 main_call2_v7 (cmpi .sge : (⟨S8x1024x1x1, .i32⟩ : BufTy).Contents (Elt F) → (⟨S8x1024x1x1, .i32⟩ : BufTy).Contents (Elt F) → (⟨S8x1024x1x1, .i1⟩ : BufTy).Contents (Elt F)),
    StableHlo.unary main_call2_c_1 main_call2_v8 (broadcastInDim S1x1x1x1 ![3] bcast_S1_S1x1x1x1_3 : (⟨S1, .i32⟩ : BufTy).Contents (Elt F) → (⟨S1x1x1x1, .i32⟩ : BufTy).Contents (Elt F)),
    StableHlo.unary main_call2_v8 main_call2_v9 (broadcastInDim S8x1024x1x1 ![0, 1, 2, 3] bcast_S1x1x1x1_S8x1024x1x1_0_1_2_3 : (⟨S1x1x1x1, .i32⟩ : BufTy).Contents (Elt F) → (⟨S8x1024x1x1, .i32⟩ : BufTy).Contents (Elt F)),
    StableHlo.binary main_call2_v5 main_call2_v9 main_call2_v10 (cmpi .sle : (⟨S8x1024x1x1, .i32⟩ : BufTy).Contents (Elt F) → (⟨S8x1024x1x1, .i32⟩ : BufTy).Contents (Elt F) → (⟨S8x1024x1x1, .i1⟩ : BufTy).Contents (Elt F)),
    StableHlo.binary main_call2_v7 main_call2_v10 main_call2_v11 (andi : (⟨S8x1024x1x1, .i1⟩ : BufTy).Contents (Elt F) → (⟨S8x1024x1x1, .i1⟩ : BufTy).Contents (Elt F) → (⟨S8x1024x1x1, .i1⟩ : BufTy).Contents (Elt F)),
    StableHlo.nullary main_call2_c_3 (constantI S_ 1 1#1),
    StableHlo.binary main_call2_v11 main_call2_c_3 main_call2_v12 ((fun x v => Host.reduce IntOp.andi x v reducesTo_S8x1024x1x1_S8x1024x1_d3 h_S_) : (⟨S8x1024x1x1, .i1⟩ : BufTy).Contents (Elt F) → (⟨S_, .i1⟩ : BufTy).Contents (Elt F) → (⟨S8x1024x1, .i1⟩ : BufTy).Contents (Elt F)),
    StableHlo.binary main_v1 main_call2_v5 main_call2_v13 ((fun x i => Host.gather gather_S8x1024x32000_S8x1024x1x1_S8x1024x1_n_2_01_01_2_3_111 x i) : (⟨S8x1024x32000, .f32⟩ : BufTy).Contents (Elt F) → (⟨S8x1024x1x1, .i32⟩ : BufTy).Contents (Elt F) → (⟨S8x1024x1, .f32⟩ : BufTy).Contents (Elt F)),
    StableHlo.nullary main_call2_cst (constant S_ .f32 0x7FC00000#32),
    StableHlo.unary main_call2_cst main_call2_v14 (broadcastInDim S8x1024x1 ![] bcast_S_S8x1024x1 : (⟨S_, .f32⟩ : BufTy).Contents (Elt F) → (⟨S8x1024x1, .f32⟩ : BufTy).Contents (Elt F)),
    StableHlo.ternary main_call2_v12 main_call2_v13 main_call2_v14 main_v6 (select : (⟨S8x1024x1, .i1⟩ : BufTy).Contents (Elt F) → (⟨S8x1024x1, .f32⟩ : BufTy).Contents (Elt F) → (⟨S8x1024x1, .f32⟩ : BufTy).Contents (Elt F) → (⟨S8x1024x1, .f32⟩ : BufTy).Contents (Elt F)),
    StableHlo.reshape main_v6 main_v7 rfl shapeCasts_S8x1024x1_S8x1024,
    StableHlo.unary main_v3 main_v8 (uitofp .f32 : (⟨S8x1024, .i1⟩ : BufTy).Contents (Elt F) → (⟨S8x1024, .f32⟩ : BufTy).Contents (Elt F)),
    StableHlo.binary main_v7 main_v8 main_v9 (mulf : (⟨S8x1024, .f32⟩ : BufTy).Contents (Elt F) → (⟨S8x1024, .f32⟩ : BufTy).Contents (Elt F) → (⟨S8x1024, .f32⟩ : BufTy).Contents (Elt F)),
    StableHlo.unary main_v3 main_v10 ((extui 32 · natLt_1_32) : (⟨S8x1024, .i1⟩ : BufTy).Contents (Elt F) → (⟨S8x1024, .i32⟩ : BufTy).Contents (Elt F)),
    StableHlo.nullary main_c_1 (constantI S_ 32 0#32),
    StableHlo.binary main_v10 main_c_1 main_v11 ((fun x v => Host.reduce IntOp.addi x v reducesTo_S8x1024_S8_d1 h_S_) : (⟨S8x1024, .i32⟩ : BufTy).Contents (Elt F) → (⟨S_, .i32⟩ : BufTy).Contents (Elt F) → (⟨S8, .i32⟩ : BufTy).Contents (Elt F)),
    StableHlo.nullary main_c_2 (constantI S_ 32 1#32),
    StableHlo.unary main_c_2 main_v12 (broadcastInDim S8 ![] bcast_S_S8 : (⟨S_, .i32⟩ : BufTy).Contents (Elt F) → (⟨S8, .i32⟩ : BufTy).Contents (Elt F)),
    StableHlo.binary main_v11 main_v12 main_v13 (maxsi : (⟨S8, .i32⟩ : BufTy).Contents (Elt F) → (⟨S8, .i32⟩ : BufTy).Contents (Elt F) → (⟨S8, .i32⟩ : BufTy).Contents (Elt F)),
    StableHlo.unary main_v13 main_v14 (sitofp .f32 : (⟨S8, .i32⟩ : BufTy).Contents (Elt F) → (⟨S8, .f32⟩ : BufTy).Contents (Elt F)),
    StableHlo.nullary main_cst (constant S_ .f32 0x00000000#32),
    StableHlo.binary main_v9 main_cst main_v15 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    StableHlo.binary main_v15 main_v14 main_v16 (Host.divf : (⟨S8, .f32⟩ : BufTy).Contents (Elt F) → (⟨S8, .f32⟩ : BufTy).Contents (Elt F) → (⟨S8, .f32⟩ : BufTy).Contents (Elt F)),
    StableHlo.unary main_v16 main_v17 ((extractStridedSlice S4 ![0] · slices_S8_S4_0) : (⟨S8, .f32⟩ : BufTy).Contents (Elt F) → (⟨S4, .f32⟩ : BufTy).Contents (Elt F)),
    StableHlo.unary main_v16 main_v18 ((extractStridedSlice S4 ![4] · slices_S8_S4_4) : (⟨S8, .f32⟩ : BufTy).Contents (Elt F) → (⟨S4, .f32⟩ : BufTy).Contents (Elt F)),
    StableHlo.unary main_v3 main_v19 ((extractStridedSlice S4x1024 ![0, 0] · slices_S8x1024_S4x1024_0_0) : (⟨S8x1024, .i1⟩ : BufTy).Contents (Elt F) → (⟨S4x1024, .i1⟩ : BufTy).Contents (Elt F)),
    StableHlo.unary main_v19 main_v20 ((extui 32 · natLt_1_32) : (⟨S4x1024, .i1⟩ : BufTy).Contents (Elt F) → (⟨S4x1024, .i32⟩ : BufTy).Contents (Elt F)),
    StableHlo.nullary main_c_3 (constantI S_ 32 0#32),
    StableHlo.binary main_v20 main_c_3 main_v21 ((fun x v => Host.reduce IntOp.addi x v reducesTo_S4x1024_S_d0_1 h_S_) : (⟨S4x1024, .i32⟩ : BufTy).Contents (Elt F) → (⟨S_, .i32⟩ : BufTy).Contents (Elt F) → (⟨S_, .i32⟩ : BufTy).Contents (Elt F)),
    StableHlo.nullary main_c_4 (constantI S_ 32 1#32),
    StableHlo.binary main_v21 main_c_4 main_v22 (maxsi : (⟨S_, .i32⟩ : BufTy).Contents (Elt F) → (⟨S_, .i32⟩ : BufTy).Contents (Elt F) → (⟨S_, .i32⟩ : BufTy).Contents (Elt F)),
    StableHlo.unary main_v22 main_v23 (sitofp .f32 : (⟨S_, .i32⟩ : BufTy).Contents (Elt F) → (⟨S_, .f32⟩ : BufTy).Contents (Elt F)),
    StableHlo.unary main_v9 main_v24 ((extractStridedSlice S4x1024 ![0, 0] · slices_S8x1024_S4x1024_0_0) : (⟨S8x1024, .f32⟩ : BufTy).Contents (Elt F) → (⟨S4x1024, .f32⟩ : BufTy).Contents (Elt F)),
    StableHlo.nullary main_cst_5 (constant S_ .f32 0x00000000#32),
    StableHlo.binary main_v24 main_cst_5 main_v25 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    StableHlo.unary main_v25 main_v26 (Host.negf : (⟨S_, .f32⟩ : BufTy).Contents (Elt F) → (⟨S_, .f32⟩ : BufTy).Contents (Elt F)),
    StableHlo.binary main_v26 main_v23 main_v27 (Host.divf : (⟨S_, .f32⟩ : BufTy).Contents (Elt F) → (⟨S_, .f32⟩ : BufTy).Contents (Elt F) → (⟨S_, .f32⟩ : BufTy).Contents (Elt F)),
    StableHlo.binary main_v17 main_v18 main_v28 (subf : (⟨S4, .f32⟩ : BufTy).Contents (Elt F) → (⟨S4, .f32⟩ : BufTy).Contents (Elt F) → (⟨S4, .f32⟩ : BufTy).Contents (Elt F)),
    StableHlo.unary main_v17 main_v29 (Host.exp : (⟨S4, .f32⟩ : BufTy).Contents (Elt F) → (⟨S4, .f32⟩ : BufTy).Contents (Elt F)),
    StableHlo.unary main_v29 main_v30 (Host.negf : (⟨S4, .f32⟩ : BufTy).Contents (Elt F) → (⟨S4, .f32⟩ : BufTy).Contents (Elt F)),
    StableHlo.unary main_v30 main_v31 (Host.log1p : (⟨S4, .f32⟩ : BufTy).Contents (Elt F) → (⟨S4, .f32⟩ : BufTy).Contents (Elt F)),
    StableHlo.unary main_v18 main_v32 (Host.exp : (⟨S4, .f32⟩ : BufTy).Contents (Elt F) → (⟨S4, .f32⟩ : BufTy).Contents (Elt F)),
    StableHlo.unary main_v32 main_v33 (Host.negf : (⟨S4, .f32⟩ : BufTy).Contents (Elt F) → (⟨S4, .f32⟩ : BufTy).Contents (Elt F)),
    StableHlo.unary main_v33 main_v34 (Host.log1p : (⟨S4, .f32⟩ : BufTy).Contents (Elt F) → (⟨S4, .f32⟩ : BufTy).Contents (Elt F)),
    StableHlo.binary main_v31 main_v34 main_v35 (subf : (⟨S4, .f32⟩ : BufTy).Contents (Elt F) → (⟨S4, .f32⟩ : BufTy).Contents (Elt F) → (⟨S4, .f32⟩ : BufTy).Contents (Elt F)),
    StableHlo.binary main_v28 main_v35 main_v36 (subf : (⟨S4, .f32⟩ : BufTy).Contents (Elt F) → (⟨S4, .f32⟩ : BufTy).Contents (Elt F) → (⟨S4, .f32⟩ : BufTy).Contents (Elt F)),
    StableHlo.unary main_v36 main_call3_v0 (Host.negf : (⟨S4, .f32⟩ : BufTy).Contents (Elt F) → (⟨S4, .f32⟩ : BufTy).Contents (Elt F)),
    StableHlo.nullary main_call3_call0_cst (constant S_ .f32 0x00000000#32),
    StableHlo.unary main_call3_call0_cst main_call3_call0_v0 (broadcastInDim S4 ![] bcast_S_S4 : (⟨S_, .f32⟩ : BufTy).Contents (Elt F) → (⟨S4, .f32⟩ : BufTy).Contents (Elt F)),
    StableHlo.binary main_call3_v0 main_call3_call0_v0 main_call3_call0_v1 (maximumf : (⟨S4, .f32⟩ : BufTy).Contents (Elt F) → (⟨S4, .f32⟩ : BufTy).Contents (Elt F) → (⟨S4, .f32⟩ : BufTy).Contents (Elt F)),
    StableHlo.unary main_call3_call0_cst main_call3_call0_v2 (broadcastInDim S4 ![] bcast_S_S4 : (⟨S_, .f32⟩ : BufTy).Contents (Elt F) → (⟨S4, .f32⟩ : BufTy).Contents (Elt F)),
    StableHlo.binary main_call3_v0 main_call3_call0_v2 main_call3_call0_v3 (subf : (⟨S4, .f32⟩ : BufTy).Contents (Elt F) → (⟨S4, .f32⟩ : BufTy).Contents (Elt F) → (⟨S4, .f32⟩ : BufTy).Contents (Elt F)),
    StableHlo.binary main_call3_call0_v3 main_call3_call0_v3 main_call3_call0_v4 (cmpf .une : (⟨S4, .f32⟩ : BufTy).Contents (Elt F) → (⟨S4, .f32⟩ : BufTy).Contents (Elt F) → (⟨S4, .i1⟩ : BufTy).Contents (Elt F)),
    StableHlo.unary main_call3_call0_cst main_call3_call0_v5 (broadcastInDim S4 ![] bcast_S_S4 : (⟨S_, .f32⟩ : BufTy).Contents (Elt F) → (⟨S4, .f32⟩ : BufTy).Contents (Elt F)),
    StableHlo.binary main_call3_v0 main_call3_call0_v5 main_call3_call0_v6 (addf : (⟨S4, .f32⟩ : BufTy).Contents (Elt F) → (⟨S4, .f32⟩ : BufTy).Contents (Elt F) → (⟨S4, .f32⟩ : BufTy).Contents (Elt F)),
    StableHlo.unary main_call3_call0_v3 main_call3_call0_v7 (Host.absf : (⟨S4, .f32⟩ : BufTy).Contents (Elt F) → (⟨S4, .f32⟩ : BufTy).Contents (Elt F)),
    StableHlo.unary main_call3_call0_v7 main_call3_call0_v8 (Host.negf : (⟨S4, .f32⟩ : BufTy).Contents (Elt F) → (⟨S4, .f32⟩ : BufTy).Contents (Elt F)),
    StableHlo.unary main_call3_call0_v8 main_call3_call0_v9 (Host.exp : (⟨S4, .f32⟩ : BufTy).Contents (Elt F) → (⟨S4, .f32⟩ : BufTy).Contents (Elt F)),
    StableHlo.unary main_call3_call0_v9 main_call3_call0_v10 (Host.log1p : (⟨S4, .f32⟩ : BufTy).Contents (Elt F) → (⟨S4, .f32⟩ : BufTy).Contents (Elt F)),
    StableHlo.binary main_call3_call0_v1 main_call3_call0_v10 main_call3_call0_v11 (addf : (⟨S4, .f32⟩ : BufTy).Contents (Elt F) → (⟨S4, .f32⟩ : BufTy).Contents (Elt F) → (⟨S4, .f32⟩ : BufTy).Contents (Elt F)),
    StableHlo.ternary main_call3_call0_v4 main_call3_call0_v6 main_call3_call0_v11 main_call3_v1 (select : (⟨S4, .i1⟩ : BufTy).Contents (Elt F) → (⟨S4, .f32⟩ : BufTy).Contents (Elt F) → (⟨S4, .f32⟩ : BufTy).Contents (Elt F) → (⟨S4, .f32⟩ : BufTy).Contents (Elt F)),
    StableHlo.unary main_call3_v1 main_v37 (Host.negf : (⟨S4, .f32⟩ : BufTy).Contents (Elt F) → (⟨S4, .f32⟩ : BufTy).Contents (Elt F)),
    StableHlo.nullary main_cst_6 (constant S_ .f32 0x00000000#32),
    StableHlo.binary main_v37 main_cst_6 main_v38 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_7 (constant S_ .f32 0x3DCCCCCD#32),
    StableHlo.binary main_cst_7 main_v38 main_v39 (mulf : (⟨S_, .f32⟩ : BufTy).Contents (Elt F) → (⟨S_, .f32⟩ : BufTy).Contents (Elt F) → (⟨S_, .f32⟩ : BufTy).Contents (Elt F)),
    StableHlo.nullary main_cst_8 (constant S_ .f32 0x40800000#32),
    StableHlo.binary main_v39 main_cst_8 main_v40 (Host.divf : (⟨S_, .f32⟩ : BufTy).Contents (Elt F) → (⟨S_, .f32⟩ : BufTy).Contents (Elt F) → (⟨S_, .f32⟩ : BufTy).Contents (Elt F)),
    StableHlo.binary main_v27 main_v40 main_v41 (subf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is that straight line: the helper functions unfolded at their calls and the call records at their
    fields, both sides are one chain of steps once sequencing is reassociated. -/
theorem main_eq (c : Dev nD) : main (F := F) c = seq ops := rfl

attribute [local irreducible] Host.reduce Host.reduceAdd Host.gather in
set_option maxRecDepth 8192 in
/-- Operation by operation the two lists agree: the transports along a typed reference are along `rfl`. -/
theorem ops_eq : (ops : List (HloOp τ sig (Elt F))) = opsP :=
  congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (congrArg₂ List.cons rfl (rfl)))))))))))))))))))))))))))))))))))))))))))))))))))))))))))))))))))))))))))))))))))))))))))))))))))))))))

theorem main_eqP (c : Dev nD) : main (F := F) c = seq opsP := by rw [main_eq, ops_eq]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one device only. -/
theorem opsP_sub : (opsP : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., unary_bufs_sub ..,
    binary_bufs_sub .., unary_bufs_sub .., nullary_bufs_sub .., binary_bufs_sub .., nullary_bufs_sub .., unary_bufs_sub ..,
    binary_bufs_sub .., unary_bufs_sub .., nullary_bufs_sub .., binary_bufs_sub .., binary_bufs_sub .., unary_bufs_sub ..,
    unary_bufs_sub .., unary_bufs_sub .., unary_bufs_sub .., nullary_bufs_sub .., binary_bufs_sub .., nullary_bufs_sub ..,
    binary_bufs_sub .., unary_bufs_sub .., unary_bufs_sub .., nullary_bufs_sub .., binary_bufs_sub .., unary_bufs_sub ..,
    binary_bufs_sub .., binary_bufs_sub .., unary_bufs_sub .., unary_bufs_sub .., unary_bufs_sub .., unary_bufs_sub ..,
    unary_bufs_sub .., unary_bufs_sub .., binary_bufs_sub .., binary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., nullary_bufs_sub .., binary_bufs_sub .., nullary_bufs_sub .., binary_bufs_sub ..,
    nullary_bufs_sub .., binary_bufs_sub .., binary_bufs_sub ..⟩

/-! ## The result, slice by slice

The list is cut into five consecutive slices; over ANY contents `V` of the buffers each slice's last buffer is a
function of a few earlier buffers, and the buffers read later are left as they were. -/

/-- Operations 0 to 15 of the program. -/
abbrev s1 : List (HloOp τ sig (Elt F)) :=
  [ StableHlo.binary main_arg0 main_arg2 main_v0 ((fun l r => Host.dotGeneral dot_S8x1024x2048_S32000x2048_S8x1024x32000_2_1_01_0_n_n none l r) : (⟨S8x1024x2048, .f32⟩ : BufTy).Contents (Elt F) → (⟨S32000x2048, .f32⟩ : BufTy).Contents (Elt F) → (⟨S8x1024x32000, .f32⟩ : BufTy).Contents (Elt F)),
    StableHlo.nullary main_call0_cst (constant S_ .f32 0xFF800000#32),
    StableHlo.binary main_v0 main_call0_cst main_call0_v0 ((fun x v => Host.reduce FloatOps.maximumf x v reducesTo_S8x1024x32000_S8x1024_d2 h_S_) : (⟨S8x1024x32000, .f32⟩ : BufTy).Contents (Elt F) → (⟨S_, .f32⟩ : BufTy).Contents (Elt F) → (⟨S8x1024, .f32⟩ : BufTy).Contents (Elt F)),
    StableHlo.nullary main_call0_cst_0 (constant S_ .f32 0xFF800000#32),
    StableHlo.unary main_call0_cst_0 main_call0_v1 (broadcastInDim S8x1024 ![] bcast_S_S8x1024 : (⟨S_, .f32⟩ : BufTy).Contents (Elt F) → (⟨S8x1024, .f32⟩ : BufTy).Contents (Elt F)),
    StableHlo.binary main_call0_v1 main_call0_v0 main_call0_v2 (maximumf : (⟨S8x1024, .f32⟩ : BufTy).Contents (Elt F) → (⟨S8x1024, .f32⟩ : BufTy).Contents (Elt F) → (⟨S8x1024, .f32⟩ : BufTy).Contents (Elt F)),
    StableHlo.unary main_call0_v2 main_call0_v3 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_call0_v3 main_call0_v4 (broadcastInDim S8x1024x32000 ![0, 1, 2] bcast_S8x1024x1_S8x1024x32000_0_1_2 : (⟨S8x1024x1, .f32⟩ : BufTy).Contents (Elt F) → (⟨S8x1024x32000, .f32⟩ : BufTy).Contents (Elt F)),
    StableHlo.binary main_v0 main_call0_v4 main_call0_v5 (subf : (⟨S8x1024x32000, .f32⟩ : BufTy).Contents (Elt F) → (⟨S8x1024x32000, .f32⟩ : BufTy).Contents (Elt F) → (⟨S8x1024x32000, .f32⟩ : BufTy).Contents (Elt F)),
    StableHlo.unary main_call0_v5 main_call0_v6 (Host.exp : (⟨S8x1024x32000, .f32⟩ : BufTy).Contents (Elt F) → (⟨S8x1024x32000, .f32⟩ : BufTy).Contents (Elt F)),
    StableHlo.nullary main_call0_cst_1 (constant S_ .f32 0x00000000#32),
    StableHlo.binary main_call0_v6 main_call0_cst_1 main_call0_v7 ((fun x v => Host.reduceAdd x v reducesTo_S8x1024x32000_S8x1024_d2 h_S_) : (⟨S8x1024x32000, .f32⟩ : BufTy).Contents (Elt F) → (⟨S_, .f32⟩ : BufTy).Contents (Elt F) → (⟨S8x1024, .f32⟩ : BufTy).Contents (Elt F)),
    StableHlo.unary main_call0_v7 main_call0_v8 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_call0_v8 main_call0_v9 (Host.log : (⟨S8x1024x1, .f32⟩ : BufTy).Contents (Elt F) → (⟨S8x1024x1, .f32⟩ : BufTy).Contents (Elt F)),
    StableHlo.unary main_call0_v9 main_call0_v10 (broadcastInDim S8x1024x32000 ![0, 1, 2] bcast_S8x1024x1_S8x1024x32000_0_1_2 : (⟨S8x1024x1, .f32⟩ : BufTy).Contents (Elt F) → (⟨S8x1024x32000, .f32⟩ : BufTy).Contents (Elt F)),
    StableHlo.binary main_call0_v5 main_call0_v10 main_v1 (subf : (⟨S8x1024x32000, .f32⟩ : BufTy).Contents (Elt F) → (⟨S8x1024x32000, .f32⟩ : BufTy).Contents (Elt F) → (⟨S8x1024x32000, .f32⟩ : BufTy).Contents (Elt F)) ]

/-- Operations 16 to 22 of the program. -/
abbrev s2 : List (HloOp τ sig (Elt F)) :=
  [ StableHlo.nullary main_c (constantI S_ 32 4294967196#32),
    StableHlo.unary main_c main_v2 (broadcastInDim S8x1024 ![] bcast_S_S8x1024 : (⟨S_, .i32⟩ : BufTy).Contents (Elt F) → (⟨S8x1024, .i32⟩ : BufTy).Contents (Elt F)),
    StableHlo.binary main_arg1 main_v2 main_v3 (cmpi .ne : (⟨S8x1024, .i32⟩ : BufTy).Contents (Elt F) → (⟨S8x1024, .i32⟩ : BufTy).Contents (Elt F) → (⟨S8x1024, .i1⟩ : BufTy).Contents (Elt F)),
    StableHlo.nullary main_c_0 (constantI S_ 32 0#32),
    StableHlo.unary main_c_0 main_call1_v0 (id : (⟨S_, .i32⟩ : BufTy).Contents (Elt F) → (⟨S_, .i32⟩ : BufTy).Contents (Elt F)),
    StableHlo.unary main_call1_v0 main_call1_v1 (broadcastInDim S8x1024 ![] bcast_S_S8x1024 : (⟨S_, .i32⟩ : BufTy).Contents (Elt F) → (⟨S8x1024, .i32⟩ : BufTy).Contents (Elt F)),
    StableHlo.ternary main_v3 main_arg1 main_call1_v1 main_v4 (select : (⟨S8x1024, .i1⟩ : BufTy).Contents (Elt F) → (⟨S8x1024, .i32⟩ : BufTy).Contents (Elt F) → (⟨S8x1024, .i32⟩ : BufTy).Contents (Elt F) → (⟨S8x1024, .i32⟩ : BufTy).Contents (Elt F)) ]

/-- Operations 23 to 45 of the program. -/
abbrev s3 : List (HloOp τ sig (Elt F)) :=
  [ StableHlo.unary main_v4 main_v5 (broadcastInDim S8x1024x1 ![0, 1] bcast_S8x1024_S8x1024x1_0_1 : (⟨S8x1024, .i32⟩ : BufTy).Contents (Elt F) → (⟨S8x1024x1, .i32⟩ : BufTy).Contents (Elt F)),
    StableHlo.nullary main_call2_c (constantI S_ 32 0#32),
    StableHlo.unary main_call2_c main_call2_v0 (broadcastInDim S8x1024x1 ![] bcast_S_S8x1024x1 : (⟨S_, .i32⟩ : BufTy).Contents (Elt F) → (⟨S8x1024x1, .i32⟩ : BufTy).Contents (Elt F)),
    StableHlo.binary main_v5 main_call2_v0 main_call2_v1 (cmpi .slt : (⟨S8x1024x1, .i32⟩ : BufTy).Contents (Elt F) → (⟨S8x1024x1, .i32⟩ : BufTy).Contents (Elt F) → (⟨S8x1024x1, .i1⟩ : BufTy).Contents (Elt F)),
    StableHlo.nullary main_call2_c_0 (constantI S_ 32 32000#32),
    StableHlo.unary main_call2_c_0 main_call2_v2 (broadcastInDim S8x1024x1 ![] bcast_S_S8x1024x1 : (⟨S_, .i32⟩ : BufTy).Contents (Elt F) → (⟨S8x1024x1, .i32⟩ : BufTy).Contents (Elt F)),
    StableHlo.binary main_v5 main_call2_v2 main_call2_v3 (addi : (⟨S8x1024x1, .i32⟩ : BufTy).Contents (Elt F) → (⟨S8x1024x1, .i32⟩ : BufTy).Contents (Elt F) → (⟨S8x1024x1, .i32⟩ : BufTy).Contents (Elt F)),
    StableHlo.ternary main_call2_v1 main_call2_v3 main_v5 main_call2_v4 (select : (⟨S8x1024x1, .i1⟩ : BufTy).Contents (Elt F) → (⟨S8x1024x1, .i32⟩ : BufTy).Contents (Elt F) → (⟨S8x1024x1, .i32⟩ : BufTy).Contents (Elt F) → (⟨S8x1024x1, .i32⟩ : BufTy).Contents (Elt F)),
    StableHlo.reshape main_call2_v4 main_call2_v5 rfl shapeCasts_S8x1024x1_S8x1024x1x1,
    StableHlo.nullary main_call2_c_1 (constantI S1 32 31999#32),
    StableHlo.nullary main_call2_c_2 (constantI S_ 32 0#32),
    StableHlo.unary main_call2_c_2 main_call2_v6 (broadcastInDim S8x1024x1x1 ![] bcast_S_S8x1024x1x1 : (⟨S_, .i32⟩ : BufTy).Contents (Elt F) → (⟨S8x1024x1x1, .i32⟩ : BufTy).Contents (Elt F)),
    StableHlo.binary main_call2_v5 main_call2_v6 main_call2_v7 (cmpi .sge : (⟨S8x1024x1x1, .i32⟩ : BufTy).Contents (Elt F) → (⟨S8x1024x1x1, .i32⟩ : BufTy).Contents (Elt F) → (⟨S8x1024x1x1, .i1⟩ : BufTy).Contents (Elt F)),
    StableHlo.unary main_call2_c_1 main_call2_v8 (broadcastInDim S1x1x1x1 ![3] bcast_S1_S1x1x1x1_3 : (⟨S1, .i32⟩ : BufTy).Contents (Elt F) → (⟨S1x1x1x1, .i32⟩ : BufTy).Contents (Elt F)),
    StableHlo.unary main_call2_v8 main_call2_v9 (broadcastInDim S8x1024x1x1 ![0, 1, 2, 3] bcast_S1x1x1x1_S8x1024x1x1_0_1_2_3 : (⟨S1x1x1x1, .i32⟩ : BufTy).Contents (Elt F) → (⟨S8x1024x1x1, .i32⟩ : BufTy).Contents (Elt F)),
    StableHlo.binary main_call2_v5 main_call2_v9 main_call2_v10 (cmpi .sle : (⟨S8x1024x1x1, .i32⟩ : BufTy).Contents (Elt F) → (⟨S8x1024x1x1, .i32⟩ : BufTy).Contents (Elt F) → (⟨S8x1024x1x1, .i1⟩ : BufTy).Contents (Elt F)),
    StableHlo.binary main_call2_v7 main_call2_v10 main_call2_v11 (andi : (⟨S8x1024x1x1, .i1⟩ : BufTy).Contents (Elt F) → (⟨S8x1024x1x1, .i1⟩ : BufTy).Contents (Elt F) → (⟨S8x1024x1x1, .i1⟩ : BufTy).Contents (Elt F)),
    StableHlo.nullary main_call2_c_3 (constantI S_ 1 1#1),
    StableHlo.binary main_call2_v11 main_call2_c_3 main_call2_v12 ((fun x v => Host.reduce IntOp.andi x v reducesTo_S8x1024x1x1_S8x1024x1_d3 h_S_) : (⟨S8x1024x1x1, .i1⟩ : BufTy).Contents (Elt F) → (⟨S_, .i1⟩ : BufTy).Contents (Elt F) → (⟨S8x1024x1, .i1⟩ : BufTy).Contents (Elt F)),
    StableHlo.binary main_v1 main_call2_v5 main_call2_v13 ((fun x i => Host.gather gather_S8x1024x32000_S8x1024x1x1_S8x1024x1_n_2_01_01_2_3_111 x i) : (⟨S8x1024x32000, .f32⟩ : BufTy).Contents (Elt F) → (⟨S8x1024x1x1, .i32⟩ : BufTy).Contents (Elt F) → (⟨S8x1024x1, .f32⟩ : BufTy).Contents (Elt F)),
    StableHlo.nullary main_call2_cst (constant S_ .f32 0x7FC00000#32),
    StableHlo.unary main_call2_cst main_call2_v14 (broadcastInDim S8x1024x1 ![] bcast_S_S8x1024x1 : (⟨S_, .f32⟩ : BufTy).Contents (Elt F) → (⟨S8x1024x1, .f32⟩ : BufTy).Contents (Elt F)),
    StableHlo.ternary main_call2_v12 main_call2_v13 main_call2_v14 main_v6 (select : (⟨S8x1024x1, .i1⟩ : BufTy).Contents (Elt F) → (⟨S8x1024x1, .f32⟩ : BufTy).Contents (Elt F) → (⟨S8x1024x1, .f32⟩ : BufTy).Contents (Elt F) → (⟨S8x1024x1, .f32⟩ : BufTy).Contents (Elt F)) ]

/-- Operations 46 to 48 of the program. -/
abbrev s4 : List (HloOp τ sig (Elt F)) :=
  [ StableHlo.reshape main_v6 main_v7 rfl shapeCasts_S8x1024x1_S8x1024,
    StableHlo.unary main_v3 main_v8 (uitofp .f32 : (⟨S8x1024, .i1⟩ : BufTy).Contents (Elt F) → (⟨S8x1024, .f32⟩ : BufTy).Contents (Elt F)),
    StableHlo.binary main_v7 main_v8 main_v9 (mulf : (⟨S8x1024, .f32⟩ : BufTy).Contents (Elt F) → (⟨S8x1024, .f32⟩ : BufTy).Contents (Elt F) → (⟨S8x1024, .f32⟩ : BufTy).Contents (Elt F)) ]

/-- Operations 49 to 104 of the program. -/
abbrev s5 : List (HloOp τ sig (Elt F)) :=
  [ StableHlo.unary main_v3 main_v10 ((extui 32 · natLt_1_32) : (⟨S8x1024, .i1⟩ : BufTy).Contents (Elt F) → (⟨S8x1024, .i32⟩ : BufTy).Contents (Elt F)),
    StableHlo.nullary main_c_1 (constantI S_ 32 0#32),
    StableHlo.binary main_v10 main_c_1 main_v11 ((fun x v => Host.reduce IntOp.addi x v reducesTo_S8x1024_S8_d1 h_S_) : (⟨S8x1024, .i32⟩ : BufTy).Contents (Elt F) → (⟨S_, .i32⟩ : BufTy).Contents (Elt F) → (⟨S8, .i32⟩ : BufTy).Contents (Elt F)),
    StableHlo.nullary main_c_2 (constantI S_ 32 1#32),
    StableHlo.unary main_c_2 main_v12 (broadcastInDim S8 ![] bcast_S_S8 : (⟨S_, .i32⟩ : BufTy).Contents (Elt F) → (⟨S8, .i32⟩ : BufTy).Contents (Elt F)),
    StableHlo.binary main_v11 main_v12 main_v13 (maxsi : (⟨S8, .i32⟩ : BufTy).Contents (Elt F) → (⟨S8, .i32⟩ : BufTy).Contents (Elt F) → (⟨S8, .i32⟩ : BufTy).Contents (Elt F)),
    StableHlo.unary main_v13 main_v14 (sitofp .f32 : (⟨S8, .i32⟩ : BufTy).Contents (Elt F) → (⟨S8, .f32⟩ : BufTy).Contents (Elt F)),
    StableHlo.nullary main_cst (constant S_ .f32 0x00000000#32),
    StableHlo.binary main_v9 main_cst main_v15 ((fun x v => Host.reduceAdd x v reducesTo_S8x1024_S8_d1 h_S_) : (⟨S8x1024, .f32⟩ : BufTy).Contents (Elt F) → (⟨S_, .f32⟩ : BufTy).Contents (Elt F) → (⟨S8, .f32⟩ : BufTy).Contents (Elt F)),
    StableHlo.binary main_v15 main_v14 main_v16 (Host.divf : (⟨S8, .f32⟩ : BufTy).Contents (Elt F) → (⟨S8, .f32⟩ : BufTy).Contents (Elt F) → (⟨S8, .f32⟩ : BufTy).Contents (Elt F)),
    StableHlo.unary main_v16 main_v17 ((extractStridedSlice S4 ![0] · slices_S8_S4_0) : (⟨S8, .f32⟩ : BufTy).Contents (Elt F) → (⟨S4, .f32⟩ : BufTy).Contents (Elt F)),
    StableHlo.unary main_v16 main_v18 ((extractStridedSlice S4 ![4] · slices_S8_S4_4) : (⟨S8, .f32⟩ : BufTy).Contents (Elt F) → (⟨S4, .f32⟩ : BufTy).Contents (Elt F)),
    StableHlo.unary main_v3 main_v19 ((extractStridedSlice S4x1024 ![0, 0] · slices_S8x1024_S4x1024_0_0) : (⟨S8x1024, .i1⟩ : BufTy).Contents (Elt F) → (⟨S4x1024, .i1⟩ : BufTy).Contents (Elt F)),
    StableHlo.unary main_v19 main_v20 ((extui 32 · natLt_1_32) : (⟨S4x1024, .i1⟩ : BufTy).Contents (Elt F) → (⟨S4x1024, .i32⟩ : BufTy).Contents (Elt F)),
    StableHlo.nullary main_c_3 (constantI S_ 32 0#32),
    StableHlo.binary main_v20 main_c_3 main_v21 ((fun x v => Host.reduce IntOp.addi x v reducesTo_S4x1024_S_d0_1 h_S_) : (⟨S4x1024, .i32⟩ : BufTy).Contents (Elt F) → (⟨S_, .i32⟩ : BufTy).Contents (Elt F) → (⟨S_, .i32⟩ : BufTy).Contents (Elt F)),
    StableHlo.nullary main_c_4 (constantI S_ 32 1#32),
    StableHlo.binary main_v21 main_c_4 main_v22 (maxsi : (⟨S_, .i32⟩ : BufTy).Contents (Elt F) → (⟨S_, .i32⟩ : BufTy).Contents (Elt F) → (⟨S_, .i32⟩ : BufTy).Contents (Elt F)),
    StableHlo.unary main_v22 main_v23 (sitofp .f32 : (⟨S_, .i32⟩ : BufTy).Contents (Elt F) → (⟨S_, .f32⟩ : BufTy).Contents (Elt F)),
    StableHlo.unary main_v9 main_v24 ((extractStridedSlice S4x1024 ![0, 0] · slices_S8x1024_S4x1024_0_0) : (⟨S8x1024, .f32⟩ : BufTy).Contents (Elt F) → (⟨S4x1024, .f32⟩ : BufTy).Contents (Elt F)),
    StableHlo.nullary main_cst_5 (constant S_ .f32 0x00000000#32),
    StableHlo.binary main_v24 main_cst_5 main_v25 ((fun x v => Host.reduceAdd x v reducesTo_S4x1024_S_d0_1 h_S_) : (⟨S4x1024, .f32⟩ : BufTy).Contents (Elt F) → (⟨S_, .f32⟩ : BufTy).Contents (Elt F) → (⟨S_, .f32⟩ : BufTy).Contents (Elt F)),
    StableHlo.unary main_v25 main_v26 (Host.negf : (⟨S_, .f32⟩ : BufTy).Contents (Elt F) → (⟨S_, .f32⟩ : BufTy).Contents (Elt F)),
    StableHlo.binary main_v26 main_v23 main_v27 (Host.divf : (⟨S_, .f32⟩ : BufTy).Contents (Elt F) → (⟨S_, .f32⟩ : BufTy).Contents (Elt F) → (⟨S_, .f32⟩ : BufTy).Contents (Elt F)),
    StableHlo.binary main_v17 main_v18 main_v28 (subf : (⟨S4, .f32⟩ : BufTy).Contents (Elt F) → (⟨S4, .f32⟩ : BufTy).Contents (Elt F) → (⟨S4, .f32⟩ : BufTy).Contents (Elt F)),
    StableHlo.unary main_v17 main_v29 (Host.exp : (⟨S4, .f32⟩ : BufTy).Contents (Elt F) → (⟨S4, .f32⟩ : BufTy).Contents (Elt F)),
    StableHlo.unary main_v29 main_v30 (Host.negf : (⟨S4, .f32⟩ : BufTy).Contents (Elt F) → (⟨S4, .f32⟩ : BufTy).Contents (Elt F)),
    StableHlo.unary main_v30 main_v31 (Host.log1p : (⟨S4, .f32⟩ : BufTy).Contents (Elt F) → (⟨S4, .f32⟩ : BufTy).Contents (Elt F)),
    StableHlo.unary main_v18 main_v32 (Host.exp : (⟨S4, .f32⟩ : BufTy).Contents (Elt F) → (⟨S4, .f32⟩ : BufTy).Contents (Elt F)),
    StableHlo.unary main_v32 main_v33 (Host.negf : (⟨S4, .f32⟩ : BufTy).Contents (Elt F) → (⟨S4, .f32⟩ : BufTy).Contents (Elt F)),
    StableHlo.unary main_v33 main_v34 (Host.log1p : (⟨S4, .f32⟩ : BufTy).Contents (Elt F) → (⟨S4, .f32⟩ : BufTy).Contents (Elt F)),
    StableHlo.binary main_v31 main_v34 main_v35 (subf : (⟨S4, .f32⟩ : BufTy).Contents (Elt F) → (⟨S4, .f32⟩ : BufTy).Contents (Elt F) → (⟨S4, .f32⟩ : BufTy).Contents (Elt F)),
    StableHlo.binary main_v28 main_v35 main_v36 (subf : (⟨S4, .f32⟩ : BufTy).Contents (Elt F) → (⟨S4, .f32⟩ : BufTy).Contents (Elt F) → (⟨S4, .f32⟩ : BufTy).Contents (Elt F)),
    StableHlo.unary main_v36 main_call3_v0 (Host.negf : (⟨S4, .f32⟩ : BufTy).Contents (Elt F) → (⟨S4, .f32⟩ : BufTy).Contents (Elt F)),
    StableHlo.nullary main_call3_call0_cst (constant S_ .f32 0x00000000#32),
    StableHlo.unary main_call3_call0_cst main_call3_call0_v0 (broadcastInDim S4 ![] bcast_S_S4 : (⟨S_, .f32⟩ : BufTy).Contents (Elt F) → (⟨S4, .f32⟩ : BufTy).Contents (Elt F)),
    StableHlo.binary main_call3_v0 main_call3_call0_v0 main_call3_call0_v1 (maximumf : (⟨S4, .f32⟩ : BufTy).Contents (Elt F) → (⟨S4, .f32⟩ : BufTy).Contents (Elt F) → (⟨S4, .f32⟩ : BufTy).Contents (Elt F)),
    StableHlo.unary main_call3_call0_cst main_call3_call0_v2 (broadcastInDim S4 ![] bcast_S_S4 : (⟨S_, .f32⟩ : BufTy).Contents (Elt F) → (⟨S4, .f32⟩ : BufTy).Contents (Elt F)),
    StableHlo.binary main_call3_v0 main_call3_call0_v2 main_call3_call0_v3 (subf : (⟨S4, .f32⟩ : BufTy).Contents (Elt F) → (⟨S4, .f32⟩ : BufTy).Contents (Elt F) → (⟨S4, .f32⟩ : BufTy).Contents (Elt F)),
    StableHlo.binary main_call3_call0_v3 main_call3_call0_v3 main_call3_call0_v4 (cmpf .une : (⟨S4, .f32⟩ : BufTy).Contents (Elt F) → (⟨S4, .f32⟩ : BufTy).Contents (Elt F) → (⟨S4, .i1⟩ : BufTy).Contents (Elt F)),
    StableHlo.unary main_call3_call0_cst main_call3_call0_v5 (broadcastInDim S4 ![] bcast_S_S4 : (⟨S_, .f32⟩ : BufTy).Contents (Elt F) → (⟨S4, .f32⟩ : BufTy).Contents (Elt F)),
    StableHlo.binary main_call3_v0 main_call3_call0_v5 main_call3_call0_v6 (addf : (⟨S4, .f32⟩ : BufTy).Contents (Elt F) → (⟨S4, .f32⟩ : BufTy).Contents (Elt F) → (⟨S4, .f32⟩ : BufTy).Contents (Elt F)),
    StableHlo.unary main_call3_call0_v3 main_call3_call0_v7 (Host.absf : (⟨S4, .f32⟩ : BufTy).Contents (Elt F) → (⟨S4, .f32⟩ : BufTy).Contents (Elt F)),
    StableHlo.unary main_call3_call0_v7 main_call3_call0_v8 (Host.negf : (⟨S4, .f32⟩ : BufTy).Contents (Elt F) → (⟨S4, .f32⟩ : BufTy).Contents (Elt F)),
    StableHlo.unary main_call3_call0_v8 main_call3_call0_v9 (Host.exp : (⟨S4, .f32⟩ : BufTy).Contents (Elt F) → (⟨S4, .f32⟩ : BufTy).Contents (Elt F)),
    StableHlo.unary main_call3_call0_v9 main_call3_call0_v10 (Host.log1p : (⟨S4, .f32⟩ : BufTy).Contents (Elt F) → (⟨S4, .f32⟩ : BufTy).Contents (Elt F)),
    StableHlo.binary main_call3_call0_v1 main_call3_call0_v10 main_call3_call0_v11 (addf : (⟨S4, .f32⟩ : BufTy).Contents (Elt F) → (⟨S4, .f32⟩ : BufTy).Contents (Elt F) → (⟨S4, .f32⟩ : BufTy).Contents (Elt F)),
    StableHlo.ternary main_call3_call0_v4 main_call3_call0_v6 main_call3_call0_v11 main_call3_v1 (select : (⟨S4, .i1⟩ : BufTy).Contents (Elt F) → (⟨S4, .f32⟩ : BufTy).Contents (Elt F) → (⟨S4, .f32⟩ : BufTy).Contents (Elt F) → (⟨S4, .f32⟩ : BufTy).Contents (Elt F)),
    StableHlo.unary main_call3_v1 main_v37 (Host.negf : (⟨S4, .f32⟩ : BufTy).Contents (Elt F) → (⟨S4, .f32⟩ : BufTy).Contents (Elt F)),
    StableHlo.nullary main_cst_6 (constant S_ .f32 0x00000000#32),
    StableHlo.binary main_v37 main_cst_6 main_v38 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_7 (constant S_ .f32 0x3DCCCCCD#32),
    StableHlo.binary main_cst_7 main_v38 main_v39 (mulf : (⟨S_, .f32⟩ : BufTy).Contents (Elt F) → (⟨S_, .f32⟩ : BufTy).Contents (Elt F) → (⟨S_, .f32⟩ : BufTy).Contents (Elt F)),
    StableHlo.nullary main_cst_8 (constant S_ .f32 0x40800000#32),
    StableHlo.binary main_v39 main_cst_8 main_v40 (Host.divf : (⟨S_, .f32⟩ : BufTy).Contents (Elt F) → (⟨S_, .f32⟩ : BufTy).Contents (Elt F) → (⟨S_, .f32⟩ : BufTy).Contents (Elt F)),
    StableHlo.binary main_v27 main_v40 main_v41 (subf : (⟨S_, .f32⟩ : BufTy).Contents (Elt F) → (⟨S_, .f32⟩ : BufTy).Contents (Elt F) → (⟨S_, .f32⟩ : BufTy).Contents (Elt F)) ]

theorem opsP_split : (opsP : List (HloOp τ sig (Elt F))) = s1 ++ (s2 ++ (s3 ++ (s4 ++ s5))) := rfl

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

attribute [local irreducible] Host.reduce Host.reduceAdd Host.gather in
/-- The first slice leaves the row-wise log-softmax of the logits. -/
theorem s1_v1 (V : Valuation τ sig (Elt F)) :
    after s1 V (main_v1 : DevRef τ sig) = RefDefs.logSoftmax (RefDefs.logits (V (main_arg0 : DevRef τ sig)) (V (main_arg2 : DevRef τ sig))) := by
  after_results_simp
  rfl

theorem s1_arg1 (V : Valuation τ sig (Elt F)) :
    after s1 V (main_arg1 : DevRef τ sig) = V (main_arg1 : DevRef τ sig) := by
  after_results_simp

attribute [local irreducible] Host.reduce Host.reduceAdd Host.gather in
/-- The second slice leaves the mask of counted tokens … -/
theorem s2_v3 (V : Valuation τ sig (Elt F)) :
    after s2 V (main_v3 : DevRef τ sig) = RefDefs.mask (V (main_arg1 : DevRef τ sig)) := by
  after_results_simp
  rfl

attribute [local irreducible] Host.reduce Host.reduceAdd Host.gather in
/-- … and the safe ids. -/
theorem s2_v4 (V : Valuation τ sig (Elt F)) :
    after s2 V (main_v4 : DevRef τ sig) = RefDefs.safeY (V (main_arg1 : DevRef τ sig)) := by
  after_results_simp
  rfl

theorem s2_v1 (V : Valuation τ sig (Elt F)) :
    after s2 V (main_v1 : DevRef τ sig) = V (main_v1 : DevRef τ sig) := by
  after_results_simp

attribute [local irreducible] Host.reduce Host.reduceAdd Host.gather in
/-- The third slice reads each row at its (broadcast) id. -/
theorem s3_v6 (V : Valuation τ sig (Elt F)) :
    after s3 V (main_v6 : DevRef τ sig) = RefDefs.takeAlong (V (main_v1 : DevRef τ sig)) (broadcastInDim S8x1024x1 ![0, 1] bcast_S8x1024_S8x1024x1_0_1 (V (main_v4 : DevRef τ sig))) := by
  after_results_simp
  rfl

theorem s3_v3 (V : Valuation τ sig (Elt F)) :
    after s3 V (main_v3 : DevRef τ sig) = V (main_v3 : DevRef τ sig) := by
  after_results_simp

attribute [local irreducible] Host.reduce Host.reduceAdd Host.gather in
/-- The fourth slice multiplies the entries read by the mask. -/
theorem s4_v9 (V : Valuation τ sig (Elt F)) :
    after s4 V (main_v9 : DevRef τ sig) = mulf (shapeCast S8x1024 (V (main_v6 : DevRef τ sig)) shapeCasts_S8x1024x1_S8x1024) (uitofp .f32 (V (main_v3 : DevRef τ sig))) := by
  after_results_simp
  rfl

theorem s4_v3 (V : Valuation τ sig (Elt F)) :
    after s4 V (main_v3 : DevRef τ sig) = V (main_v3 : DevRef τ sig) := by
  after_results_simp

attribute [local irreducible] Host.reduce Host.reduceAdd Host.gather in
/-- The last slice is the loss from the per-token terms and the mask. -/
theorem s5_v41 (V : Valuation τ sig (Elt F)) :
    after s5 V (main_v41 : DevRef τ sig) = Cert.Tail.tailG id (V (main_v9 : DevRef τ sig)) (V (main_v3 : DevRef τ sig)) := by
  after_results_simp
  rfl

/-- Together: the last buffer holds `refVal` of the three arguments. -/
theorem out_eq (V : Valuation τ sig (Elt F)) :
    after opsP V (main_v41 : DevRef τ sig)
      = RefDefs.refVal (V (main_arg0 : DevRef τ sig)) (V (main_arg1 : DevRef τ sig)) (V (main_arg2 : DevRef τ sig)) := by
  rw [opsP_split, after_app, after_app, after_app, after_app, s5_v41, s4_v9, s4_v3, s3_v6, s3_v3, s2_v1, s2_v4, s2_v3, s1_v1, s1_arg1]
  rfl

theorem arg0_eq (V : Valuation τ sig (Elt F)) :
    after opsP V (main_arg0 : DevRef τ sig) = V (main_arg0 : DevRef τ sig) := by
  after_results_simp

theorem arg1_eq (V : Valuation τ sig (Elt F)) :
    after opsP V (main_arg1 : DevRef τ sig) = V (main_arg1 : DevRef τ sig) := by
  after_results_simp

theorem arg2_eq (V : Valuation τ sig (Elt F)) :
    after opsP V (main_arg2 : DevRef τ sig) = V (main_arg2 : DevRef τ sig) := by
  after_results_simp

/-- From any memory with zero counters every weakly fair execution of the reference terminates with its result at
    `refVal` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41)
          = RefDefs.refVal (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v41).trans (out_eq _), (h c main_arg0).trans (arg0_eq _),
      (h c main_arg1).trans (arg1_eq _), (h c main_arg2).trans (arg2_eq _)⟩)
    (run_seq scopedRefs_eq scopedSems_eq defs main (fun _ => opsP) main_eqP (fun _ => opsP_sub) m ρ)

end Cert.ReferenceIdeal.RefRun

end
-- ==== Proof.RefValue.lean ====
/-
  The reference's per-token values are the token specification.

  With real entries every logit is real, so a row's maximum is real and the shifted exponentials sum to a positive real;
  the log-softmax entry at the target is the target's logit less the row's log-sum-exp.  A label in range is read
  where it points (no shift, in range, no fill value); an ignored token reads column `0` and is multiplied by `0`.
-/
import proofs.«402844_j8701603741902_3_alg».proof.Proof.RefDefs
import proofs.«402844_j8701603741902_3_alg».proof.Proof.SpecTok
import proofs.«402844_j8701603741902_3_alg».proof.Proof.OnlineLse
import Idealize.ShloMosaic.Lib.IdealHost
import Idealize.ShloMosaic.Lib.Pipeline.Value

noncomputable section

namespace Cert.ReferenceIdeal.RefValue

open Cert.ReferenceIdeal Idealize.ShloMosaic Idealize.ShloMosaic.ValueIdx Cert.Spec

/-! ### Operations read at an index, over arbitrary extents -/

/-- A contraction of the last axis of a [B, T, H] array against the last axis of a [V, H] array, read at an index. -/
theorem dot_rows_apply {B T H V : Nat} {φ₁ φ₂ : FTy}
    (w : DotDims.WF ⟨3, ![B, T, H]⟩ ⟨2, ![V, H]⟩ ⟨3, ![B, T, V]⟩ [2] [1] [0, 1] [0] [] [])
    (prec : Option ContractPrecision) (A : FVec Ideal ⟨3, ![B, T, H]⟩ φ₁) (W : FVec Ideal ⟨2, ![V, H]⟩ φ₂)
    (b : Fin B) (t : Fin T) (v : Fin V) :
    Host.dotGeneral (⟨[2], [1], [0, 1], [0], [], [], w⟩ : DotDims _ _ _) prec A W (ix3 b t v)
      = ∑ h : Fin H, A (ix3 b t h) * W (ix2 v h) := by
  show FloatOps.dotGeneral _ prec _ A W (ix3 b t v) = _
  rw [Ideal.dotGeneral_apply,
    ← Equiv.sum_comp (contrEquiv1 (⟨[2], [1], [0, 1], [0], [], [], w⟩ : DotDims _ _ _) H rfl rfl).symm]
  refine Finset.sum_congr rfl fun c _ => ?_
  have c3 := contrEquiv1_symm_val
    (⟨[2], [1], [0, 1], [0], [], [], w⟩ : DotDims ⟨3, ![B, T, H]⟩ ⟨2, ![V, H]⟩ ⟨3, ![B, T, V]⟩) H rfl rfl c
  have l3 : (⟨[2], [1], [0, 1], [0], [], [], w⟩ : DotDims ⟨3, ![B, T, H]⟩ ⟨2, ![V, H]⟩ ⟨3, ![B, T, V]⟩).lhsIdx (ix3 b t v)
      ((contrEquiv1 _ H rfl rfl).symm c) = ix3 b t c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![B, T, H]⟩ ⟨2, ![V, H]⟩ ⟨3, ![B, T, V]⟩).rhsIdx (ix3 b t v)
      ((contrEquiv1 _ H rfl rfl).symm c) = ix2 v c := by
    funext ax; apply Fin.ext
    match ax with
    | ⟨0, _⟩ => simp [DotDims.rhsIdx]; rfl
    | ⟨1, _⟩ => simp [DotDims.rhsIdx]; exact c3
  rw [l3, r3]

/-- The reduced index `(b, t)` with the last coordinate `k` put back is `(b, t, k)`. -/
theorem lift3_last {B T V : Nat} (h : (⟨3, ![B, T, V]⟩ : Shape).Reduces [2] (⟨2, ![B, T]⟩ : Shape)) (b : Fin B) (t : Fin T)
    (k : Fin ((⟨3, ![B, T, V]⟩ : Shape).size 2)) : h.lift (ix2 b t) k = ix3 b t (⟨k.val, k.isLt⟩ : Fin V) := by
  funext c; apply Fin.ext
  fin_cases c <;> rfl

/-- The same one rank up: `(b, t, u)` with the last coordinate put back. -/
theorem lift4_last {B T C D : Nat} (h : (⟨4, ![B, T, C, D]⟩ : Shape).Reduces [3] (⟨3, ![B, T, C]⟩ : Shape)) (b : Fin B) (t : Fin T)
    (u : Fin C) (k : Fin ((⟨4, ![B, T, C, D]⟩ : Shape).size 3)) :
    h.lift (ix3 b t u) k = ix4 b t u (⟨k.val, k.isLt⟩ : Fin D) := by
  funext c; apply Fin.ext
  fin_cases c <;> rfl

/-- The dimension numbers of a row-wise read: operand [B, T, V], start indices [B, T, 1, 1], result [B, T, 1]; the two
    leading axes are batching axes, the last operand axis is indexed and collapsed. -/
abbrev rowDims (B T V : Nat)
    (wf : GatherDims.WF ⟨3, ![B, T, V]⟩ ⟨4, ![B, T, 1, 1]⟩ ⟨3, ![B, T, 1]⟩ [] [2] [0, 1] [2] [0, 1] 3 ![1, 1, 1]) :
    GatherDims ⟨3, ![B, T, V]⟩ ⟨4, ![B, T, 1, 1]⟩ ⟨3, ![B, T, 1]⟩ where
  offsetDims := []
  collapsedSliceDims := [2]
  operandBatchingDims := [0, 1]
  startIndicesBatchingDims := [0, 1]
  startIndexMap := [2]
  indexVectorDim := 3
  sliceSizes := ![1, 1, 1]
  wf := wf

/-- A row-wise read: operand [B, T, V], one start index per row held in a [B, T, 1, 1] array, result [B, T, 1].
    Row `(b, t)` is read at its start index, taken signed and clamped into `[0, V - 1]`. -/
theorem gather_row_apply {α : Type} {B T V w : Nat} (hV : 0 < V)
    (wf : GatherDims.WF ⟨3, ![B, T, V]⟩ ⟨4, ![B, T, 1, 1]⟩ ⟨3, ![B, T, 1]⟩ [] [2] [0, 1] [2] [0, 1] 3 ![1, 1, 1])
    (x : (⟨3, ![B, T, V]⟩ : Shape).Idx → α) (idx : IVec ⟨4, ![B, T, 1, 1]⟩ w) (b : Fin B) (t : Fin T) :
    Host.gather (rowDims B T V wf) x idx (ix3 b t (0 : Fin 1))
      = x (ix3 b t ⟨min (idx (ix4 b t (0 : Fin 1) (0 : Fin 1))).toInt.toNat (V - 1), by omega⟩) := by
  unfold Host.gather
  congr 1
  funext a
  refine Fin.ext ?_
  show (rowDims B T V wf).start (ix3 b t (0 : Fin 1)) idx a + (rowDims B T V wf).batchCoord (ix3 b t (0 : Fin 1)) a
    + (rowDims B T V wf).offCoord (ix3 b t (0 : Fin 1)) a = _
  match a with
  | ⟨0, _⟩ =>
    rw [GatherDims.start_batching _ _ _ _ (by simp), GatherDims.offCoord_eq_zero _ _ _ (fun h => by
      have := ((GatherDims.mem_sKept _ _).mp h).2; simp at this)]
    simp [GatherDims.batchCoord, GatherDims.siCoord]
    rfl
  | ⟨1, _⟩ =>
    rw [GatherDims.start_batching _ _ _ _ (by simp), GatherDims.offCoord_eq_zero _ _ _ (fun h => by
      have := ((GatherDims.mem_sKept _ _).mp h).2; simp at this)]
    simp [GatherDims.batchCoord, GatherDims.siCoord]
    rfl
  | ⟨2, _⟩ =>
    rw [GatherDims.batchCoord_eq_zero _ _ _ (by simp), GatherDims.offCoord_eq_zero _ _ _ (fun h => by
      have := ((GatherDims.mem_sKept _ _).mp h).1; simp at this)]
    simp only [Nat.add_zero]
    unfold GatherDims.start
    rw [dif_pos (show (⟨2, by decide⟩ : Fin 3) ∈ (rowDims B T V wf).startIndexMap from List.mem_singleton.mpr rfl)]
    have hsi : (rowDims B T V wf).siIdx (ix3 b t (0 : Fin 1)) ⟨List.idxOf (⟨2, by decide⟩ : Fin 3) (rowDims B T V wf).startIndexMap,
        List.idxOf_lt_length_iff.2 (List.mem_singleton.mpr rfl)⟩ = ix4 b t (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-! ### The layout operations of this program read at an index -/

open Cert.ReferenceIdeal.Facts₀ in
/-- A [8, 1024] array given a trailing unit axis reads the same entry. -/
theorem bcast_col_apply {α : Type} (X : S8x1024.Idx → α) (b : Fin 8) (t : Fin 1024) :
    broadcastInDim S8x1024x1 ![0, 1] bcast_S8x1024_S8x1024x1_0_1 X (ix3 b t (0 : Fin 1)) = X (ix2 b t) := by
  refine broadcastInDim_apply _ _ X _ (ix2 b t) fun a => ?_
  match a with
  | ⟨0, _⟩ => rfl
  | ⟨1, _⟩ => rfl

open Cert.ReferenceIdeal.Facts₀ in
/-- A [8, 1024, 1] array stretched along its unit axis reads the row's one entry at every column. -/
theorem bcast_row_apply {α : Type} (X : S8x1024x1.Idx → α) (b : Fin 8) (t : Fin 1024) (v : Fin 32000) :
    broadcastInDim S8x1024x32000 ![0, 1, 2] bcast_S8x1024x1_S8x1024x32000_0_1_2 X (ix3 b t v) = X (ix3 b t (0 : Fin 1)) := by
  refine broadcastInDim_apply _ _ X _ (ix3 b t (0 : Fin 1)) fun a => ?_
  match a with
  | ⟨0, _⟩ => rfl
  | ⟨1, _⟩ => rfl
  | ⟨2, _⟩ => rfl

open Cert.ReferenceIdeal.Facts₀ in
/-- Dropping the trailing unit axis reads the same entry. -/
theorem cast_drop_apply {α : Type} (X : S8x1024x1.Idx → α) (b : Fin 8) (t : Fin 1024) :
    shapeCast S8x1024 X shapeCasts_S8x1024x1_S8x1024 (ix2 b t) = X (ix3 b t (0 : Fin 1)) := by
  refine shapeCast_apply X _ (ix2 b t) (ix3 b t (0 : Fin 1)) ?_
  rw [Shape.rowMajor_val_three, Shape.rowMajor_val_two]
  show (b.val * 1024 + t.val) * 1 + 0 = b.val * 1024 + t.val
  omega

open Cert.ReferenceIdeal.Facts₀ in
/-- Adding a second trailing unit axis reads the same entry. -/
theorem cast_add_apply {α : Type} (X : S8x1024x1.Idx → α) (b : Fin 8) (t : Fin 1024) :
    shapeCast S8x1024x1x1 X shapeCasts_S8x1024x1_S8x1024x1x1 (ix4 b t (0 : Fin 1) (0 : Fin 1)) = X (ix3 b t (0 : Fin 1)) := by
  refine shapeCast_apply X _ (ix4 b t (0 : Fin 1) (0 : Fin 1)) (ix3 b t (0 : Fin 1)) ?_
  rw [Shape.rowMajor_val_three, Shape.rowMajor_val_four]
  show (b.val * 1024 + t.val) * 1 + 0 = ((b.val * 1024 + t.val) * 1 + 0) * 1 + 0
  omega

/-! ### The log-softmax of a row -/

/-- The f32 pattern of `-∞` is the bottom of the extended reals. -/
theorem ofBits_neg_inf : Ideal.ofBits .f32 0xFF800000#32 = (⊥ : EReal) := by
  simp [Ideal.ofBits, Ideal.ieee]

/-- The reference's shifted form on one row: each entry less the row's maximum (folded from `-∞`, taken once more
    against `-∞`), less the logarithm of `0 +` the sum of the shifted exponentials. -/
def lsmRow (r : Fin 32000 → EReal) (v : Fin 32000) : EReal :=
  (r v - max ⊥ ((Finset.univ : Finset (Fin 32000)).fold max ⊥ r))
    - Ideal.log (0 + ∑ j : Fin 32000, Ideal.exp (r j - max ⊥ ((Finset.univ : Finset (Fin 32000)).fold max ⊥ r)))

/-- On a row of reals it is the entry less the row's log-sum-exp. -/
theorem lsmRow_coe (a : Fin 32000 → ℝ) (v : Fin 32000) :
    lsmRow (fun j => ((a j : ℝ) : EReal)) v = ((a v - lse a : ℝ) : EReal) :=
  shifted_lse a v

/-- The host's logarithm at an index is the extended reals' logarithm of the element. -/
theorem hostLog_apply {s : Shape} {φ : FTy} (X : FVec Ideal s φ) (i : s.Idx) : Host.log X i = Ideal.log (X i) := rfl

/-- The host's exponential at an index is the extended reals' exponential of the element. -/
theorem hostExp_apply {s : Shape} {φ : FTy} (X : FVec Ideal s φ) (i : s.Idx) : Host.exp X i = Ideal.exp (X i) := rfl

theorem reduces_last : S8x1024x32000.Reduces [2] S8x1024 := by decide

open Cert.ReferenceIdeal.Facts₀ in
/-- A row's maximum as the reference takes it. -/
theorem rowMax_apply (L : FVec Ideal S8x1024x32000 .f32) (b : Fin 8) (t : Fin 1024) :
    RefDefs.rowMax L (ix2 b t) = max ⊥ ((Finset.univ : Finset (Fin 32000)).fold max ⊥ fun v => L (ix3 b t v)) := by
  unfold RefDefs.rowMax
  rw [maximumf_apply, broadcastInDim_scalar_apply, constant_apply, ofBits_neg_inf,
    Host.reduce_eq_fold_single FloatOps.maximumf L _ reducesTo_S8x1024x32000_S8x1024_d2 reduces_last h_S_]
  refine congrArg (max ⊥) ?_
  have hf : (L ∘ reduces_last.lift (ix2 b t)) = fun v : Fin 32000 => L (ix3 b t v) :=
    funext fun k => congrArg L (lift3_last reduces_last b t k)
  rw [constant_apply, ofBits_neg_inf]
  exact congrArg (fun f => Finset.fold max ⊥ f (Finset.univ : Finset (Fin 32000))) hf

open Cert.ReferenceIdeal.Facts₀ in
/-- An entry less its row's maximum. -/
theorem shifted_apply (L : FVec Ideal S8x1024x32000 .f32) (b : Fin 8) (t : Fin 1024) (v : Fin 32000) :
    RefDefs.shifted L (ix3 b t v) = L (ix3 b t v) - RefDefs.rowMax L (ix2 b t) := by
  unfold RefDefs.shifted
  rw [subf_apply, bcast_row_apply, bcast_col_apply]

open Cert.ReferenceIdeal.Facts₀ in
/-- The reference's log-softmax at an entry is the shifted form of the entry's row. -/
theorem logSoftmax_apply (L : FVec Ideal S8x1024x32000 .f32) (b : Fin 8) (t : Fin 1024) (v : Fin 32000) :
    RefDefs.logSoftmax L (ix3 b t v) = lsmRow (fun j => L (ix3 b t j)) v := by
  unfold RefDefs.logSoftmax
  rw [subf_apply, bcast_row_apply, hostLog_apply, bcast_col_apply, hostReduceAdd_apply, Ideal.hostReduceAdd_single reducesTo_S8x1024x32000_S8x1024_d2 reduces_last,
    constant_apply, Ideal.ofBits_zero_f32, shifted_apply, rowMax_apply]
  unfold lsmRow
  refine congrArg (fun S => (L (ix3 b t v) - max ⊥ ((Finset.univ : Finset (Fin 32000)).fold max ⊥ fun j => L (ix3 b t j)))
    - Ideal.log (0 + S)) ?_
  refine Finset.sum_congr rfl fun k _ => ?_
  rw [lift3_last reduces_last b t k, hostExp_apply, shifted_apply, rowMax_apply]
  rfl

/-! ### The logits of real inputs -/

open Cert.ReferenceIdeal.Facts₀ in
/-- With real entries each logit is the real row entry. -/
theorem logits_apply (xr : SX.Idx → ℝ) (wr : SW.Idx → ℝ) (b : Fin 8) (t : Fin 1024) (v : Fin 32000) :
    RefDefs.logits (F := Ideal) (fun i => ((xr i : ℝ) : EReal)) (fun i => ((wr i : ℝ) : EReal)) (ix3 b t v)
      = ((rowOf xr wr b t v : ℝ) : EReal) := by
  unfold RefDefs.logits
  refine (dot_rows_apply dot_S8x1024x2048_S32000x2048_S8x1024x32000_2_1_01_0_n_n_wf none
    (fun i => ((xr i : ℝ) : EReal)) (fun i => ((wr i : ℝ) : EReal)) b t v).trans ?_
  unfold rowOf
  rw [coe_sum']
  exact Finset.sum_congr rfl fun h _ => (EReal.coe_mul _ _).symm

/-- So the log-softmax of the logits is, entry by entry, the logit less its row's log-sum-exp. -/
theorem logSoftmax_logits_apply (xr : SX.Idx → ℝ) (wr : SW.Idx → ℝ) (b : Fin 8) (t : Fin 1024) (v : Fin 32000) :
    RefDefs.logSoftmax (RefDefs.logits (F := Ideal) (fun i => ((xr i : ℝ) : EReal)) (fun i => ((wr i : ℝ) : EReal))) (ix3 b t v)
      = ((rowOf xr wr b t v - lse (rowOf xr wr b t) : ℝ) : EReal) := by
  rw [logSoftmax_apply]
  have hrow : (fun j => RefDefs.logits (F := Ideal) (fun i => ((xr i : ℝ) : EReal)) (fun i => ((wr i : ℝ) : EReal)) (ix3 b t j))
      = fun j => ((rowOf xr wr b t j : ℝ) : EReal) := funext fun j => logits_apply xr wr b t j
  rw [hrow]
  exact lsmRow_coe (rowOf xr wr b t) v

/-! ### Reading a row at a label -/

/-- A fold of `and` from `1` over bits that are all `1` is `1`. -/
theorem fold_andi_one {ι : Type} [DecidableEq ι] (s : Finset ι) (f : ι → BitVec 1) (h : ∀ i ∈ s, f i = 1#1) :
    s.fold IntOp.andi 1#1 f = 1#1 := by
  induction s using Finset.induction_on with
  | empty => rfl
  | insert a s ha ih =>
    rw [Finset.fold_insert ha, h a (Finset.mem_insert_self a s), ih fun i hi => h i (Finset.mem_insert_of_mem hi)]
    rfl

/-- A word below `32000` read signed is itself. -/
theorem toInt_of_lt {s : BitVec 32} (h : s.toNat < 32000) : s.toInt = (s.toNat : ℤ) :=
  BitVec.toInt_eq_toNat_of_lt (by omega)

open Cert.ReferenceIdeal.Facts₀ in
/-- An index that is a column is not shifted. -/
theorem wrapIdx_apply (idx : IVec S8x1024x1 32) (b : Fin 8) (t : Fin 1024) (h : (idx (ix3 b t (0 : Fin 1))).toNat < 32000) :
    RefDefs.wrapIdx idx (ix4 b t (0 : Fin 1) (0 : Fin 1)) = idx (ix3 b t (0 : Fin 1)) := by
  unfold RefDefs.wrapIdx
  rw [cast_add_apply, select_apply]
  have hc : cmpi .slt idx (broadcastInDim S8x1024x1 ![] bcast_S_S8x1024x1 (constantI S_ 32 0#32)) (ix3 b t (0 : Fin 1)) = 0#1 := by
    refine eq_zero_of_ne_one fun h1 => ?_
    have h2 : (idx (ix3 b t (0 : Fin 1))).toInt < (0#32 : BitVec 32).toInt := IntOp.cmpi_slt.mp h1
    rw [toInt_of_lt h] at h2
    have h3 : (0#32 : BitVec 32).toInt = 0 := by decide
    omega
  rw [hc, select_zero]

theorem reduces_unit : S8x1024x1x1.Reduces [3] S8x1024x1 := by decide

open Cert.ReferenceIdeal.Facts₀ in
/-- A column lies in `[0, 31999]`. -/
theorem inRange_apply (i : IVec S8x1024x1x1 32) (b : Fin 8) (t : Fin 1024) (h : (i (ix4 b t (0 : Fin 1) (0 : Fin 1))).toNat < 32000) :
    RefDefs.inRange i (ix3 b t (0 : Fin 1)) = 1#1 := by
  unfold RefDefs.inRange
  rw [Host.reduce_eq_fold_single IntOp.andi _ _ reducesTo_S8x1024x1x1_S8x1024x1_d3 reduces_unit h_S_]
  refine fold_andi_one _ _ fun k _ => ?_
  have hk : reduces_unit.lift (ix3 b t (0 : Fin 1)) k = ix4 b t (0 : Fin 1) (0 : Fin 1) := by
    rw [lift4_last reduces_unit b t (0 : Fin 1) k]
    congr 1
    exact Subsingleton.elim _ _
  show andi _ _ (reduces_unit.lift (ix3 b t (0 : Fin 1)) k) = 1#1
  rw [hk]
  refine IntOp.andi_eq_one.mpr ⟨IntOp.cmpi_sge.mpr ?_, IntOp.cmpi_sle.mpr ?_⟩
  · show (0#32 : BitVec 32).toInt ≤ (i (ix4 b t (0 : Fin 1) (0 : Fin 1))).toInt
    rw [toInt_of_lt h]
    have h3 : (0#32 : BitVec 32).toInt = 0 := by decide
    omega
  · show (i (ix4 b t (0 : Fin 1) (0 : Fin 1))).toInt ≤ (31999#32 : BitVec 32).toInt
    rw [toInt_of_lt h]
    have h3 : (31999#32 : BitVec 32).toInt = 31999 := by decide
    omega

open Cert.ReferenceIdeal.Facts₀ in
/-- A row read at a column is the row's entry there. -/
theorem takeAlong_apply (lp : FVec Ideal S8x1024x32000 .f32) (idx : IVec S8x1024x1 32) (b : Fin 8) (t : Fin 1024)
    (h : (idx (ix3 b t (0 : Fin 1))).toNat < 32000) :
    RefDefs.takeAlong lp idx (ix3 b t (0 : Fin 1)) = lp (ix3 b t (colOf (idx (ix3 b t (0 : Fin 1))))) := by
  have hw := wrapIdx_apply idx b t h
  unfold RefDefs.takeAlong
  rw [select_apply, inRange_apply _ b t (by rw [hw]; exact h), select_one]
  refine (gather_row_apply (by decide) gather_S8x1024x32000_S8x1024x1x1_S8x1024x1_n_2_01_01_2_3_111_wf lp
    (RefDefs.wrapIdx idx) b t).trans ?_
  refine congrArg (fun c => lp (ix3 b t c)) (Fin.ext ?_)
  show min (RefDefs.wrapIdx idx (ix4 b t (0 : Fin 1) (0 : Fin 1))).toInt.toNat (32000 - 1) = (idx (ix3 b t (0 : Fin 1))).toNat % 32000
  rw [hw, toInt_of_lt h, Int.toNat_natCast, Nat.mod_eq_of_lt h]
  omega

/-! ### The per-token values -/

/-- The mask bit at a token: `0` at the ignore index, `1` elsewhere. -/
theorem mask_apply (y : IVec SY 32) (b : Fin 8) (t : Fin 1024) :
    RefDefs.mask y (ix2 b t) = IntOp.cmpi .ne (y (ix2 b t)) ignoreWord := rfl

/-- The safe id at a token: the id where the mask is `1`, `0` where it is `0`. -/
theorem safeY_apply (y : IVec SY 32) (b : Fin 8) (t : Fin 1024) :
    RefDefs.safeY y (ix2 b t) = Scalar.select (RefDefs.mask y (ix2 b t)) (y (ix2 b t)) 0#32 := rfl

/-- The mask as a float: the bit's value. -/
theorem uitofp_mask_apply (y : IVec SY 32) (b : Fin 8) (t : Fin 1024) :
    (uitofp .f32 (RefDefs.mask y) : FVec Ideal S8x1024 .f32) (ix2 b t)
      = ((((RefDefs.mask y (ix2 b t)).toNat : ℕ) : ℝ) : EReal) := rfl

open Cert.ReferenceIdeal.Facts₀ in
/-- A token whose safe id is a column contributes the log-probability at that column, times the mask. -/
theorem perTok_apply (xr : SX.Idx → ℝ) (wr : SW.Idx → ℝ) (y : IVec SY 32) (b : Fin 8) (t : Fin 1024)
    (h : (RefDefs.safeY y (ix2 b t)).toNat < 32000) :
    RefDefs.perTok (F := Ideal) (fun i => ((xr i : ℝ) : EReal)) y (fun i => ((wr i : ℝ) : EReal)) (ix2 b t)
      = ((rowOf xr wr b t (colOf (RefDefs.safeY y (ix2 b t))) - lse (rowOf xr wr b t) : ℝ) : EReal)
        * ((((RefDefs.mask y (ix2 b t)).toNat : ℕ) : ℝ) : EReal) := by
  unfold RefDefs.perTok
  rw [mulf_apply, cast_drop_apply, uitofp_mask_apply]
  have hidx : broadcastInDim S8x1024x1 ![0, 1] bcast_S8x1024_S8x1024x1_0_1 (RefDefs.safeY y) (ix3 b t (0 : Fin 1))
      = RefDefs.safeY y (ix2 b t) := bcast_col_apply (RefDefs.safeY y) b t
  rw [takeAlong_apply _ _ b t (by rw [hidx]; exact h), hidx, logSoftmax_logits_apply]

/-- The reference's per-token array, on real inputs and labels in range, is `tokSpec`. -/
theorem perTok_eq (xr : SX.Idx → ℝ) (wr : SW.Idx → ℝ) (y : IVec SY 32) (hy : LabelsOk y) :
    RefDefs.perTok (F := Ideal) (fun i => ((xr i : ℝ) : EReal)) y (fun i => ((wr i : ℝ) : EReal)) = tokSpec xr wr y := by
  funext i
  obtain ⟨b, t, rfl⟩ : ∃ (b : Fin 8) (t : Fin 1024), i = ix2 b t := ⟨i 0, i 1, eq_ix2 i⟩
  by_cases hig : y (ix2 b t) = ignoreWord
  · have hm : RefDefs.mask y (ix2 b t) = 0#1 := by
      rw [mask_apply, hig]
      decide
    have hs : RefDefs.safeY y (ix2 b t) = 0#32 := by
      rw [safeY_apply, hm, select_zero]
    rw [perTok_apply xr wr y b t (by rw [hs]; decide), hm]
    unfold tokSpec
    rw [if_pos hig]
    show ((_ : ℝ) : EReal) * (((0 : ℕ) : ℝ) : EReal) = 0
    rw [Nat.cast_zero, EReal.coe_zero, mul_zero]
  · have hm : RefDefs.mask y (ix2 b t) = 1#1 := by
      rw [mask_apply]
      exact IntOp.cmpi_ne.mpr hig
    have hs : RefDefs.safeY y (ix2 b t) = y (ix2 b t) := by
      rw [safeY_apply, hm, select_one]
    have hlt : (y (ix2 b t)).toNat < 32000 := (hy (ix2 b t)).resolve_left hig
    rw [perTok_apply xr wr y b t (by rw [hs]; exact hlt), hm, hs]
    unfold tokSpec
    rw [if_neg hig]
    show ((_ : ℝ) : EReal) * (((1 : ℕ) : ℝ) : EReal) = _
    rw [Nat.cast_one, EReal.coe_one, mul_one]

end Cert.ReferenceIdeal.RefValue

end
-- ==== Proof.TailClamp.lean ====
/-
  Clamping a non-positive mean at zero changes nothing.

  Each entry of `P` is at most `0`, so each row's sum is at most `0`; the divisor is the conversion of an integer that is
  at least `1`, a positive real; a non-positive extended real over a positive real is non-positive, and its minimum with
  `0` is itself.
-/
import proofs.«402844_j8701603741902_3_alg».proof.Proof.Tail
import Idealize.ShloMosaic.Lib.ValueIdx
import Mathlib.Data.EReal.Operations
import Mathlib.Algebra.Order.BigOperators.Group.Finset

noncomputable section

namespace Cert.Tail

open Idealize.ShloMosaic Idealize.ShloMosaic.ValueIdx

/-- The signed maximum with `1` reads, signed, as an integer that is at least `1`. -/
theorem one_le_toInt_maxsi_one (c : BitVec 32) : 1 ≤ (IntOp.maxsi c 1#32).toInt := by
  unfold IntOp.maxsi
  split
  · next h =>
    have h' := BitVec.slt_iff_toInt_lt.mp h
    have h1 : (1#32 : BitVec 32).toInt = 1 := by decide
    omega
  · decide

/-- A non-positive extended real over a positive real is non-positive. -/
theorem div_coe_nonpos {x : EReal} (hx : x ≤ 0) {r : ℝ} (hr : 0 < r) : Ideal.div x (r : EReal) ≤ 0 := by
  rw [Ideal.div_coe hr.ne']
  have hpos : (0 : EReal) ≤ ((1 / r : ℝ) : EReal) := by
    exact_mod_cast (one_div_pos.mpr hr).le
  exact EReal.mul_nonpos_iff.mpr (Or.inr ⟨hx, hpos⟩)

/-- Each row mean of non-positive entries is non-positive. -/
theorem rowMeans_nonpos (P : FVec Ideal S8x1024 .f32) (K : IVec S8x1024 1) (hP : ∀ i, P i ≤ 0) (j : S8.Idx) :
    rowMeans (F := Ideal) P K j ≤ 0 := by
  unfold rowMeans
  show Ideal.div (Ideal.hostReduceAdd reducesTo_S8x1024_S8_d1 P (Ideal.ofBits .f32 0x00000000#32) j)
      (((IntOp.maxsi _ 1#32).toInt : ℝ) : EReal) ≤ 0
  apply div_coe_nonpos
  · unfold Ideal.hostReduceAdd
    rw [Ideal.ofBits_zero_f32, zero_add]
    exact Finset.sum_nonpos fun i _ => hP i
  · have := one_le_toInt_maxsi_one (Host.reduce IntOp.addi (extui 32 K natLt_1_32) (constantI S_ 32 0#32) reducesTo_S8x1024_S8_d1 h_S_ j)
    exact_mod_cast this

/-- The clamp fixes a slice of a vector whose every entry is non-positive. -/
theorem clamp0_slice (avg : FVec Ideal S8 .f32) (h : ∀ j, avg j ≤ 0) (off : Fin S8.rank → Nat) (hs : S8.Slices off S4) :
    clamp0 (F := Ideal) (extractStridedSlice S4 off avg hs) = extractStridedSlice S4 off avg hs := by
  funext i
  show min (avg _) (Ideal.ofBits .f32 0x00000000#32) = avg _
  rw [Ideal.ofBits_zero_f32]
  exact min_eq_left (h _)

/-- The shared part computed with the clamp is the shared part computed without it, where every entry is non-positive. -/
theorem tailG_clamp (P : FVec Ideal S8x1024 .f32) (K : IVec S8x1024 1) (hP : ∀ i, P i ≤ 0) :
    tailG (F := Ideal) clamp0 P K = tailG (F := Ideal) id P K := by
  have h := rowMeans_nonpos P K hP
  unfold tailG lossOf
  simp only [clamp0_slice _ h, id]

end Cert.Tail

end
-- ==== Proof.PreDecode.lean ====
/-
  What the precondition says of the inputs: every entry of `x` and of `W` is a real number, and every id is a label.

  The precondition is the conjunction of three all-reductions: `|x| < +∞` everywhere, `|W| < +∞` everywhere, and
  `y = -100 ∨ (0 ≤ y ∧ y < 32000)` everywhere (signed comparisons).  An extended real of absolute value below `+∞` is
  neither infinity; a 32-bit word that is signed-non-negative and signed-below 32000 is below 32000 as a natural.
-/
import proofs.«402844_j8701603741902_3_alg».proof.Proof.Gen.Pre_finite_inputs
import proofs.«402844_j8701603741902_3_alg».proof.Proof.SpecTok
import Idealize.ShloMosaic.Lib.ReduceAll
import Idealize.ShloMosaic.Lib.StableHlo.Predicate

noncomputable section

namespace Cert.PreDecode

open Idealize.ShloMosaic Idealize.ShloMosaic.ValueIdx Cert.Spec

/-- The rank-zero shape has one index. -/
instance subsingleton_scalarIdx : Subsingleton (⟨0, ![]⟩ : Shape).Idx := ⟨fun a b => funext fun d => d.elim0⟩

/-- An extended real whose absolute value is below `+∞` is a real number. -/
theorem real_of_abs_lt_top (a : EReal)
    (h : FloatOps.cmpf (F := Ideal) (φ := .f32) .olt (FloatOps.hostAbsf (F := Ideal) (φ := .f32) a) (FloatOps.ofBits (F := Ideal) .f32 0x7F800000#32) = 1#1) :
    ∃ r : ℝ, a = (r : EReal) := by
  have htop : Ideal.ofBits .f32 0x7F800000#32 = ⊤ := by simp [Ideal.ofBits, Ideal.ieee]
  have h' : BitVec.ofBool (decide (max a (-a) < Ideal.ofBits .f32 0x7F800000#32)) = 1#1 := h
  rw [htop] at h'
  induction a using EReal.rec with
  | bot => exact absurd h' (by simp)
  | top => exact absurd h' (by simp)
  | coe r => exact ⟨r, rfl⟩

/-- A word that is signed-non-negative and signed-below 32000 is below 32000 as a natural. -/
theorem toNat_lt_of_signed_range (w : BitVec 32) (h0 : IntOp.cmpi .sge w 0#32 = 1#1) (h1 : IntOp.cmpi .slt w 32000#32 = 1#1) :
    w.toNat < 32000 := by
  unfold IntOp.cmpi at h0 h1
  rw [StableHlo.Predicate.ofBool_eq_one_iff] at h0 h1
  have h0' : (0#32 : BitVec 32).toInt ≤ w.toInt := BitVec.sle_iff_toInt_le.mp h0
  have h1' : w.toInt < (32000#32 : BitVec 32).toInt := BitVec.slt_iff_toInt_lt.mp h1
  have e0 : (0#32 : BitVec 32).toInt = 0 := by decide
  have e1 : (32000#32 : BitVec 32).toInt = 32000 := by decide
  rw [e0] at h0'
  rw [e1] at h1'
  have hc := BitVec.toInt_eq_toNat_cond w
  have hlt := w.isLt
  split at hc <;> omega

/-- Under the precondition the float inputs are coercions of real arrays and the ids are labels. -/
theorem decode (x : FVec Ideal SX .f32) (y : IVec SY 32) (W : FVec Ideal SW .f32)
    (h : Cert.Pre_finite_inputs.fn (F := Ideal) x y W = fun _ => 1#1) :
    (∃ xr : SX.Idx → ℝ, x = fun i => ((xr i : ℝ) : EReal)) ∧ (∃ wr : SW.Idx → ℝ, W = fun i => ((wr i : ℝ) : EReal)) ∧ LabelsOk y := by
  have h0 := congrFun h ix0
  dsimp only [Cert.Pre_finite_inputs.fn, Cert.Pre_finite_inputs.fn_part1] at h0
  obtain ⟨h38, h17⟩ := IntOp.andi_eq_one.1 h0
  obtain ⟨h3, h7⟩ := IntOp.andi_eq_one.1 h38
  have hx := fun i => Host.reduce_andi_all _ _ _ _ _ h3 i
  have hW := fun i => Host.reduce_andi_all _ _ _ _ _ h7 i
  have hy := fun i => Host.reduce_andi_all _ _ _ _ _ h17 i
  have hxr : ∀ i, ∃ r : ℝ, x i = (r : EReal) := fun i => real_of_abs_lt_top (x i) (hx i)
  have hwr : ∀ i, ∃ r : ℝ, W i = (r : EReal) := fun i => real_of_abs_lt_top (W i) (hW i)
  choose xr hxr using hxr
  choose wr hwr using hwr
  refine ⟨⟨xr, funext hxr⟩, ⟨wr, funext hwr⟩, fun i => ?_⟩
  rcases IntOp.ori_eq_one.1 (hy i) with he | ha
  · exact Or.inl (StableHlo.Predicate.cmpi_eq_iff.1 he)
  · obtain ⟨hge, hlt⟩ := IntOp.andi_eq_one.1 ha
    exact Or.inr (toNat_lt_of_signed_range (y i) hge hlt)

end Cert.PreDecode

end
-- ==== Proof.lean ====
/-
  The kernel's fused linear layer with an online log-sum-exp, against the reference's logits, log-softmax and gather,
  for the odds-ratio preference loss.

  Both programs turn each token's row of 32000 logits `a` into `a[y] - log ∑ exp a` (zero for an ignored token) and then
  apply the same reduction to a scalar loss.  The kernel never forms the rows: it walks them in 25 tiles keeping a running
  maximum, a rescaled running sum of exponentials and a running masked sum, which after the last tile are the row's
  log-sum-exp and the target's logit.  The reference subtracts the row's maximum before exponentiating; both are the same
  real number.  The kernel's program also clamps the sequence means at zero before exponentiating them; a mean of
  log-probabilities is never positive, so the clamp is the identity.  The equality needs the entries of `x` and `W`
  to be real (sums and products of infinities do not rearrange) and the ids to be labels (the ignore index, or a
  column of the vocabulary): both are the stated precondition.
-/
import proofs.«402844_j8701603741902_3_alg».proof.Defs
import proofs.«402844_j8701603741902_3_alg».proof.Proof.Gen.Kernel
import proofs.«402844_j8701603741902_3_alg».proof.Proof.Gen.KernelIdeal
import proofs.«402844_j8701603741902_3_alg».proof.Proof.Gen.ReferenceIdeal
import proofs.«402844_j8701603741902_3_alg».proof.Proof.Gen.Pre_finite_inputs
import proofs.«402844_j8701603741902_3_alg».proof.Proof.FrameK.Frame
import proofs.«402844_j8701603741902_3_alg».proof.Proof.FrameKI.Frame
import proofs.«402844_j8701603741902_3_alg».proof.Proof.KHost
import proofs.«402844_j8701603741902_3_alg».proof.Proof.KValue
import proofs.«402844_j8701603741902_3_alg».proof.Proof.RefRun
import proofs.«402844_j8701603741902_3_alg».proof.Proof.RefValue
import proofs.«402844_j8701603741902_3_alg».proof.Proof.TailClamp
import proofs.«402844_j8701603741902_3_alg».proof.Proof.PreDecode
import Idealize.ShloMosaic.Adequacy
import Idealize.ShloMosaic.Init

noncomputable section

namespace Cert.Proof

open Idealize.ShloMosaic Idealize.ShloMosaic.TcCoe Idealize.SL.Sem

/-- A token's contribution is never positive: zero, or a logit less its row's log-sum-exp. -/
theorem tokSpec_nonpos (xr : Cert.Spec.SX.Idx → ℝ) (wr : Cert.Spec.SW.Idx → ℝ) (y : IVec Cert.Spec.SY 32) (i : Cert.Spec.SY.Idx) :
    Cert.Spec.tokSpec xr wr y i ≤ 0 := by
  unfold Cert.Spec.tokSpec
  split
  · exact le_refl _
  · exact EReal.coe_nonpos.mpr (Cert.Spec.sub_lse_nonpos _ _)

theorem frame_k : Cert.frame_Kernel := fun m ρ _ => Cert.Kernel.Gen.Fr.frame m ρ

theorem frame_ki : Cert.frame_KernelIdeal := fun m ρ _ => Cert.KernelIdeal.Gen.Fr.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the shared reduction applied to the token specification and the mask of counted tokens. -/
theorem algebraic : Cert.algebraic_KernelIdeal_ReferenceIdeal := by
  intro m ρ m' ρ' hpre hagree
  have hdec := fun c : Dev Cert.KernelIdeal.nD => Cert.PreDecode.decode _ _ _ (hpre c)
  choose xr hx using fun c => (hdec c).1
  choose wr hw using fun c => (hdec c).2.1
  have hy := fun c => (hdec c).2.2
  refine ⟨fun c => Cert.Tail.tailG (F := Ideal) id
      (Cert.Spec.tokSpec (xr c) (wr c) (m ((c.tc : Thread Cert.KernelIdeal.nD Cert.KernelIdeal.τ).loc Cert.KernelIdeal.main_arg1)))
      (Cert.Tail.maskOf (m ((c.tc : Thread Cert.KernelIdeal.nD Cert.KernelIdeal.τ).loc Cert.KernelIdeal.main_arg1))), ?_, ?_⟩
  · refine (θ_run Cert.KernelIdeal.defs _ _).mono (fun r h c => ⟨?_,
      ((h c).2 Cert.KernelIdeal.main_arg0 (Pipeline.mem_restRefs_of Cert.KernelIdeal.main_arg0 (by decide) (by decide))).trans (Cert.KernelIdeal.Gen.Fr.W_main_arg0 m _ c),
      ((h c).2 Cert.KernelIdeal.main_arg1 (Pipeline.mem_restRefs_of Cert.KernelIdeal.main_arg1 (by decide) (by decide))).trans (Cert.KernelIdeal.Gen.Fr.W_main_arg1 m _ c),
      ((h c).2 Cert.KernelIdeal.main_arg2 (Pipeline.mem_restRefs_of Cert.KernelIdeal.main_arg2 (by decide) (by decide))).trans (Cert.KernelIdeal.Gen.Fr.W_main_arg2 m _ c)⟩)
      (Cert.KernelIdeal.Gen.Fr.run_main (F := Ideal) m ρ)
    refine ((h c).2 Cert.KernelIdeal.main_v51 (Pipeline.mem_restRefs_of Cert.KernelIdeal.main_v51 (by decide) (by decide))).trans ?_
    rw [Cert.KernelIdeal.Gen.Fr.tail_read]
    unfold Cert.Tail.kVal
    rw [Cert.KernelIdeal.Gen.Fr.kPerTok_eq m c (xr c) (wr c) (hx c) (hw c) (hy c), Cert.Tail.kMask_eq]
    exact Cert.Tail.tailG_clamp _ _ (tokSpec_nonpos _ _ _)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2]
    unfold Cert.ReferenceIdeal.RefDefs.refVal
    rw [hx c, hw c, Cert.ReferenceIdeal.RefValue.perTok_eq (xr c) (wr c) _ (hy c)]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
